-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_2)) (v1 : (c : Dev Cert.KernelIdeal.nD) → Buf (Elt Ideal) ((c.tc : Thread Cert.KernelIdeal.nD Cert.KernelIdeal.τ).loc Cert.KernelIdeal.main_v5_3)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_2) = v0 c
          ∧ r.2.mem ((c.tc : Thread Cert.KernelIdeal.nD Cert.KernelIdeal.τ).loc Cert.KernelIdeal.main_v5_3) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_

variable [Facts]

def fn_part3 {F : FTy → Type} [FloatOps F] (main_arg11 : FVec F S32x16 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg11
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  main_v58

def fn_part2 {F : FTy → Type} [FloatOps F] (main_arg7 : FVec F S128x64 .f32) (main_arg8 : FVec F S64 .f32) (main_arg9 : FVec F S64x32 .f32) (main_arg10 : FVec F S32 .f32) (main_arg11 : FVec F S32x16 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_v48 main_v49 main_v50

def fn_part1 {F : FTy → Type} [FloatOps F] (main_arg4 : FVec F S64 .f32) (main_arg5 : FVec F S64x32 .f32) (main_arg6 : FVec F S32 .f32) (main_arg7 : FVec F S128x64 .f32) (main_arg8 : FVec F S64 .f32) (main_arg9 : FVec F S64x32 .f32) (main_arg10 : FVec F S32 .f32) (main_arg11 : FVec F S32x16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S10000x10000 .f32) (main_arg3 : FVec F S128x64 .f32) (main_arg4 : FVec F S64 .f32) (main_arg5 : FVec F S64x32 .f32) (main_arg6 : FVec F S32 .f32) (main_arg7 : FVec F S128x64 .f32) (main_arg8 : FVec F S64 .f32) (main_arg9 : FVec F S64x32 .f32) (main_arg10 : FVec F S32 .f32) (main_arg11 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S10000x64 : Shape := ⟨2, ![10000, 64]⟩
abbrev S1x64 : Shape := ⟨2, ![1, 64]⟩
abbrev S1x32 : Shape := ⟨2, ![1, 32]⟩
abbrev S10000x32 : Shape := ⟨2, ![10000, 32]⟩
abbrev S10000x16 : Shape := ⟨2, ![10000, 16]⟩
abbrev S200x10000 : Shape := ⟨2, ![200, 10000]⟩
abbrev S200x32 : Shape := ⟨2, ![200, 32]⟩
abbrev S200x16 : Shape := ⟨2, ![200, 16]⟩
abbrev S200x64 : Shape := ⟨2, ![200, 64]⟩

abbrev nBuf : Space → Nat
  | .hbm => 22
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x16, .f32⟩
  | .hbm, ⟨12, _⟩ => ⟨S10000x64, .bf16⟩
  | .hbm, ⟨13, _⟩ => ⟨S10000x64, .bf16⟩
  | .hbm, ⟨14, _⟩ => ⟨S1x64, .f32⟩
  | .hbm, ⟨15, _⟩ => ⟨S1x64, .f32⟩
  | .hbm, ⟨16, _⟩ => ⟨S1x32, .f32⟩
  | .hbm, ⟨17, _⟩ => ⟨S1x32, .f32⟩
  | .hbm, ⟨18, _⟩ => ⟨S10000x32, .f32⟩
  | .hbm, ⟨19, _⟩ => ⟨S10000x32, .f32⟩
  | .hbm, ⟨20, _⟩ => ⟨S10000x16, .f32⟩
  | .hbm, ⟨21, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x64, .bf16⟩
  | .local _ .vmem, ⟨10, _⟩ => ⟨S10000x64, .bf16⟩
  | .local _ .vmem, ⟨11, _⟩ => ⟨S1x64, .f32⟩
  | .local _ .vmem, ⟨12, _⟩ => ⟨S64x32, .f32⟩
  | .local _ .vmem, ⟨13, _⟩ => ⟨S1x64, .f32⟩
  | .local _ .vmem, ⟨14, _⟩ => ⟨S64x32, .f32⟩
  | .local _ .vmem, ⟨15, _⟩ => ⟨S32x16, .f32⟩
  | .local _ .vmem, ⟨16, _⟩ => ⟨S1x32, .f32⟩
  | .local _ .vmem, ⟨17, _⟩ => ⟨S1x32, .f32⟩
  | .local _ .vmem, ⟨18, _⟩ => ⟨S200x32, .f32⟩
  | .local _ .vmem, ⟨19, _⟩ => ⟨S200x32, .f32⟩
  | .local _ .vmem, ⟨20, _⟩ => ⟨S200x32, .f32⟩
  | .local _ .vmem, ⟨21, _⟩ => ⟨S200x32, .f32⟩
  | .local _ .vmem, ⟨22, _⟩ => ⟨S200x16, .f32⟩
  | .local _ .vmem, ⟨23, _⟩ => ⟨S200x16, .f32⟩
  | .local _ .vmem, ⟨24, _⟩ => ⟨S200x16, .f32⟩
  | .local _ .vmem, ⟨25, _⟩ => ⟨S200x16, .f32⟩
  | .local _ .vmem, ⟨26, _⟩ => ⟨S10000x32, .f32⟩
  | .local _ .vmem, ⟨27, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg11_1 : Ref sig .tc := ⟨.vmem, 19, rfl⟩
abbrev cc1_stg12_0 : Ref sig .tc := ⟨.vmem, 20, rfl⟩
abbrev cc1_stg12_1 : Ref sig .tc := ⟨.vmem, 21, rfl⟩
abbrev cc1_stg13_0 : Ref sig .tc := ⟨.vmem, 22, rfl⟩
abbrev cc1_stg13_1 : Ref sig .tc := ⟨.vmem, 23, rfl⟩
abbrev cc1_stg14_0 : Ref sig .tc := ⟨.vmem, 24, rfl⟩
abbrev cc1_stg14_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19
abbrev cc1_sem12_0 : DmaSem sig := 20
abbrev cc1_sem12_1 : DmaSem sig := 21
abbrev cc1_sem13_0 : DmaSem sig := 22
abbrev cc1_sem13_1 : DmaSem sig := 23
abbrev cc1_sem14_0 : DmaSem sig := 24
abbrev cc1_sem14_1 : DmaSem sig := 25

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 50], ![false, false]⟩

def k1_cond1 (i : grid1.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k1_off1 (i : grid1.Coords) : Fin 2 → Nat :=
  let arg1 : BitVec 32 := BitVec.ofNat 32 (i 1).val
  let c200_i32 : BitVec 32 := 200#32
  let v0 : BitVec 32 := Scalar.muli arg1 c200_i32
  let v22 : Index := Scalar.indexCast v0
  let c0_13 : Index := 0#32
  ![v22.toNat, 0]
def k1_cond2 (i : grid1.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S10000x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S10000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S200x32 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S200x32 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S200x16 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S200x16 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  shapeCasts_S64_S1x64 : S64.ShapeCasts S1x64
  shapeCasts_S32_S1x32 : S32.ShapeCasts S1x32
  inb_S200x10000_S200x10000_0_0 : ∀ a, (![0, 0] : Fin 2 → Nat) a + S200x10000.size a ≤ S200x10000.size a
  h_S200x10000 : 0 < S200x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x32_S64x32_0_0 : ∀ a, (![0, 0] : Fin 2 → Nat) a + S64x32.size a ≤ S64x32.size a
  h_S64x32 : 0 < S64x32.numel
  h_S200x32 : 0 < S200x32.numel
  shapeCasts_S200x32_S200x32 : S200x32.ShapeCasts S200x32
  inb_S10000x32_S10000x32_0_0 : ∀ a, (![0, 0] : Fin 2 → Nat) a + S10000x32.size a ≤ S10000x32.size a
  h_S10000x32 : 0 < S10000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  inb_S200x32_S200x32_0_0 : ∀ a, (![0, 0] : Fin 2 → Nat) a + S200x32.size a ≤ S200x32.size a
  inb_S32x16_S32x16_0_0 : ∀ a, (![0, 0] : Fin 2 → Nat) a + S32x16.size a ≤ S32x16.size a
  h_S32x16 : 0 < S32x16.numel
  inb_S200x16_S200x16_0_0 : ∀ a, (![0, 0] : Fin 2 → Nat) a + S200x16.size a ≤ S200x16.size a
  h_S200x16 : 0 < S200x16.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x32_S200x32_1_0_0_1_n_n_wf : DotDims.WF S200x64 S64x32 S200x32 [1] [0] [0] [1] [] []
  dot_S200x10000_S10000x32_S200x32_1_0_0_1_n_n_wf : DotDims.WF S200x10000 S10000x32 S200x32 [1] [0] [0] [1] [] []
  dot_S200x32_S32x16_S200x16_1_0_0_1_n_n_wf : DotDims.WF S200x32 S32x16 S200x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  k1_off1_inb : ∀ i : grid1.Coords, ∀ (k1_h1 : k1_cond1 i = 1#1), ∀ a, (k1_off1 i) a + S200x32.size a ≤ S10000x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S10000x64.size a
  hwx1_2 : ∀ i : grid1.Coords, EltTy.bits .bf16 = 32 ∨ (Rect.block (s := S10000x64) S10000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S10000x64.size a
  hwx1_3 : ∀ i : grid1.Coords, EltTy.bits .bf16 = 32 ∨ (Rect.block (s := S10000x64) S10000x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x16.size a ≤ S32x16.size a
  hwx1_8 : ∀ i : grid1.Coords, EltTy.bits .f32 = 32 ∨ (Rect.block (s := S32x16) S32x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S200x32.size a ≤ S10000x32.size a
  hwx1_11 : ∀ i : grid1.Coords, EltTy.bits .f32 = 32 ∨ (Rect.block (s := S10000x32) S200x32.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S200x32.size a ≤ S10000x32.size a
  hwx1_12 : ∀ i : grid1.Coords, EltTy.bits .f32 = 32 ∨ (Rect.block (s := S10000x32) S200x32.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S200x16.size a ≤ S10000x16.size a
  hwx1_13 : ∀ i : grid1.Coords, EltTy.bits .f32 = 32 ∨ (Rect.block (s := S10000x16) S200x16.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S200x16.size a ≤ S10000x16.size a
  hwx1_14 : ∀ i : grid1.Coords, EltTy.bits .f32 = 32 ∨ (Rect.block (s := S10000x16) S200x16.size (cc1_transform_14 i) (hinb1_14 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x32_S200x32_1_0_0_1_n_n : DotDims S200x64 S64x32 S200x32 where
  lhsContracting := [1]
  rhsContracting := [0]
  lhsNonContracting := [0]
  rhsNonContracting := [1]
  lhsBatch := []
  rhsBatch := []
  wf := dot_S200x64_S64x32_S200x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x32_S32x16_S200x16_1_0_0_1_n_n : DotDims S200x32 S32x16 S200x16 where
  lhsContracting := [1]
  rhsContracting := [0]
  lhsNonContracting := [0]
  rhsNonContracting := [1]
  lhsBatch := []
  rhsBatch := []
  wf := dot_S200x32_S32x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg7) false false (stage0_2 0) (sem0_2 0) (Memref.isWhole_whole _) (hstage0_2 0)

abbrev win0_3 : Pipeline.Window sig grid0 :=
  Pipeline.Window.whole (Memref.whole main_v0_0) true false (stage0_3 0) (sem0_3 0) (Memref.isWhole_whole _) (hstage0_3 0)

abbrev win0_4 : Pipeline.Window sig grid0 :=
  Pipeline.Window.whole (Memref.whole main_v0_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S10000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S10000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S32x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v5_0) S200x32.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v5_1) S200x32.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v5_2) S200x16.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v5_3) S200x16.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev idle1 : Fin 15 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | 12 => fun i => !(k1_cond2 i == 1#1) | 13 => fun i => !(k1_cond2 i == 1#1) | 14 => fun i => !(k1_cond2 i == 1#1) | ⟨_ + 15, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩
abbrev S10000x16 : Shape := ⟨2, ![10000, 16]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x16, .f32⟩
  | .hbm, ⟨12, _⟩ => ⟨S10000x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x32, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S10000x32, .f32⟩
  | .hbm, ⟨25, _⟩ => ⟨S10000x64, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S10000x32, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S_, .f32⟩
  | .hbm, ⟨39, _⟩ => ⟨S10000x32, .f32⟩
  | .hbm, ⟨40, _⟩ => ⟨S10000x32, .f32⟩
  | .hbm, ⟨41, _⟩ => ⟨S10000x16, .f32⟩
  | .hbm, ⟨42, _⟩ => ⟨S_, .f32⟩
  | .hbm, ⟨43, _⟩ => ⟨S10000x16, .f32⟩
  | .hbm, ⟨44, _⟩ => ⟨S10000x16, .f32⟩
  | .hbm, ⟨45, _⟩ => ⟨S_, .f32⟩
  | .hbm, ⟨46, _⟩ => ⟨S10000x32, .f32⟩
  | .hbm, ⟨47, _⟩ => ⟨S10000x32, .f32⟩
  | .hbm, ⟨48, _⟩ => ⟨S10000x16, .f32⟩
  | .hbm, ⟨49, _⟩ => ⟨S_, .f32⟩
  | .hbm, ⟨50, _⟩ => ⟨S10000x16, .f32⟩
  | .hbm, ⟨51, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_cst : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_call3_cst : Ref sig .tc := ⟨.hbm, 42, rfl⟩
abbrev main_call3_v0 : Ref sig .tc := ⟨.hbm, 43, rfl⟩
abbrev main_v24 : Ref sig .tc := ⟨.hbm, 44, rfl⟩
abbrev main_call4_cst : Ref sig .tc := ⟨.hbm, 45, rfl⟩
abbrev main_call4_v0 : Ref sig .tc := ⟨.hbm, 46, rfl⟩
abbrev main_v25 : Ref sig .tc := ⟨.hbm, 47, rfl⟩
abbrev main_v26 : Ref sig .tc := ⟨.hbm, 48, rfl⟩
abbrev main_call5_cst : Ref sig .tc := ⟨.hbm, 49, rfl⟩
abbrev main_call5_v0 : Ref sig .tc := ⟨.hbm, 50, rfl⟩
abbrev main_v27 : Ref sig .tc := ⟨.hbm, 51, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S_S10000x16 : S_.BroadcastsInDim S10000x16 (![] : Fin 0 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

class Facts : Prop extends Facts₀ where

variable [Facts]
-- ==== Proof.KB.Data0.lean ====
/-
  The projection kernel (the first pallas_call): one grid point, every window a whole array.
  Its two results are S_a = X · W1a and S_b = X · W1b, each stored whole; the three inputs are left as fetched.
  Stated at a parameter V, the contents of the core's buffers when the region is entered.
-/
import proofs.«150603_g79422535238402_cont_9to1c4b_784_13_alg».proof.Proof.Gen.Kernel.Launch
import proofs.«150603_g79422535238402_cont_9to1c4b_784_13_alg».proof.Proof.Gen.Kernel.Skeleton
import proofs.«150603_g79422535238402_cont_9to1c4b_784_13_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the (one) point, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the projection kernel: inputs left at their blocks, the two results at X·W1a and X·W1b;
    between points the kernel keeps nothing of its own (the scoped buffers it does not stage, at anything). -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay1 (blk0 V c 0 t) (blk0 V c 1 t)
    | ⟨4, _⟩ => k0_pay2 (blk0 V c 0 t) (blk0 V c 2 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 V c).A w = V c (Pipeline.arrRef spec0 w) := by dsimp only [dat0]

/-- The offset of a rectangle that starts at the origin of a rank-2 shape. -/
theorem off00 : (![0, 0] : Fin 2 → ℕ) = fun _ => 0 := funext fun a => by fin_cases a <;> rfl

section WholeAccess

variable {κ : Kind} {sp : Space} {S : Shape} {e : EltTy}

/-- A load through the rectangle that is the whole shape reads the contents as the view reads them. -/
theorem readAt_whole (v : View sig κ sp S e) (f : v.ty.Contents (Elt F)) {off : Fin S.rank → ℕ} (hoff : off = fun _ => 0)
    (inb : ∀ a, off a + S.size a ≤ S.size a) :
    v.readAt (Elt F) (Rect.unit off S.size inb).toLoadRect f = v.read (Elt F) f := by
  rw [View.readAt_eq_ld, View.ld_unit_zero hoff]

/-- One store through the rectangle that is the whole shape leaves the stored value, whatever was there. -/
theorem read_store_whole (v : View sig κ sp S e) (f : v.ty.Contents (Elt F)) {off : Fin S.rank → ℕ} (hoff : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hoff inb y⟩),
    View.canon_unit_zero hoff]

end WholeAccess

/-- The projection kernel on five whole memrefs: X, W1a, W1b at read contents x0, x1, x2, the two result buffers at
    anything. It loads each operand whole, stores X·W1a (rounded to bf16) over the first result buffer and X·W1b over
    the second, and leaves the operands as they were; whatever else the core holds (R) is untouched. -/
theorem kernel0 (c : Dev nD)
    (a0 : Memref sig .tc .vmem S10000x128 .f32) (h0 : a0.IsWhole) (a1 : Memref sig .tc .vmem S128x64 .f32) (h1 : a1.IsWhole)
    (a2 : Memref sig .tc .vmem S128x64 .f32) (h2 : a2.IsWhole) (a3 : Memref sig .tc .vmem S10000x64 .bf16) (h3 : a3.IsWhole)
    (a4 : Memref sig .tc .vmem S10000x64 .bf16) (h4 : a4.IsWhole)
    (x0 : Vec F S10000x128 .f32) (x1 x2 : Vec F S128x64 .f32) (d3 d4 : Vec F S10000x64 .bf16) (R : sProp 𝕄) :
    iprop(R ∗ owns (c : Thread nD τ) a0 fullShare x0 ∗ owns (c : Thread nD τ) a1 fullShare x1 ∗ owns (c : Thread nD τ) a2 fullShare x2
        ∗ owns (c : Thread nD τ) a3 fullShare d3 ∗ owns (c : Thread nD τ) a4 fullShare d4)
      ⊢ wp frame (wpE (defs₀ (F := F)) Variants.none c none) Set.univ (cc0__proj_kernel a0 h0 a1 h1 a2 h2 a3 h3 a4 h4)
          (fun _ => iprop(R ∗ owns (c : Thread nD τ) a0 fullShare x0 ∗ owns (c : Thread nD τ) a1 fullShare x1 ∗ owns (c : Thread nD τ) a2 fullShare x2
            ∗ owns (c : Thread nD τ) a3 fullShare (k0_pay1 x0 x1) ∗ owns (c : Thread nD τ) a4 fullShare (k0_pay2 x0 x2))) := by
  simp only [cc0__proj_kernel_eq_skeleton]; unfold cc0__proj_kernel_skel
  unfold owns
  iintro ⟨HR, ⟨%f0, %hf0, H0⟩, ⟨%f1, %hf1, H1⟩, ⟨%f2, %hf2, H2⟩, ⟨%f3, -, H3⟩, ⟨%f4, -, H4⟩⟩
  subst hf0 hf1 hf2
  sl_exec
  sl_step
  isplitl [HR]; · iexact HR
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    rw [read_store_whole _ _ off00, readAt_whole _ _ off00, readAt_whole _ _ off00]
  iexists _; isplitr; swap; · iexact H4
  ipureintro
  rw [read_store_whole _ _ off00, readAt_whole _ _ off00, readAt_whole _ _ off00]

/-- Each input window is fetched at the one point, so the body finds the array's block there: the whole array. -/
theorem before0_0 (c : Dev nD) (t : Fin cfg0.N) (d) : (dat0 V c).before 0 t d = blk0 V c 0 t := by
  unfold Dat.before; rw [if_pos (fetch0_0 t)]; unfold Dat.fetched Dat.blockOf blk0; rw [dat0_A]; rfl
theorem before0_1 (c : Dev nD) (t : Fin cfg0.N) (d) : (dat0 V c).before 1 t d = blk0 V c 1 t := by
  unfold Dat.before; rw [if_pos (fetch0_1 t)]; unfold Dat.fetched Dat.blockOf blk0; rw [dat0_A]; rfl
theorem before0_2 (c : Dev nD) (t : Fin cfg0.N) (d) : (dat0 V c).before 2 t d = blk0 V c 2 t := by
  unfold Dat.before; rw [if_pos (fetch0_2 t)]; unfold Dat.fetched Dat.blockOf blk0; rw [dat0_A]; rfl

/-- What the proof data say each window's buffer holds after the body. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay1 (blk0 V c 0 t) (blk0 V c 1 t) := by dsimp only [dat0]
theorem after0_4 (c : Dev nD) (t : Fin cfg0.N) : (dat0 V c).after 4 t = k0_pay2 (blk0 V c 0 t) (blk0 V c 2 t) := by dsimp only [dat0]

/-- The invariant and what the core owes do not depend on the point. -/
theorem dat0_Φ_const (c : Dev nD) (t t' : Fin (cfg0.N + 1)) : (dat0 V c).Φ t = (dat0 V c).Φ t' := by dsimp only [dat0]
theorem dat0_owes_const (c : Dev nD) (t t' : Fin (cfg0.N + 1)) : (dat0 V c).owesAt () t = (dat0 V c).owesAt () t' := rfl

/-- The body at the one point, on the five current staging memrefs: the invariant and the core's tallies ride along as
    the frame of the kernel's triple; the three inputs' memrefs hold their blocks, the two results' anything, and the
    kernel leaves the results at the two projections of the input blocks. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t))) := by
  simp only [before0_0, before0_1, before0_2, after0_0, after0_1, after0_2, after0_3, after0_4]
  rw [dat0_Φ_const V c t.succ t.castSucc, dat0_owes_const V c t.succ t.castSucc]
  iintro ⟨HΦ, HO, ⟨%d0, H0⟩, ⟨%d1, H1⟩, ⟨%d2, H2⟩, ⟨%d3, H3⟩, ⟨%d4, H4⟩⟩
  iapply (wp_mono _ _ _ fun _ => sep_assoc.1)
  iapply (kernel0 c (st0_0 t) (hstage0_0 0) (st0_1 t) (hstage0_1 0) (st0_2 t) (hstage0_2 0) (st0_3 t) (hstage0_3 0)
    (st0_4 t) (hstage0_4 0) (blk0 V c 0 t) (blk0 V c 1 t) (blk0 V c 2 t) _ _
    iprop((dat0 V c).Φ t.castSucc ∗ (dat0 V c).owesAt () t.castSucc))
  isplitl [HΦ HO]
  · isplitl [HΦ]; · iexact HΦ
    iexact HO
  isplitl [H0]; · iexact H0
  isplitl [H1]; · iexact H1
  isplitl [H2]; · iexact H2
  isplitl [H3]; · iexact H3
  iexact H4

/-- The body obligation of the projection kernel at its one point. -/
theorem body_obligation0 (c : Dev nD) : BodyObligation (dat0 (F := F) V c) (defs₀ (F := F)) Variants.none () Set.univ := fun t => by
  rw [bigSep_W0, bigSep_W0]; exact sound_body0 V c t

end Cert.Kernel.Hand

end
-- ==== Proof.KB.Data1.lean ====
/-
  The main kernel (the second pallas_call): a grid of 2 × 50 points. At the first fifty points (phase 0) it writes
  rows 200·b … 200·b+199 of two resident scratch matrices,
      T_a[block b] = relu(A_s[block b] · S_a + b1a) · W2a,      T_b[block b] = relu(A_f[block b] · S_b + b1b) · W2b,
  and stores into no output; at the last fifty (phase 1) it reads both scratch matrices whole and stores four
  output blocks:  x1 = A_s[block] · T_a + b2a,  p1 = relu(relu(x1) · Wp),  and the same with A_f, T_b, b2b.
  Stated at a parameter V, the contents of the core's buffers when the region is entered.
-/
import proofs.«150603_g79422535238402_cont_9to1c4b_784_13_alg».proof.Proof.Gen.Kernel.Launch
import proofs.«150603_g79422535238402_cont_9to1c4b_784_13_alg».proof.Proof.Gen.Kernel.Skeleton
import proofs.«150603_g79422535238402_cont_9to1c4b_784_13_alg».proof.Proof.Gen.Kernel.Points
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 200 rows of T_a that the point t computes from its block of A_s (at a phase-0 point these are the rows it stores). -/
def taBlk (c : Dev nD) (t : Fin cfg1.N) : Vec F S200x32 .f32 :=
  k1_pay3 (blk1 V c 0 t) (blk1 V c 2 t) (blk1 V c 4 t) (blk1 V c 5 t)
/-- The same for T_b, from the block of A_f. -/
def tbBlk (c : Dev nD) (t : Fin cfg1.N) : Vec F S200x32 .f32 :=
  k1_pay4 (blk1 V c 1 t) (blk1 V c 3 t) (blk1 V c 6 t) (blk1 V c 7 t)

/-- The phase-0 point that owns row r of the scratch matrices: r / 200 (always below 50, hence below 100). -/
def rowPoint (r : Fin 10000) : Fin cfg1.N := ⟨r.val / 200, by have := r.isLt; have : cfg1.N = 100 := N_1; omega⟩
/-- The row's place inside that point's 200 rows. -/
def rowIn (r : Fin 10000) : Fin 200 := ⟨r.val % 200, Nat.mod_lt _ (by decide)⟩

/-- T_a whole: row r is row r % 200 of what point r / 200 stores. -/
def TA (c : Dev nD) : Vec F S10000x32 .f32 := fun idx => taBlk V c (rowPoint (idx 0)) (ValueIdx.ix2 (rowIn (idx 0)) (idx 1))
/-- T_b whole. -/
def TB (c : Dev nD) : Vec F S10000x32 .f32 := fun idx => tbBlk V c (rowPoint (idx 0)) (ValueIdx.ix2 (rowIn (idx 0)) (idx 1))

/-- The staging buffers of the OTHER pallas_call, which this kernel never touches: each at something. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f))

/-- What the two scratch matrices hold before point n: SOME contents that agree with T_a, T_b on every row the
    phase-0 points below n have stored (rows below 200 · min n 50); the rest is whatever the region found. -/
def scratchInv (c : Dev nD) (n : Nat) : sProp 𝕄 :=
  iprop(∃ (f : Buf (Elt F) ((c : Thread nD τ).loc cc1_scratch0)) (g : Buf (Elt F) ((c : Thread nD τ).loc cc1_scratch1)),
    (((c : Thread nD τ).loc cc1_scratch0) ↦{fullShare} f) ∗ (((c : Thread nD τ).loc cc1_scratch1) ↦{fullShare} g)
    ∗ ⌜∀ idx : S10000x32.Idx, (idx 0).val < 200 * min n 50 → f idx = TA V c idx ∧ g idx = TB V c idx⌝)

/-- The kernel's invariant before point t. -/
def Φ1 (c : Dev nD) (t : Fin (cfg1.N + 1)) : sProp 𝕄 := iprop(otherStaging (F := F) c ∗ scratchInv V c t.val)

/-- The proof data of the main kernel. Inputs are left at their blocks. The four outputs' staging buffers after a
    phase-1 point hold that point's x1, x2, p1, p2 blocks (windows 11, 12, 13, 14); at a phase-0 point they are idle
    and the entry below is not consulted. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => k1_pay5 (k1_pay1 (blk1 V c 0 t)) (TA V c) (blk1 V c 9 t)
    | ⟨12, _⟩ => k1_pay7 (k1_pay2 (blk1 V c 1 t)) (TB V c) (blk1 V c 10 t)
    | ⟨13, _⟩ => k1_pay6 (k1_pay1 (blk1 V c 0 t)) (TA V c) (blk1 V c 9 t) (blk1 V c 8 t)
    | ⟨14, _⟩ => k1_pay8 (k1_pay2 (blk1 V c 1 t)) (TB V c) (blk1 V c 10 t) (blk1 V c 8 t)
  Φ t := Φ1 V c t
  q _ := fullShare
  owed _ := 0

theorem dat1_A (c : Dev nD) (w : Fin cfg1.W) : (dat1 V c).A w = V c (Pipeline.arrRef spec1 w) := by dsimp only [dat1]
theorem dat1_Φ (c : Dev nD) (t : Fin (cfg1.N + 1)) : (dat1 V c).Φ t = Φ1 V c t := by dsimp only [dat1]
theorem dat1_after11 (c : Dev nD) (t : Fin cfg1.N) : (dat1 V c).after 11 t = k1_pay5 (k1_pay1 (blk1 V c 0 t)) (TA V c) (blk1 V c 9 t) := by dsimp only [dat1]
theorem dat1_after12 (c : Dev nD) (t : Fin cfg1.N) : (dat1 V c).after 12 t = k1_pay7 (k1_pay2 (blk1 V c 1 t)) (TB V c) (blk1 V c 10 t) := by dsimp only [dat1]
theorem dat1_after13 (c : Dev nD) (t : Fin cfg1.N) : (dat1 V c).after 13 t = k1_pay6 (k1_pay1 (blk1 V c 0 t)) (TA V c) (blk1 V c 9 t) (blk1 V c 8 t) := by dsimp only [dat1]
theorem dat1_after14 (c : Dev nD) (t : Fin cfg1.N) : (dat1 V c).after 14 t = k1_pay8 (k1_pay2 (blk1 V c 1 t)) (TB V c) (blk1 V c 10 t) (blk1 V c 8 t) := by dsimp only [dat1]

end Cert.Kernel.Hand

end
-- ==== Proof.KB.PhaseCommon.lean ====
/-
  What the main kernel's body is handed in its eleven input windows at a point, and its two phases as triples.
-/
import proofs.«150603_g79422535238402_cont_9to1c4b_784_13_alg».proof.Proof.KB.Data1
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven input windows' current staging memrefs at point t, each holding its block. -/
def ins (c : Dev nD) (t : Fin cfg1.N) : sProp 𝕄 :=
  iprop(owns (c : Thread nD τ) (st1_0 t) fullShare (blk1 V c 0 t) ∗ owns (c : Thread nD τ) (st1_1 t) fullShare (blk1 V c 1 t)
    ∗ owns (c : Thread nD τ) (st1_2 t) fullShare (blk1 V c 2 t) ∗ owns (c : Thread nD τ) (st1_3 t) fullShare (blk1 V c 3 t)
    ∗ owns (c : Thread nD τ) (st1_4 t) fullShare (blk1 V c 4 t) ∗ owns (c : Thread nD τ) (st1_5 t) fullShare (blk1 V c 5 t)
    ∗ owns (c : Thread nD τ) (st1_6 t) fullShare (blk1 V c 6 t) ∗ owns (c : Thread nD τ) (st1_7 t) fullShare (blk1 V c 7 t)
    ∗ owns (c : Thread nD τ) (st1_8 t) fullShare (blk1 V c 8 t) ∗ owns (c : Thread nD τ) (st1_9 t) fullShare (blk1 V c 9 t)
    ∗ owns (c : Thread nD τ) (st1_10 t) fullShare (blk1 V c 10 t))

/-- The four output windows' current staging memrefs at point t, each at something. -/
def outsAny (c : Dev nD) (t : Fin cfg1.N) : sProp 𝕄 :=
  iprop((∃ d, owns (c : Thread nD τ) (st1_11 t) fullShare d) ∗ (∃ d, owns (c : Thread nD τ) (st1_12 t) fullShare d)
    ∗ (∃ d, owns (c : Thread nD τ) (st1_13 t) fullShare d) ∗ (∃ d, owns (c : Thread nD τ) (st1_14 t) fullShare d))

/-- The four output windows' current staging memrefs at point t, each at what the proof data names. -/
def outsAfter (c : Dev nD) (t : Fin cfg1.N) : sProp 𝕄 :=
  iprop(owns (c : Thread nD τ) (st1_11 t) fullShare ((dat1 V c).after 11 t) ∗ owns (c : Thread nD τ) (st1_12 t) fullShare ((dat1 V c).after 12 t)
    ∗ owns (c : Thread nD τ) (st1_13 t) fullShare ((dat1 V c).after 13 t) ∗ owns (c : Thread nD τ) (st1_14 t) fullShare ((dat1 V c).after 14 t))

end Cert.Kernel.Hand

end
-- ==== Proof.KB.Phase0.lean ====
/-
  Phase 0 of the main kernel (points 0 … 49): the body stores this point's 200 rows of T_a and T_b into the two
  scratch matrices and touches no output window; the rows stored so far grow by this point's.

  First the body's triple over its own memref parameters at a grid position whose first coordinate is 0: eight input
  windows are read, each scratch matrix is left with one more rectangle of rows written over what it held. Then the
  arithmetic of the invariant: a row below 200·t misses the rectangle stored at point t and keeps agreeing with T_a
  (T_b); row 200·t + r lies in it and reads row r of the stored block, which is what T_a (T_b) is there, because that
  row belongs to point (200·t + r) / 200 = t at place (200·t + r) % 200 = r.
-/
import proofs.«150603_g79422535238402_cont_9to1c4b_784_13_alg».proof.Proof.KB.PhaseCommon
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem phase0_off00 : (![0, 0] : Fin 2 → ℕ) = fun _ => 0 := funext fun a => by fin_cases a <;> rfl

/-- The main kernel's body at a phase-0 grid position (first coordinate 0), over its own memref parameters: it reads
    its first eight input windows, overwrites rows `k1_off1 i` … of the two scratch matrices with the T_a and T_b rows
    computed from them, and touches nothing else. -/
theorem kernel_phase0 (c : Dev nD) (i : grid1.Coords) (h1 : k1_cond1 i = 1#1) (h2 : ¬ k1_cond2 i = 1#1)
    (arg2 : Memref sig .tc .vmem S200x10000 .f32) (harg2 : arg2.IsWhole) (arg3 : Memref sig .tc .vmem S200x10000 .f32) (harg3 : arg3.IsWhole)
    (arg4 : Memref sig .tc .vmem S10000x64 .bf16) (harg4 : arg4.IsWhole) (arg5 : Memref sig .tc .vmem S10000x64 .bf16) (harg5 : arg5.IsWhole)
    (arg6 : Memref sig .tc .vmem S1x64 .f32) (harg6 : arg6.IsWhole) (arg7 : Memref sig .tc .vmem S64x32 .f32) (harg7 : arg7.IsWhole)
    (arg8 : Memref sig .tc .vmem S1x64 .f32) (harg8 : arg8.IsWhole) (arg9 : Memref sig .tc .vmem S64x32 .f32) (harg9 : arg9.IsWhole)
    (arg10 : Memref sig .tc .vmem S32x16 .f32) (harg10 : arg10.IsWhole) (arg11 : Memref sig .tc .vmem S1x32 .f32) (harg11 : arg11.IsWhole)
    (arg12 : Memref sig .tc .vmem S1x32 .f32) (harg12 : arg12.IsWhole) (arg13 : Memref sig .tc .vmem S200x32 .f32) (harg13 : arg13.IsWhole)
    (arg14 : Memref sig .tc .vmem S200x32 .f32) (harg14 : arg14.IsWhole) (arg15 : Memref sig .tc .vmem S200x16 .f32) (harg15 : arg15.IsWhole)
    (arg16 : Memref sig .tc .vmem S200x16 .f32) (harg16 : arg16.IsWhole)
    (arg17 : Memref sig .tc .vmem S10000x32 .f32) (harg17 : arg17.IsWhole) (arg18 : Memref sig .tc .vmem S10000x32 .f32) (harg18 : arg18.IsWhole)
    (x0 : Vec F S200x10000 .f32) (x1 : Vec F S200x10000 .f32) (x2 : Vec F S10000x64 .bf16) (x3 : Vec F S10000x64 .bf16)
    (x4 : Vec F S1x64 .f32) (x5 : Vec F S64x32 .f32) (x6 : Vec F S1x64 .f32) (x7 : Vec F S64x32 .f32)
    (f : Buf (Elt F) (arg17.view.loc (c : Thread nD τ))) (g : Buf (Elt F) (arg18.view.loc (c : Thread nD τ)))
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (arg17.view.loc (c : Thread nD τ) ↦[arg17.view.set]{fullShare} f) ∗ (arg18.view.loc (c : Thread nD τ) ↦[arg18.view.set]{fullShare} g)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ (arg17.view.loc (c : Thread nD τ) ↦[arg17.view.set]{fullShare}
                arg17.view.writes (Elt F) f [⟨Rect.unit (s := S10000x32) (k1_off1 i) S200x32.size (k1_off1_inb i h1), k1_pay3 x0 x2 x4 x5⟩])
            ∗ (arg18.view.loc (c : Thread nD τ) ↦[arg18.view.set]{fullShare}
                arg18.view.writes (Elt F) g [⟨Rect.unit (s := S10000x32) (k1_off1 i) S200x32.size (k1_off1_inb i h1), k1_pay4 x1 x3 x6 x7⟩])) -∗ K ⟨⟩))
      ⊢ wp frame (wpE (defs₀ (F := F)) Variants.none c none) Set.univ
          (cc1__cgcn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__cgcn_kernel_eq_skeleton]; unfold cc1__cgcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HS0, HS1, Hk⟩
  subst hf0 hf1 hf2 hf3 hf4 hf5 hf6 hf7
  sl_exec (disch := first | sl_exact h1 | sl_exact h2)
  sl_step
  simp only [View.readAt_eq_ld, View.ld_unit_zero (S := S200x10000) phase0_off00, View.ld_unit_zero (S := S10000x64) phase0_off00,
    View.ld_unit_zero (S := S1x64) phase0_off00, View.ld_unit_zero (S := S64x32) phase0_off00]
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexact HS0
  iexact HS1

/-- At a phase-0 point (below 50) the grid position is (0, t): the first branch is taken, the second is not, and the
    second coordinate is the point's number. Decided over the hundred points. -/
theorem phase0_point : ∀ t : Fin cfg1.N, t.val < 50 →
    k1_cond1 (grid1.coords t) = 1#1 ∧ ¬ k1_cond2 (grid1.coords t) = 1#1 ∧ (grid1.coords t 1).val = t.val :=
  (by decide +kernel : ∀ t : Fin grid1.N, t.val < 50 →
    k1_cond1 (grid1.coords t) = 1#1 ∧ ¬ k1_cond2 (grid1.coords t) = 1#1 ∧ (grid1.coords t 1).val = t.val)

/-- A 10000×32 buffer that agrees with `T` on rows below 200·n, after rows 200·n … 200·n+199 are overwritten by a
    200×32 payload that is `T` on those rows, agrees with `T` on rows below 200·(n+1): a row below 200·n misses the
    stored rectangle and reads what was there; a row 200·n + r reads the payload's row r. -/
theorem phase0_rows_step {κ : Kind} {sp : Space} (v : View sig κ sp S10000x32 .f32) (f : v.ty.Contents (Elt F))
    (off : Fin 2 → ℕ) (n : ℕ) (hoff : off = ![200 * n, 0]) (inb : ∀ a : Fin 2, off a + S200x32.size a ≤ S10000x32.size a)
    (w : Vec F S200x32 .f32) (T : Vec F S10000x32 .f32)
    (hprev : ∀ idx : S10000x32.Idx, (idx 0).val < 200 * n → v.read (Elt F) f idx = T idx)
    (hnew : ∀ (idx : S10000x32.Idx) (r : Fin 200) (q : Fin 32), (idx 0).val = 200 * n + r.val → (idx 1).val = q.val →
      T idx = w (ValueIdx.ix2 r q))
    (idx : S10000x32.Idx) (h : (idx 0).val < 200 * (n + 1)) :
    v.read (Elt F) (v.writes (Elt F) f [⟨Rect.unit (s := S10000x32) off S200x32.size inb, w⟩]) idx = T idx := by
  by_cases hlt : (idx 0).val < 200 * n
  · rw [View.read_writes_cons_rows_of_not_mem v f inb w [] idx hoff (W := 200) rfl (Or.inl hlt)]
    exact hprev idx hlt
  · have hq : (idx 1).val < 32 := ValueIdx.idx2_lt1 idx
    have h0 : (idx 0).val = 200 * n + ((idx 0).val - 200 * n) := by omega
    rw [View.read_writes_cons_rows_of_mem v f inb w [] idx
      (ValueIdx.ix2 (⟨(idx 0).val - 200 * n, by omega⟩ : Fin 200) (⟨(idx 1).val, hq⟩ : Fin 32)) hoff h0 rfl]
    exact (hnew idx _ _ h0 rfl).symm

/-- The first scratch matrix as the invariant holds it and as the body's run names it: one points-to. -/
theorem phase0_scr0_eq (c : Dev nD) (f : Buf (Elt F) ((c : Thread nD τ).loc cc1_scratch0)) :
    ((Memref.whole cc1_scratch0 : Memref sig .tc .vmem S10000x32 .f32).view.loc (c : Thread nD τ)
        ↦[(Memref.whole cc1_scratch0 : Memref sig .tc .vmem S10000x32 .f32).view.set]{fullShare} f : sProp 𝕄)
      = ((c : Thread nD τ).loc cc1_scratch0) ↦{fullShare} f := by
  simp only [Memref.view_whole, View.set_whole]
/-- The same for the second. -/
theorem phase0_scr1_eq (c : Dev nD) (g : Buf (Elt F) ((c : Thread nD τ).loc cc1_scratch1)) :
    ((Memref.whole cc1_scratch1 : Memref sig .tc .vmem S10000x32 .f32).view.loc (c : Thread nD τ)
        ↦[(Memref.whole cc1_scratch1 : Memref sig .tc .vmem S10000x32 .f32).view.set]{fullShare} g : sProp 𝕄)
      = ((c : Thread nD τ).loc cc1_scratch1) ↦{fullShare} g := by
  simp only [Memref.view_whole, View.set_whole]

variable (V : (c : Dev nD) → (b : Ref sig .tc) → Buf (Elt F) ((c : Thread nD τ).loc b))

/-- Row 200·t + r of T_a is row r of what point t stores. -/
theorem phase0_TA_row (c : Dev nD) (t : Fin cfg1.N) (ht : t.val < 50) (idx : S10000x32.Idx) (r : Fin 200) (q : Fin 32)
    (h0 : (idx 0).val = 200 * t.val + r.val) (h1 : (idx 1).val = q.val) :
    TA V c idx = taBlk V c t (ValueIdx.ix2 r q) := by
  have hp : rowPoint (idx 0) = t := Fin.ext (by show (idx 0).val / 200 = t.val; omega)
  have hr : rowIn (idx 0) = r := Fin.ext (by show (idx 0).val % 200 = r.val; omega)
  have hq : (idx 1 : Fin 32) = q := Fin.ext h1
  show taBlk V c (rowPoint (idx 0)) (ValueIdx.ix2 (rowIn (idx 0)) (idx 1)) = _
  rw [hp, hr, hq]
/-- The same for T_b. -/
theorem phase0_TB_row (c : Dev nD) (t : Fin cfg1.N) (ht : t.val < 50) (idx : S10000x32.Idx) (r : Fin 200) (q : Fin 32)
    (h0 : (idx 0).val = 200 * t.val + r.val) (h1 : (idx 1).val = q.val) :
    TB V c idx = tbBlk V c t (ValueIdx.ix2 r q) := by
  have hp : rowPoint (idx 0) = t := Fin.ext (by show (idx 0).val / 200 = t.val; omega)
  have hr : rowIn (idx 0) = r := Fin.ext (by show (idx 0).val % 200 = r.val; omega)
  have hq : (idx 1 : Fin 32) = q := Fin.ext h1
  show tbBlk V c (rowPoint (idx 0)) (ValueIdx.ix2 (rowIn (idx 0)) (idx 1)) = _
  rw [hp, hr, hq]

/-- The body at a phase-0 point t: the eleven input windows come back as they were, and the scratch matrices, which
    agreed with T_a, T_b on rows below 200·t, agree with them on rows below 200·(t+1). -/
theorem sound_phase0 (c : Dev nD) (t : Fin cfg1.N) (ht : t.val < 50) (K : PUnit → sProp 𝕄) :
    iprop(ins V c t ∗ scratchInv V c t.val ∗ (iprop(ins V c t ∗ scratchInv V c (t.val + 1)) -∗ K ⟨⟩))
      ⊢ wp frame (wpE (defs₀ (F := F)) Variants.none c none) Set.univ (bodyAt1 (F := F) t) K := by
  obtain ⟨hc1, hc2, hc3⟩ := phase0_point t ht
  have hoff : k1_off1 (grid1.coords t) = ![200 * t.val, 0] := by rw [k1_off1_eq, hc3]
  unfold ins scratchInv bodyAt1
  iintro ⟨⟨I0, I1, I2, I3, I4, I5, I6, I7, I8, I9, I10⟩, ⟨%f, %g, HS0, HS1, %hinv⟩, Hk⟩
  iapply (kernel_phase0 c (grid1.coords t) hc1 hc2 _ _ _ _ _ _ _ _ _ _ _ _ _ _ _ _ _ _ _ _ _ _ _ _ _ _ _ _ _ _
    (Memref.whole cc1_scratch0) (Memref.isWhole_whole _) (Memref.whole cc1_scratch1) (Memref.isWhole_whole _)
    (blk1 V c 0 t) (blk1 V c 1 t) (blk1 V c 2 t) (blk1 V c 3 t) (blk1 V c 4 t) (blk1 V c 5 t) (blk1 V c 6 t) (blk1 V c 7 t) f g K)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [HS0]; · rw [phase0_scr0_eq]; iexact HS0
  isplitl [HS1]; · rw [phase0_scr1_eq]; iexact HS1
  iintro ⟨I0, I1, I2, I3, I4, I5, I6, I7, HS0, HS1⟩
  iapply Hk
  isplitl [I0 I1 I2 I3 I4 I5 I6 I7 I8 I9 I10]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    iexact I10
  iexists _, _
  isplitl [HS0]; · rw [← phase0_scr0_eq]; iexact HS0
  isplitl [HS1]; · rw [← phase0_scr1_eq]; iexact HS1
  ipureintro
  intro idx h
  have hlt : (idx 0).val < 200 * (t.val + 1) := by
    have : min (t.val + 1) 50 = t.val + 1 := by omega
    rw [this] at h; exact h
  have hmin : min t.val 50 = t.val := by omega
  exact ⟨phase0_rows_step (Memref.whole cc1_scratch0 : Memref sig .tc .vmem S10000x32 .f32).view f _ t.val hoff _ _ (TA V c)
      (fun j hj => (hinv j (by rw [hmin]; exact hj)).1) (fun j r q h0 h1 => phase0_TA_row V c t ht j r q h0 h1) idx hlt,
    phase0_rows_step (Memref.whole cc1_scratch1 : Memref sig .tc .vmem S10000x32 .f32).view g _ t.val hoff _ _ (TB V c)
      (fun j hj => (hinv j (by rw [hmin]; exact hj)).2) (fun j r q h0 h1 => phase0_TB_row V c t ht j r q h0 h1) idx hlt⟩

end Cert.Kernel.Hand

end
-- ==== Proof.KB.Phase1.lean ====
/-
  Phase 1 of the main kernel (points 50 … 99): both scratch matrices are complete (every row stored in phase 0), the
  body reads them whole and stores this point's x1, x2, p1, p2 blocks; the scratch matrices are left as they were.

  The kernel function is first run once over ANY whole memrefs and ANY contents, under the two facts about the grid
  point that decide its branches (the first is skipped, the second taken): it loads the two adjacency blocks, both
  scratch matrices, the two biases and the projection weights, and stores four values, each through the rectangle that
  is the whole of its buffer, so each buffer reads back as exactly the value stored. That triple is then read at the
  staging memrefs of a point t ≥ 50, where the invariant (min t 50 = 50, every row below 10000 = 200 · 50) says the
  scratch matrices ARE T_a and T_b.
-/
import proofs.«150603_g79422535238402_cont_9to1c4b_784_13_alg».proof.Proof.KB.PhaseCommon
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-shape rectangle -/

/-- The zero offsets of a rank-2 access, as the program spells them. -/
private theorem zeros2 : (![0, 0] : Fin 2 → ℕ) = fun _ => 0 := by
  funext a; fin_cases a <;> rfl

section Whole

variable {κ : Kind} {sp : Space} {S : Shape} {e : EltTy}

/-- A load through the rectangle that starts at zero and has the shape's own sizes reads what the view reads. -/
private theorem readAt_all (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f := by
  rw [View.readAt_eq_ld, View.ld_unit_zero h inb]

/-- One store through that rectangle, over anything, reads back as the stored value. -/
private theorem read_store_all (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb]

end Whole

/-! ## The kernel function at a phase-1 point, over any whole memrefs

Inputs x0 … x10 are what the eleven input memrefs read, ta and tb what the two scratch memrefs read; the four output
memrefs hold anything. Afterwards the inputs and the scratch memrefs read as before and the outputs read
x1 = A_s · trunc(ta) + b2a, x2 = A_f · trunc(tb) + b2b, p1 = relu(relu(x1) · Wp), p2 = relu(relu(x2) · Wp), as the
payloads name them. -/

theorem kernel_phase1 (c : Dev nD) (i : grid1.Coords) (hc1 : ¬ k1_cond1 i = 1#1) (hc2 : k1_cond2 i = 1#1)
    (arg2 : Memref sig .tc .vmem S200x10000 .f32) (harg2 : arg2.IsWhole) (arg3 : Memref sig .tc .vmem S200x10000 .f32) (harg3 : arg3.IsWhole) (arg4 : Memref sig .tc .vmem S10000x64 .bf16) (harg4 : arg4.IsWhole) (arg5 : Memref sig .tc .vmem S10000x64 .bf16) (harg5 : arg5.IsWhole) (arg6 : Memref sig .tc .vmem S1x64 .f32) (harg6 : arg6.IsWhole) (arg7 : Memref sig .tc .vmem S64x32 .f32) (harg7 : arg7.IsWhole) (arg8 : Memref sig .tc .vmem S1x64 .f32) (harg8 : arg8.IsWhole) (arg9 : Memref sig .tc .vmem S64x32 .f32) (harg9 : arg9.IsWhole) (arg10 : Memref sig .tc .vmem S32x16 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S200x32 .f32) (harg13 : arg13.IsWhole) (arg14 : Memref sig .tc .vmem S200x32 .f32) (harg14 : arg14.IsWhole) (arg15 : Memref sig .tc .vmem S200x16 .f32) (harg15 : arg15.IsWhole) (arg16 : Memref sig .tc .vmem S200x16 .f32) (harg16 : arg16.IsWhole) (arg17 : Memref sig .tc .vmem S10000x32 .f32) (harg17 : arg17.IsWhole) (arg18 : Memref sig .tc .vmem S10000x32 .f32) (harg18 : arg18.IsWhole)
    (x0 : Vec F S200x10000 .f32) (x1 : Vec F S200x10000 .f32) (x2 : Vec F S10000x64 .bf16) (x3 : Vec F S10000x64 .bf16)
    (x4 : Vec F S1x64 .f32) (x5 : Vec F S64x32 .f32) (x6 : Vec F S1x64 .f32) (x7 : Vec F S64x32 .f32) (x8 : Vec F S32x16 .f32)
    (x9 : Vec F S1x32 .f32) (x10 : Vec F S1x32 .f32) (ta tb : Vec F S10000x32 .f32) (K : PUnit → sProp 𝕄) :
    iprop((owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare x6 ∗ owns (c : Thread nD τ) arg9 fullShare x7
          ∗ owns (c : Thread nD τ) arg10 fullShare x8 ∗ owns (c : Thread nD τ) arg11 fullShare x9
          ∗ owns (c : Thread nD τ) arg12 fullShare x10)
        ∗ ((∃ d, owns (c : Thread nD τ) arg13 fullShare d) ∗ (∃ d, owns (c : Thread nD τ) arg14 fullShare d)
          ∗ (∃ d, owns (c : Thread nD τ) arg15 fullShare d) ∗ (∃ d, owns (c : Thread nD τ) arg16 fullShare d))
        ∗ owns (c : Thread nD τ) arg17 fullShare ta ∗ owns (c : Thread nD τ) arg18 fullShare tb
        ∗ (iprop((owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare x6 ∗ owns (c : Thread nD τ) arg9 fullShare x7
              ∗ owns (c : Thread nD τ) arg10 fullShare x8 ∗ owns (c : Thread nD τ) arg11 fullShare x9
              ∗ owns (c : Thread nD τ) arg12 fullShare x10)
            ∗ (owns (c : Thread nD τ) arg13 fullShare (k1_pay5 (k1_pay1 x0) ta x9)
              ∗ owns (c : Thread nD τ) arg14 fullShare (k1_pay7 (k1_pay2 x1) tb x10)
              ∗ owns (c : Thread nD τ) arg15 fullShare (k1_pay6 (k1_pay1 x0) ta x9 x8)
              ∗ owns (c : Thread nD τ) arg16 fullShare (k1_pay8 (k1_pay2 x1) tb x10 x8))
            ∗ owns (c : Thread nD τ) arg17 fullShare ta ∗ owns (c : Thread nD τ) arg18 fullShare tb) -∗ K ⟨⟩))
      ⊢ wp frame (wpE (defs₀ (F := F)) Variants.none c none) Set.univ (cc1__cgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__cgcn_kernel_eq_skeleton]; unfold cc1__cgcn_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%d11, %f11, -, H11⟩, ⟨%d12, %f12, -, H12⟩, ⟨%d13, %f13, -, H13⟩, ⟨%d14, %f14, -, H14⟩⟩, ⟨%fa, %hfa, HA⟩, ⟨%fb, %hfb, HB⟩, Hk⟩
  subst hf0 hf1 hf2 hf3 hf4 hf5 hf6 hf7 hf8 hf9 hf10 hfa hfb
  sl_exec
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [H11 H12 H13 H14]
  · isplitl [H11]
    · iexists _; isplitr
      swap; · iexact H11
      ipureintro
      rw [read_store_all _ _ zeros2, readAt_all _ _ zeros2, readAt_all _ _ zeros2, readAt_all _ _ zeros2]
    isplitl [H12]
    · iexists _; isplitr
      swap; · iexact H12
      ipureintro
      rw [read_store_all _ _ zeros2, readAt_all _ _ zeros2, readAt_all _ _ zeros2, readAt_all _ _ zeros2]
    isplitl [H13]
    · iexists _; isplitr
      swap; · iexact H13
      ipureintro
      rw [read_store_all _ _ zeros2, readAt_all _ _ zeros2, readAt_all _ _ zeros2, readAt_all _ _ zeros2, readAt_all _ _ zeros2]
    iexists _; isplitr
    swap; · iexact H14
    ipureintro
    rw [read_store_all _ _ zeros2]
    sl_unfold_run_names
    rw [readAt_all _ _ zeros2, readAt_all _ _ zeros2, readAt_all _ _ zeros2, readAt_all _ _ zeros2]
  isplitl [HA]
  · iexists fa; isplitr; · ipureintro; rfl
    iexact HA
  iexists fb; isplitr; · ipureintro; rfl
  iexact HB

/-! ## At the staging memrefs of a point t ≥ 50 -/

/-- At the last fifty points the first grid coordinate is 1: the first branch is skipped, the second taken. -/
private theorem phase1_conds : ∀ t : Fin cfg1.N, 50 ≤ t.val →
    ¬ k1_cond1 (grid1.coords t) = 1#1 ∧ k1_cond2 (grid1.coords t) = 1#1 :=
  (by decide +kernel : ∀ t : Fin grid1.N, 50 ≤ t.val → ¬ k1_cond1 (grid1.coords t) = 1#1 ∧ k1_cond2 (grid1.coords t) = 1#1)

variable (V : (c : Dev nD) → (b : Ref sig .tc) → Buf (Elt F) ((c : Thread nD τ).loc b))

/-- The kernel's triple at a phase-1 point, on the staging memrefs the pipeline hands it there and on the two scratch
    matrices held whole at T_a and T_b. -/
private theorem run_phase1 (c : Dev nD) (t : Fin cfg1.N) (ht : 50 ≤ t.val) (K : PUnit → sProp 𝕄) :
    iprop(ins V c t ∗ outsAny (F := F) c t
        ∗ (((c : Thread nD τ).loc cc1_scratch0) ↦{fullShare} TA V c) ∗ (((c : Thread nD τ).loc cc1_scratch1) ↦{fullShare} TB V c)
        ∗ (iprop(ins V c t ∗ outsAfter V c t
            ∗ (((c : Thread nD τ).loc cc1_scratch0) ↦{fullShare} TA V c) ∗ (((c : Thread nD τ).loc cc1_scratch1) ↦{fullShare} TB V c)) -∗ K ⟨⟩))
      ⊢ wp frame (wpE (defs₀ (F := F)) Variants.none c none) Set.univ (bodyAt1 (F := F) t) K := by
  obtain ⟨hc1, hc2⟩ := phase1_conds t ht
  have run := kernel_phase1 (F := F) c (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (Memref.whole cc1_scratch0) (Memref.isWhole_whole _) (Memref.whole cc1_scratch1) (Memref.isWhole_whole _)
    (blk1 V c 0 t) (blk1 V c 1 t) (blk1 V c 2 t) (blk1 V c 3 t) (blk1 V c 4 t) (blk1 V c 5 t) (blk1 V c 6 t) (blk1 V c 7 t)
    (blk1 V c 8 t) (blk1 V c 9 t) (blk1 V c 10 t) (TA V c) (TB V c) K
  rw [owns_whole (c : Thread nD τ) cc1_scratch0 fullShare (TA V c), owns_whole (c : Thread nD τ) cc1_scratch1 fullShare (TB V c)] at run
  exact run

theorem sound_phase1 (c : Dev nD) (t : Fin cfg1.N) (ht : 50 ≤ t.val) (K : PUnit → sProp 𝕄) :
    iprop(ins V c t ∗ outsAny (F := F) c t ∗ scratchInv V c t.val
        ∗ (iprop(ins V c t ∗ outsAfter V c t ∗ scratchInv V c (t.val + 1)) -∗ K ⟨⟩))
      ⊢ wp frame (wpE (defs₀ (F := F)) Variants.none c none) Set.univ (bodyAt1 (F := F) t) K := by
  unfold scratchInv
  iintro ⟨Hin, Hout, ⟨%f, %g, Hf, Hg, %hfg⟩, Hk⟩
  have hrow : ∀ idx : S10000x32.Idx, (idx 0).val < 200 * min t.val 50 := fun idx => by
    have h : (idx 0).val < 10000 := (idx 0).isLt
    rw [Nat.min_eq_right ht]; exact h
  obtain rfl : f = TA V c := funext fun idx => (hfg idx (hrow idx)).1
  obtain rfl : g = TB V c := funext fun idx => (hfg idx (hrow idx)).2
  iapply (run_phase1 V c t ht K)
  isplitl [Hin]; · iexact Hin
  isplitl [Hout]; · iexact Hout
  isplitl [Hf]; · iexact Hf
  isplitl [Hg]; · iexact Hg
  iintro ⟨Hin, Hout, Hf, Hg⟩
  iapply Hk
  isplitl [Hin]; · iexact Hin
  isplitl [Hout]; · iexact Hout
  iexists (TA V c), (TB V c)
  isplitl [Hf]; · iexact Hf
  isplitl [Hg]; · iexact Hg
  ipureintro; exact fun _ _ => ⟨rfl, rfl⟩

end Cert.Kernel.Hand

end
-- ==== Proof.KB.Body1.lean ====
/-
  The body obligation of the main kernel: at a phase-0 point the four output windows are idle and handed back as found;
  at a phase-1 point they are left at the proof data's blocks; every input window holds its block at every point.
-/
import proofs.«150603_g79422535238402_cont_9to1c4b_784_13_alg».proof.Proof.KB.Phase0
import proofs.«150603_g79422535238402_cont_9to1c4b_784_13_alg».proof.Proof.KB.Phase1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid in closed form

The grid is 2 × 50, its points numbered row by row: point t has coordinates (t / 50, t % 50). The second branch of
the kernel (the one that stores the four outputs) is taken where the first coordinate is 1, that is at the points
50 … 99. Each output window's block index is the product of the two coordinates: 0 at every point up to and
including 50, and k at point 50 + k; so the next point's index differs from a point's exactly from point 50 on, the
last point writes back in any case, and each output is written back exactly at the points 50 … 99. Each fact below
is decided over the hundred points. -/

/-- The condition of the storing branch holds exactly at the last fifty points. -/
theorem body1_cond2 : ∀ t : Fin grid1.N, (k1_cond2 (grid1.coords t) == 1#1) = decide (50 ≤ t.val) := by decide +kernel

/-- Output window 11 is written back exactly at the last fifty points. -/
theorem body1_flush11 : ∀ t : Fin grid1.N, win1_11.flush t = decide (50 ≤ t.val) := by decide +kernel
/-- Output window 12 is written back exactly at the last fifty points. -/
theorem body1_flush12 : ∀ t : Fin grid1.N, win1_12.flush t = decide (50 ≤ t.val) := by decide +kernel
/-- Output window 13 is written back exactly at the last fifty points. -/
theorem body1_flush13 : ∀ t : Fin grid1.N, win1_13.flush t = decide (50 ≤ t.val) := by decide +kernel
/-- Output window 14 is written back exactly at the last fifty points. -/
theorem body1_flush14 : ∀ t : Fin grid1.N, win1_14.flush t = decide (50 ≤ t.val) := by decide +kernel

/-! ## Idle points

No input window is ever idle. An output window is idle where the storing branch is not taken: at the first fifty
points, none of which writes it back. -/

theorem body1_idle0 (i : cfg1.grid.Coords) : cfg1.idle 0 i = false := rfl
theorem body1_idle1 (i : cfg1.grid.Coords) : cfg1.idle 1 i = false := rfl
theorem body1_idle2 (i : cfg1.grid.Coords) : cfg1.idle 2 i = false := rfl
theorem body1_idle3 (i : cfg1.grid.Coords) : cfg1.idle 3 i = false := rfl
theorem body1_idle4 (i : cfg1.grid.Coords) : cfg1.idle 4 i = false := rfl
theorem body1_idle5 (i : cfg1.grid.Coords) : cfg1.idle 5 i = false := rfl
theorem body1_idle6 (i : cfg1.grid.Coords) : cfg1.idle 6 i = false := rfl
theorem body1_idle7 (i : cfg1.grid.Coords) : cfg1.idle 7 i = false := rfl
theorem body1_idle8 (i : cfg1.grid.Coords) : cfg1.idle 8 i = false := rfl
theorem body1_idle9 (i : cfg1.grid.Coords) : cfg1.idle 9 i = false := rfl
theorem body1_idle10 (i : cfg1.grid.Coords) : cfg1.idle 10 i = false := rfl

/-- Output window 11 is idle exactly at the first fifty points. -/
theorem body1_idle11 (t : Fin grid1.N) : idle1 11 (grid1.coords t) = !decide (50 ≤ t.val) := by
  show (!(k1_cond2 (grid1.coords t) == 1#1)) = _
  rw [body1_cond2]
theorem body1_idle11_lt (t : Fin grid1.N) (ht : t.val < 50) : idle1 11 (grid1.coords t) = true := by
  rw [body1_idle11, decide_eq_false (by omega)]; rfl
theorem body1_idle11_ge (t : Fin grid1.N) (ht : ¬ t.val < 50) : idle1 11 (grid1.coords t) = false := by
  rw [body1_idle11, decide_eq_true (by omega)]; rfl
theorem body1_flush11_lt (t : Fin cfg1.N) (ht : t.val < 50) : (cfg1.win 11).flush t = false := by
  rw [show (cfg1.win 11).flush t = win1_11.flush t from rfl, body1_flush11, decide_eq_false (by omega)]

/-- Output window 12 is idle exactly at the first fifty points. -/
theorem body1_idle12 (t : Fin grid1.N) : idle1 12 (grid1.coords t) = !decide (50 ≤ t.val) := by
  show (!(k1_cond2 (grid1.coords t) == 1#1)) = _
  rw [body1_cond2]
theorem body1_idle12_lt (t : Fin grid1.N) (ht : t.val < 50) : idle1 12 (grid1.coords t) = true := by
  rw [body1_idle12, decide_eq_false (by omega)]; rfl
theorem body1_idle12_ge (t : Fin grid1.N) (ht : ¬ t.val < 50) : idle1 12 (grid1.coords t) = false := by
  rw [body1_idle12, decide_eq_true (by omega)]; rfl
theorem body1_flush12_lt (t : Fin cfg1.N) (ht : t.val < 50) : (cfg1.win 12).flush t = false := by
  rw [show (cfg1.win 12).flush t = win1_12.flush t from rfl, body1_flush12, decide_eq_false (by omega)]

/-- Output window 13 is idle exactly at the first fifty points. -/
theorem body1_idle13 (t : Fin grid1.N) : idle1 13 (grid1.coords t) = !decide (50 ≤ t.val) := by
  show (!(k1_cond2 (grid1.coords t) == 1#1)) = _
  rw [body1_cond2]
theorem body1_idle13_lt (t : Fin grid1.N) (ht : t.val < 50) : idle1 13 (grid1.coords t) = true := by
  rw [body1_idle13, decide_eq_false (by omega)]; rfl
theorem body1_idle13_ge (t : Fin grid1.N) (ht : ¬ t.val < 50) : idle1 13 (grid1.coords t) = false := by
  rw [body1_idle13, decide_eq_true (by omega)]; rfl
theorem body1_flush13_lt (t : Fin cfg1.N) (ht : t.val < 50) : (cfg1.win 13).flush t = false := by
  rw [show (cfg1.win 13).flush t = win1_13.flush t from rfl, body1_flush13, decide_eq_false (by omega)]

/-- Output window 14 is idle exactly at the first fifty points. -/
theorem body1_idle14 (t : Fin grid1.N) : idle1 14 (grid1.coords t) = !decide (50 ≤ t.val) := by
  show (!(k1_cond2 (grid1.coords t) == 1#1)) = _
  rw [body1_cond2]
theorem body1_idle14_lt (t : Fin grid1.N) (ht : t.val < 50) : idle1 14 (grid1.coords t) = true := by
  rw [body1_idle14, decide_eq_false (by omega)]; rfl
theorem body1_idle14_ge (t : Fin grid1.N) (ht : ¬ t.val < 50) : idle1 14 (grid1.coords t) = false := by
  rw [body1_idle14, decide_eq_true (by omega)]; rfl
theorem body1_flush14_lt (t : Fin cfg1.N) (ht : t.val < 50) : (cfg1.win 14).flush t = false := by
  rw [show (cfg1.win 14).flush t = win1_14.flush t from rfl, body1_flush14, decide_eq_false (by omega)]

/-! ## What the proof data says at a point -/

/-- The core owes nothing at any point and the bound on its recorded pairs is the same at every point: what it
    owes is one proposition, whatever the point. -/
theorem body1_owesAt (c : Dev nD) (t t' : Fin (cfg1.N + 1)) :
    (dat1 (F := F) V c).owesAt () t = (dat1 (F := F) V c).owesAt () t' := rfl

theorem body1_after0 (c : Dev nD) (t : Fin cfg1.N) : (dat1 (F := F) V c).after 0 t = blk1 V c 0 t := by dsimp only [dat1]
theorem body1_after1 (c : Dev nD) (t : Fin cfg1.N) : (dat1 (F := F) V c).after 1 t = blk1 V c 1 t := by dsimp only [dat1]
theorem body1_after2 (c : Dev nD) (t : Fin cfg1.N) : (dat1 (F := F) V c).after 2 t = blk1 V c 2 t := by dsimp only [dat1]
theorem body1_after3 (c : Dev nD) (t : Fin cfg1.N) : (dat1 (F := F) V c).after 3 t = blk1 V c 3 t := by dsimp only [dat1]
theorem body1_after4 (c : Dev nD) (t : Fin cfg1.N) : (dat1 (F := F) V c).after 4 t = blk1 V c 4 t := by dsimp only [dat1]
theorem body1_after5 (c : Dev nD) (t : Fin cfg1.N) : (dat1 (F := F) V c).after 5 t = blk1 V c 5 t := by dsimp only [dat1]
theorem body1_after6 (c : Dev nD) (t : Fin cfg1.N) : (dat1 (F := F) V c).after 6 t = blk1 V c 6 t := by dsimp only [dat1]
theorem body1_after7 (c : Dev nD) (t : Fin cfg1.N) : (dat1 (F := F) V c).after 7 t = blk1 V c 7 t := by dsimp only [dat1]
theorem body1_after8 (c : Dev nD) (t : Fin cfg1.N) : (dat1 (F := F) V c).after 8 t = blk1 V c 8 t := by dsimp only [dat1]
theorem body1_after9 (c : Dev nD) (t : Fin cfg1.N) : (dat1 (F := F) V c).after 9 t = blk1 V c 9 t := by dsimp only [dat1]
theorem body1_after10 (c : Dev nD) (t : Fin cfg1.N) : (dat1 (F := F) V c).after 10 t = blk1 V c 10 t := by dsimp only [dat1]

/-! ## Every input window holds its block at every point

Windows 0 and 1 are fetched at every point; windows 2 … 10 only at the first, and their block index never moves.
Either way the body leaves an input's block in place, the window is uncut and never idle, so its current buffer
holds the block of the point: where it was not fetched the index did not move, and the block of the point before
is this point's. -/

theorem body1_before0 (c : Dev nD) (t : Fin cfg1.N) (d) : (dat1 (F := F) V c).before 0 t d = blk1 V c 0 t :=
  ((dat1 (F := F) V c).before_in_eq_fetched 0 rfl (fun _ => rfl) (fun _ _ _ => rfl)
    (fun t => by show (cfg1.win 0).cut _ (blk1 V c 0 t) = _; unfold Dat.blockOf blk1; rw [dat1_A]) t d).trans
    (by unfold Dat.fetched Dat.blockOf blk1; rw [dat1_A]; rfl)

theorem body1_before1 (c : Dev nD) (t : Fin cfg1.N) (d) : (dat1 (F := F) V c).before 1 t d = blk1 V c 1 t :=
  ((dat1 (F := F) V c).before_in_eq_fetched 1 rfl (fun _ => rfl) (fun _ _ _ => rfl)
    (fun t => by show (cfg1.win 1).cut _ (blk1 V c 1 t) = _; unfold Dat.blockOf blk1; rw [dat1_A]) t d).trans
    (by unfold Dat.fetched Dat.blockOf blk1; rw [dat1_A]; rfl)

theorem body1_before2 (c : Dev nD) (t : Fin cfg1.N) (d) : (dat1 (F := F) V c).before 2 t d = blk1 V c 2 t :=
  ((dat1 (F := F) V c).before_in_eq_fetched 2 rfl (fun _ => rfl) (fun _ _ _ => rfl)
    (fun t => by show (cfg1.win 2).cut _ (blk1 V c 2 t) = _; unfold Dat.blockOf blk1; rw [dat1_A]) t d).trans
    (by unfold Dat.fetched Dat.blockOf blk1; rw [dat1_A]; rfl)

theorem body1_before3 (c : Dev nD) (t : Fin cfg1.N) (d) : (dat1 (F := F) V c).before 3 t d = blk1 V c 3 t :=
  ((dat1 (F := F) V c).before_in_eq_fetched 3 rfl (fun _ => rfl) (fun _ _ _ => rfl)
    (fun t => by show (cfg1.win 3).cut _ (blk1 V c 3 t) = _; unfold Dat.blockOf blk1; rw [dat1_A]) t d).trans
    (by unfold Dat.fetched Dat.blockOf blk1; rw [dat1_A]; rfl)

theorem body1_before4 (c : Dev nD) (t : Fin cfg1.N) (d) : (dat1 (F := F) V c).before 4 t d = blk1 V c 4 t :=
  ((dat1 (F := F) V c).before_in_eq_fetched 4 rfl (fun _ => rfl) (fun _ _ _ => rfl)
    (fun t => by show (cfg1.win 4).cut _ (blk1 V c 4 t) = _; unfold Dat.blockOf blk1; rw [dat1_A]) t d).trans
    (by unfold Dat.fetched Dat.blockOf blk1; rw [dat1_A]; rfl)

theorem body1_before5 (c : Dev nD) (t : Fin cfg1.N) (d) : (dat1 (F := F) V c).before 5 t d = blk1 V c 5 t :=
  ((dat1 (F := F) V c).before_in_eq_fetched 5 rfl (fun _ => rfl) (fun _ _ _ => rfl)
    (fun t => by show (cfg1.win 5).cut _ (blk1 V c 5 t) = _; unfold Dat.blockOf blk1; rw [dat1_A]) t d).trans
    (by unfold Dat.fetched Dat.blockOf blk1; rw [dat1_A]; rfl)

theorem body1_before6 (c : Dev nD) (t : Fin cfg1.N) (d) : (dat1 (F := F) V c).before 6 t d = blk1 V c 6 t :=
  ((dat1 (F := F) V c).before_in_eq_fetched 6 rfl (fun _ => rfl) (fun _ _ _ => rfl)
    (fun t => by show (cfg1.win 6).cut _ (blk1 V c 6 t) = _; unfold Dat.blockOf blk1; rw [dat1_A]) t d).trans
    (by unfold Dat.fetched Dat.blockOf blk1; rw [dat1_A]; rfl)

theorem body1_before7 (c : Dev nD) (t : Fin cfg1.N) (d) : (dat1 (F := F) V c).before 7 t d = blk1 V c 7 t :=
  ((dat1 (F := F) V c).before_in_eq_fetched 7 rfl (fun _ => rfl) (fun _ _ _ => rfl)
    (fun t => by show (cfg1.win 7).cut _ (blk1 V c 7 t) = _; unfold Dat.blockOf blk1; rw [dat1_A]) t d).trans
    (by unfold Dat.fetched Dat.blockOf blk1; rw [dat1_A]; rfl)

theorem body1_before8 (c : Dev nD) (t : Fin cfg1.N) (d) : (dat1 (F := F) V c).before 8 t d = blk1 V c 8 t :=
  ((dat1 (F := F) V c).before_in_eq_fetched 8 rfl (fun _ => rfl) (fun _ _ _ => rfl)
    (fun t => by show (cfg1.win 8).cut _ (blk1 V c 8 t) = _; unfold Dat.blockOf blk1; rw [dat1_A]) t d).trans
    (by unfold Dat.fetched Dat.blockOf blk1; rw [dat1_A]; rfl)

theorem body1_before9 (c : Dev nD) (t : Fin cfg1.N) (d) : (dat1 (F := F) V c).before 9 t d = blk1 V c 9 t :=
  ((dat1 (F := F) V c).before_in_eq_fetched 9 rfl (fun _ => rfl) (fun _ _ _ => rfl)
    (fun t => by show (cfg1.win 9).cut _ (blk1 V c 9 t) = _; unfold Dat.blockOf blk1; rw [dat1_A]) t d).trans
    (by unfold Dat.fetched Dat.blockOf blk1; rw [dat1_A]; rfl)

theorem body1_before10 (c : Dev nD) (t : Fin cfg1.N) (d) : (dat1 (F := F) V c).before 10 t d = blk1 V c 10 t :=
  ((dat1 (F := F) V c).before_in_eq_fetched 10 rfl (fun _ => rfl) (fun _ _ _ => rfl)
    (fun t => by show (cfg1.win 10).cut _ (blk1 V c 10 t) = _; unfold Dat.blockOf blk1; rw [dat1_A]) t d).trans
    (by unfold Dat.fetched Dat.blockOf blk1; rw [dat1_A]; rfl)

/-! ## The obligation

At a point below 50 the four output windows are idle and not written back: the post asks each buffer back as it
was handed over, and the body, which touches none of them, runs from the inputs and the scratch invariant alone.
At a point from 50 on they are live: the body is handed each at some contents and leaves each at the proof data's
block. In both phases the inputs come back at their blocks, the other call's staging buffers and what the core owes
pass through unread, and the scratch invariant moves from the point to the next. -/

theorem body_obligation1 (c : Dev nD) : BodyObligation (dat1 (F := F) V c) (defs₀ (F := F)) Variants.none () Set.univ := fun t => by
  rw [bigSep_W1, bigSep_W1]
  by_cases ht : t.val < 50
  · -- phase 0: the outputs idle
    simp only [body1_idle0, body1_idle1, body1_idle2, body1_idle3, body1_idle4, body1_idle5, body1_idle6,
      body1_idle7, body1_idle8, body1_idle9, body1_idle10, body1_idle11_lt t ht, body1_flush11_lt t ht,
      body1_idle12_lt t ht, body1_flush12_lt t ht, body1_idle13_lt t ht, body1_flush13_lt t ht,
      body1_idle14_lt t ht, body1_flush14_lt t ht, body1_before0, body1_before1, body1_before2,
      body1_before3, body1_before4, body1_before5, body1_before6, body1_before7, body1_before8,
      body1_before9, body1_before10, body1_after0, body1_after1, body1_after2, body1_after3, body1_after4,
      body1_after5, body1_after6, body1_after7, body1_after8, body1_after9, body1_after10]
    rw [dat1_Φ, dat1_Φ, body1_owesAt V c t.succ t.castSucc]
    unfold Φ1
    simp only [Fin.val_castSucc, Fin.val_succ]
    iintro ⟨⟨Hstg, Hscr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14⟩
    iapply (sound_phase0 V c t ht)
    unfold ins
    isplitl [H0 H1 H2 H3 H4 H5 H6 H7 H8 H9 H10]
    · iframe
    isplitl [Hscr]
    · iexact Hscr
    iintro ⟨⟨H0, H1, H2, H3, H4, H5, H6, H7, H8, H9, H10⟩, Hscr⟩
    iframe
  · -- phase 1: the outputs stored
    simp only [body1_idle0, body1_idle1, body1_idle2, body1_idle3, body1_idle4, body1_idle5, body1_idle6,
      body1_idle7, body1_idle8, body1_idle9, body1_idle10, body1_idle11_ge t ht, body1_idle12_ge t ht,
      body1_idle13_ge t ht, body1_idle14_ge t ht, body1_before0, body1_before1, body1_before2,
      body1_before3, body1_before4, body1_before5, body1_before6, body1_before7, body1_before8,
      body1_before9, body1_before10, body1_after0, body1_after1, body1_after2, body1_after3, body1_after4,
      body1_after5, body1_after6, body1_after7, body1_after8, body1_after9, body1_after10]
    rw [dat1_Φ, dat1_Φ, body1_owesAt V c t.succ t.castSucc]
    unfold Φ1
    simp only [Fin.val_castSucc, Fin.val_succ]
    iintro ⟨⟨Hstg, Hscr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (sound_phase1 V c t (by omega))
    unfold ins outsAny outsAfter
    isplitl [H0 H1 H2 H3 H4 H5 H6 H7 H8 H9 H10]
    · iframe
    isplitl [H11 H12 H13 H14]
    · isplitl [H11]
      · iexists _; iexact H11
      isplitl [H12]
      · iexists _; iexact H12
      isplitl [H13]
      · iexists _; iexact H13
      iexists _; iexact H14
    isplitl [Hscr]
    · iexact Hscr
    iintro ⟨⟨H0, H1, H2, H3, H4, H5, H6, H7, H8, H9, H10⟩, ⟨H11, H12, H13, H14⟩, Hscr⟩
    iframe

end Cert.Kernel.Hand

end
-- ==== Proof.KB.Run.lean ====
/-
  The launch: @main is the projection kernel's region, four host reshapes (the bias vectors as one-row matrices), and the
  main kernel's region. The core's unscoped buffers pass through four valuations: as launched (W0); with the projection
  kernel's arrays at what its write-backs leave (W1); after the reshapes (W2); with the main kernel's arrays at what ITS
  write-backs leave (W3). Every weakly fair execution ends with every unscoped buffer at W3.
-/
import proofs.«150603_g79422535238402_cont_9to1c4b_784_13_alg».proof.Proof.KB.Data0
import proofs.«150603_g79422535238402_cont_9to1c4b_784_13_alg».proof.Proof.KB.Body1
import proofs.«150603_g79422535238402_cont_9to1c4b_784_13_alg».proof.Proof.Gen.Kernel.Regions
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's unscoped buffers at launch. -/
def W0 (c : Dev nD) : Valuation τ sig (Elt F) := fun b => m (c, b)
/-- What the projection kernel's region finds. -/
def Vin0 (c : Dev nD) (b : Ref sig .tc) : Buf (Elt F) ((c : Thread nD τ).loc b) := m ((c : Thread nD τ).loc b)
/-- After the projection kernel's region: its five arrays at what the write-backs leave. -/
def W1 (c : Dev nD) : Valuation τ sig (Elt F) :=
  Pipeline.withArrays spec0 c (W0 m c) (fun w => (dat0 (Vin0 m) c).arrAt w cfg0.N)
/-- After the four reshapes. -/
def W2 (c : Dev nD) : Valuation τ sig (Elt F) := StableHlo.after hostOps1 (W1 m c)
/-- What the main kernel's region finds. -/
def Vin1 (c : Dev nD) (b : Ref sig .tc) : Buf (Elt F) ((c : Thread nD τ).loc b) := W2 m c b
/-- After the main kernel's region: its fifteen arrays at what the write-backs leave. -/
def W3 (c : Dev nD) : Valuation τ sig (Elt F) :=
  Pipeline.withArrays spec1 c (W2 m c) (fun w => (dat1 (Vin1 m) c).arrAt w cfg1.N)

/-! The launch's own definitions and lemmas, in a namespace of their own. -/
namespace RunKit

/-! ## Reading the valuations: an array of a region at what its write-backs leave, any other buffer as before -/

theorem W1_arr (c : Dev nD) (w : Fin cfg0.W) : W1 m c (Pipeline.arrRef spec0 w) = (dat0 (Vin0 m) c).arrAt w cfg0.N :=
  Pipeline.withArrays_arr spec0 launch0.win.arr_inj c _ _ w
theorem W1_of_ne (c : Dev nD) (b : Ref sig .tc) (hb : ∀ w, Pipeline.arrRef spec0 w ≠ b) : W1 m c b = W0 m c b :=
  Pipeline.withArrays_of_ne spec0 c _ _ b hb
/-- The reshapes write the four one-row matrices and nothing else. -/
theorem W2_of (c : Dev nD) (b : Ref sig .tc) (hb : b ∉ hostOps1_W) : W2 m c b = W1 m c b :=
  StableHlo.after_of_writes_sub hostOps1 _ hostOps1_writes hb
theorem W3_arr (c : Dev nD) (w : Fin cfg1.W) : W3 m c (Pipeline.arrRef spec1 w) = (dat1 (Vin1 m) c).arrAt w cfg1.N :=
  Pipeline.withArrays_arr spec1 launch1.win.arr_inj c _ _ w
theorem W3_of_ne (c : Dev nD) (b : Ref sig .tc) (hb : ∀ w, Pipeline.arrRef spec1 w ≠ b) : W3 m c b = W2 m c b :=
  Pipeline.withArrays_of_ne spec1 c _ _ b hb

/-! ## The proof data of both kernels, and the launch -/

/-- No core owes another anything: no level is assigned. -/
abbrev L : GSem nD τ sig → Finset Unit := fun _ => ∅
abbrev lv : GSem nD τ sig → Unit → ℕ := fun _ _ => 0

/-- The proof data of the two kernels, each stated at what its region finds: the projection kernel at the launch
    contents, the main kernel at the contents after the projection kernel's write-backs and the four reshapes. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
  | ⟨_ + 2, h⟩ => absurd h (Nat.not_lt.2 (Nat.le_add_left _ _))

/-- What rides beside the buffers between items: the core owes nothing. -/
abbrev R (c : Dev nD) : sProp 𝕄 := iprop(∃ W, owes (c : Thread nD τ) (0 : CellTallies nD τ sig Unit) W)

/-- The thread state between items: every unscoped buffer whole at a valuation, the core owing nothing. -/
abbrev St (W : Dev nD → Valuation τ sig (Elt F)) (c : Dev nD) : sProp 𝕄 :=
  iprop(StableHlo.held (c : Thread nD τ) (Pipeline.ucRefs τ sig) (W c) ∗ R c)

/-- Every unscoped buffer held at "pipeline p's arrays at A, every other buffer at V" is p's arrays at A beside the
    unscoped buffers that are no array of p at V: the unscoped buffers split at the arrays, an array's entry of the
    valuation is its entry of A, any other buffer's is its entry of V. -/
theorem held_withArrays (p : Fin 2) (hw : Pipeline.WinFacts (cfgs p).spec) (harr : ∀ w, ((cfgs p).spec w).arr.IsWhole)
    (c : Dev nD) (hshare : ∀ w, (pdats m p c).share w = fullShare) (V : Valuation τ sig (Elt F))
    (A : (w : Fin (cfgs p).W) → Buf (Elt F) (((cfgs p).spec w).arr.view.loc (c : Thread nD τ))) :
    (StableHlo.held (c : Thread nD τ) (Pipeline.ucRefs τ sig) (Pipeline.withArrays (cfgs p).spec c V A) : sProp 𝕄)
      = iprop((pdats m p c).arrays A ∗ Pipeline.unscopedRest (cfgs p).spec c (fun b => V b)) := by
  rw [← Pipeline.unscopedBufs_held, Pipeline.unscopedBufs_split cfgs p hw.arr_unscoped hw.arr_inj c,
    Pipeline.arrays_eq cfgs (pdats m) p c harr hshare]
  congr 1
  · exact bigSep_congr fun w _ => by rw [Pipeline.withArrays_arr _ hw.arr_inj]
  · unfold Pipeline.unscopedRest
    exact bigSep_congr fun b hb => by
      dsimp only
      rw [Pipeline.withArrays_of_ne _ c V A b fun w e => (Finset.mem_sdiff.mp hb).2 (Finset.mem_image.mpr ⟨w, Finset.mem_univ _, e⟩)]

set_option backward.isDefEq.respectTransparency.types false in
/-- THE PROJECTION KERNEL'S REGION. Entered with every unscoped buffer at the launch contents: its five arrays go into
    the pipeline, every other unscoped buffer bypasses it; the invariant is the scoped buffers it does not stage and
    nothing else; it leaves the arrays at what the write-backs leave and the other buffers as they were. -/
def reg0 : Pipeline.RegionSeg (pcfgs (F := F)) adm (pdats m) () defs₀ Variants.none L lv 0 where
  win := launch0.win.to₀
  block_pos := launch0.block_pos
  stage_whole := launch0.stage_whole
  K := PEmpty
  osem := fun k => k.elim
  ho := Pipeline.OwnSemFacts.none _
  hbody c := (body_obligation0 (Vin0 m) c).loose
  hwaits := Pipeline.hwaits_of_owed_zero _ _ _ _ L lv 0 fun _ _ => rfl
  pre := St (W0 m)
  post := St (W1 m)
  X _ := iprop(emp)
  Y _ := iprop(emp)
  Z c := Pipeline.unscopedRest spec0 c (fun b => W0 m c b)
  hentry c := by
    unfold St
    rw [show StableHlo.held (c : Thread nD τ) (Pipeline.ucRefs τ sig) (W0 m c) = unscopedBufs c (fun b => W0 m c b) from (Pipeline.unscopedBufs_held c _).symm]
    have hsplit := Pipeline.arrays_of_unscopedBufs (pcfgs (F := F)) adm (pdats m) (p := 0) launch0.win launch0.arr_whole c
      ((pdats m 0 c).share_full fun _ => rfl) (fun b => W0 m c b) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    have hΦ : ∀ t, (pdats m 0 c).Φ t = Pipeline.scopedRest (Ix := Unit) (Name := ℕ) (U := UR sig nD τ) (Lvl := ℕ) (Val := Elt F) spec0 c := fun _ => rfl
    rw [hΦ]
    iintro ⟨-, -, Hr⟩
    iexact Hr
  hout c := by
    have hΦ : ∀ t, (pdats m 0 c).Φ t = Pipeline.scopedRest (Ix := Unit) (Name := ℕ) (U := UR sig nD τ) (Lvl := ℕ) (Val := Elt F) spec0 c := fun _ => rfl
    rw [Pipeline.ownSems0_none, hΦ]
    iintro Hr
    isplitr; · iempintro
    isplitr; · iempintro
    iexact Hr
  hexit c := by
    unfold St
    rw [show W1 m c = Pipeline.withArrays (cfgs 0).spec c (W0 m c) (fun w => (pdats m 0 c).arrAt w cfg0.N) from rfl,
      held_withArrays m 0 launch0.win launch0.arr_whole c ((pdats m 0 c).share_full fun _ => rfl)]
    iintro ⟨Ha, HO, -, Hz⟩
    imodintro
    isplitr [HO]
    · isplitl [Ha]; · iexact Ha
      iexact Hz
    · unfold Pipeline.Dat.owesAt Pipeline.owesWithin
      icases HO with ⟨%W, -, HO⟩; iexists W; iexact HO

set_option backward.isDefEq.respectTransparency.types false in
/-- THE MAIN KERNEL'S REGION. Entered with every unscoped buffer as the reshapes left it: its fifteen arrays go into the
    pipeline, every other unscoped buffer bypasses it. The scoped buffers it does not stage are the projection
    kernel's five staging buffers and the two scratch matrices: they are the invariant before the first point, where
    nothing is claimed of the scratch matrices' rows (no row lies below 200 · min 0 50 = 0), and the invariant after the
    last point gives them back, the claim about the rows forgotten. -/
def reg1 : Pipeline.RegionSeg (pcfgs (F := F)) adm (pdats m) () defs₀ Variants.none L lv 1 where
  win := launch1.win.to₀
  block_pos := launch1.block_pos
  stage_whole := launch1.stage_whole
  K := PEmpty
  osem := fun k => k.elim
  ho := Pipeline.OwnSemFacts.none _
  hbody c := (body_obligation1 (Vin1 m) c).loose
  hwaits := Pipeline.hwaits_of_owed_zero _ _ _ _ L lv 1 fun _ _ => rfl
  pre := St (W2 m)
  post := St (W3 m)
  X _ := iprop(emp)
  Y _ := iprop(emp)
  Z c := Pipeline.unscopedRest spec1 c (fun b => W2 m c b)
  hentry c := by
    unfold St
    rw [show StableHlo.held (c : Thread nD τ) (Pipeline.ucRefs τ sig) (W2 m c) = unscopedBufs c (fun b => W2 m c b) from (Pipeline.unscopedBufs_held c _).symm]
    have hsplit := Pipeline.arrays_of_unscopedBufs (pcfgs (F := F)) adm (pdats m) (p := 1) launch1.win launch1.arr_whole c
      ((pdats m 1 c).share_full fun _ => rfl) (fun b => W2 m c b) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    have hΦ : ∀ t, (pdats m 1 c).Φ t = Φ1 (Vin1 m) c t := fun _ => rfl
    rw [hΦ, show (Pipeline.scopedRest (Pipeline.pin (pcfgs (F := F)) adm 1).spec c : sProp 𝕄) = _ from scopedRest1_eq c]
    unfold Φ1 otherStaging scratchInv
    iintro ⟨-, -, ⟨H0, H1, H2, H3, H4, ⟨%f, Hf⟩, ⟨%g, Hg⟩⟩⟩
    isplitl [H0 H1 H2 H3 H4]
    · isplitl [H0]; · iexact H0
      isplitl [H1]; · iexact H1
      isplitl [H2]; · iexact H2
      isplitl [H3]; · iexact H3
      iexact H4
    iexists f, g
    isplitl [Hf]; · iexact Hf
    isplitl [Hg]; · iexact Hg
    ipureintro
    intro idx h
    rw [show ((0 : Fin (cfg1.N + 1)) : ℕ) = 0 from rfl, Nat.zero_min, Nat.mul_zero] at h
    exact absurd h (Nat.not_lt_zero _)
  hout c := by
    have hΦ : ∀ t, (pdats m 1 c).Φ t = Φ1 (Vin1 m) c t := fun _ => rfl
    rw [Pipeline.ownSems0_none, hΦ, show (Pipeline.scopedRest (Pipeline.pin (pcfgs (F := F)) adm 1).spec c : sProp 𝕄) = _ from scopedRest1_eq c]
    unfold Φ1 otherStaging scratchInv
    iintro ⟨⟨H0, H1, H2, H3, H4⟩, ⟨%f, %g, Hf, Hg, -⟩⟩
    isplitr; · iempintro
    isplitr; · iempintro
    isplitl [H0]; · iexact H0
    isplitl [H1]; · iexact H1
    isplitl [H2]; · iexact H2
    isplitl [H3]; · iexact H3
    isplitl [H4]; · iexact H4
    isplitl [Hf]; · iexists f; iexact Hf
    iexists g; iexact Hg
  hexit c := by
    unfold St
    rw [show W3 m c = Pipeline.withArrays (cfgs 1).spec c (W2 m c) (fun w => (pdats m 1 c).arrAt w cfg1.N) from rfl,
      held_withArrays m 1 launch1.win launch1.arr_whole c ((pdats m 1 c).share_full fun _ => rfl)]
    iintro ⟨Ha, HO, -, Hz⟩
    imodintro
    isplitr [HO]
    · isplitl [Ha]; · iexact Ha
      iexact Hz
    · unfold Pipeline.Dat.owesAt Pipeline.owesWithin
      icases HO with ⟨%W, -, HO⟩; iexists W; iexact HO

/-- The four reshapes between the regions, over the unscoped buffers from W1, the core's owing nothing riding along. -/
def hseg : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- @main as the list of the three. -/
abbrev msegs : List (Pipeline.Seg (pcfgs (F := F)) adm (pdats m) () defs₀ Variants.none L lv) :=
  [.region (reg0 m), .host (hseg m), .region (reg1 m)]

end RunKit

open RunKit

set_option backward.isDefEq.respectTransparency.types false in
/-- THE RUN. From any memory with zero counters every weakly fair execution of @main terminates, and every final memory
    holds every unscoped buffer of every core at W3. -/
theorem run_main : θ_run defs (onTc (τ := τ) (main (F := F))) ⟨m, fun _ => 0, ρ⟩ (fun r => ∀ c : Dev nD, ∀ b : Ref sig .tc,
    (Proc.devRef .tc b : DevRef τ sig) ∈ Pipeline.ucRefs τ sig → r.2.mem ((c.tc : Thread nD τ).loc b) = W3 m c b) :=
  Pipeline.θ_run_regions_kit (pcfgs (F := F)) adm (pdats m) () cellOf_inj emb₁ defs₀ Variants.none L lv m ρ main (msegs m)
    (fun c Q => by rw [main_segs adm (pdats m) () Variants.none L lv (hseg m) (reg0 m) (reg1 m) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := fun c => StableHlo.held (c : Thread nD τ) (Pipeline.ucRefs τ sig) (W3 m c))
    (hch := ⟨fun _ => .rfl, fun _ => .rfl, fun _ => .rfl, fun _ => .rfl⟩)
    (hinit := by
      refine Pipeline.initEach L lv fun c => ?_
      unfold St
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b : Ref sig .tc, (Proc.devRef .tc b : DevRef τ sig) ∈ Pipeline.ucRefs τ sig → s.mem ((c.tc : Thread nD τ).loc b) = W3 m c b)
    (hfin := fun c s' => by
      unfold StableHlo.held
      iintro ⟨Hh, HSI⟩
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro; exact fun b hb => h (Proc.devRef .tc b) hb
      · iexact HSI)
    (hQ := fun _ h => h)

/-! ## W3 read at the arguments and at the results -/

theorem W3_arg0 (c : Dev nD) : W3 m c main_arg0 = m ((c : Thread nD τ).loc main_arg0) :=
  (W3_of_ne m c main_arg0 (by decide)).trans <| (W2_of m c main_arg0 (by decide)).trans <|
    (W1_arr m c 0).trans <| ((dat0 (Vin0 m) c).arrAt_in 0 rfl _).trans rfl
theorem W3_arg1 (c : Dev nD) : W3 m c main_arg1 = m ((c : Thread nD τ).loc main_arg1) :=
  (W3_arr m c 0).trans <| ((dat1 (Vin1 m) c).arrAt_in 0 rfl _).trans <| (W2_of m c main_arg1 (by decide)).trans <|
    (W1_of_ne m c main_arg1 (by decide)).trans rfl
theorem W3_arg2 (c : Dev nD) : W3 m c main_arg2 = m ((c : Thread nD τ).loc main_arg2) :=
  (W3_arr m c 1).trans <| ((dat1 (Vin1 m) c).arrAt_in 1 rfl _).trans <| (W2_of m c main_arg2 (by decide)).trans <|
    (W1_of_ne m c main_arg2 (by decide)).trans rfl
theorem W3_arg3 (c : Dev nD) : W3 m c main_arg3 = m ((c : Thread nD τ).loc main_arg3) :=
  (W3_of_ne m c main_arg3 (by decide)).trans <| (W2_of m c main_arg3 (by decide)).trans <|
    (W1_arr m c 1).trans <| ((dat0 (Vin0 m) c).arrAt_in 1 rfl _).trans rfl
theorem W3_arg4 (c : Dev nD) : W3 m c main_arg4 = m ((c : Thread nD τ).loc main_arg4) :=
  (W3_of_ne m c main_arg4 (by decide)).trans <| (W2_of m c main_arg4 (by decide)).trans <|
    (W1_of_ne m c main_arg4 (by decide)).trans rfl
theorem W3_arg5 (c : Dev nD) : W3 m c main_arg5 = m ((c : Thread nD τ).loc main_arg5) :=
  (W3_arr m c 5).trans <| ((dat1 (Vin1 m) c).arrAt_in 5 rfl _).trans <| (W2_of m c main_arg5 (by decide)).trans <|
    (W1_of_ne m c main_arg5 (by decide)).trans rfl
theorem W3_arg6 (c : Dev nD) : W3 m c main_arg6 = m ((c : Thread nD τ).loc main_arg6) :=
  (W3_of_ne m c main_arg6 (by decide)).trans <| (W2_of m c main_arg6 (by decide)).trans <|
    (W1_of_ne m c main_arg6 (by decide)).trans rfl
theorem W3_arg7 (c : Dev nD) : W3 m c main_arg7 = m ((c : Thread nD τ).loc main_arg7) :=
  (W3_of_ne m c main_arg7 (by decide)).trans <| (W2_of m c main_arg7 (by decide)).trans <|
    (W1_arr m c 2).trans <| ((dat0 (Vin0 m) c).arrAt_in 2 rfl _).trans rfl
theorem W3_arg8 (c : Dev nD) : W3 m c main_arg8 = m ((c : Thread nD τ).loc main_arg8) :=
  (W3_of_ne m c main_arg8 (by decide)).trans <| (W2_of m c main_arg8 (by decide)).trans <|
    (W1_of_ne m c main_arg8 (by decide)).trans rfl
theorem W3_arg9 (c : Dev nD) : W3 m c main_arg9 = m ((c : Thread nD τ).loc main_arg9) :=
  (W3_arr m c 7).trans <| ((dat1 (Vin1 m) c).arrAt_in 7 rfl _).trans <| (W2_of m c main_arg9 (by decide)).trans <|
    (W1_of_ne m c main_arg9 (by decide)).trans rfl
theorem W3_arg10 (c : Dev nD) : W3 m c main_arg10 = m ((c : Thread nD τ).loc main_arg10) :=
  (W3_of_ne m c main_arg10 (by decide)).trans <| (W2_of m c main_arg10 (by decide)).trans <|
    (W1_of_ne m c main_arg10 (by decide)).trans rfl
theorem W3_arg11 (c : Dev nD) : W3 m c main_arg11 = m ((c : Thread nD τ).loc main_arg11) :=
  (W3_arr m c 8).trans <| ((dat1 (Vin1 m) c).arrAt_in 8 rfl _).trans <| (W2_of m c main_arg11 (by decide)).trans <|
    (W1_of_ne m c main_arg11 (by decide)).trans rfl

/-- The four results are the main kernel's four output arrays after its write-backs. -/
theorem W3_v5_0 (c : Dev nD) : W3 m c main_v5_0 = (dat1 (Vin1 m) c).arrAt 11 cfg1.N := W3_arr m c 11
theorem W3_v5_1 (c : Dev nD) : W3 m c main_v5_1 = (dat1 (Vin1 m) c).arrAt 12 cfg1.N := W3_arr m c 12
theorem W3_v5_2 (c : Dev nD) : W3 m c main_v5_2 = (dat1 (Vin1 m) c).arrAt 13 cfg1.N := W3_arr m c 13
theorem W3_v5_3 (c : Dev nD) : W3 m c main_v5_3 = (dat1 (Vin1 m) c).arrAt 14 cfg1.N := W3_arr m c 14

/-- Every reference these lemmas and the claim read is unscoped. -/
theorem mem_ucRefs_of_hbm (b : Ref sig .tc) (h : b.1 = .hbm) : (Proc.devRef .tc b : DevRef τ sig) ∈ Pipeline.ucRefs τ sig := by
  refine Finset.mem_filter.mpr ⟨StableHlo.devRef_mem_tcRefs b, ?_⟩
  obtain ⟨sp, i, hn⟩ := b
  subst h
  revert i
  decide

end Cert.Kernel.Hand

end
-- ==== Proof.KI.Data0.lean ====
/-
  The projection kernel (the first pallas_call): one grid point, every window a whole array.
  Its two results are S_a = X · W1a and S_b = X · W1b, each stored whole; the three inputs are left as fetched.
  Stated at a parameter V, the contents of the core's buffers when the region is entered.
-/
import proofs.«150603_g79422535238402_cont_9to1c4b_784_13_alg».proof.Proof.Gen.KernelIdeal.Launch
import proofs.«150603_g79422535238402_cont_9to1c4b_784_13_alg».proof.Proof.Gen.KernelIdeal.Skeleton
import proofs.«150603_g79422535238402_cont_9to1c4b_784_13_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the (one) point, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the projection kernel: inputs left at their blocks, the two results at X·W1a and X·W1b;
    between points the kernel keeps nothing of its own (the scoped buffers it does not stage, at anything). -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay1 (blk0 V c 0 t) (blk0 V c 1 t)
    | ⟨4, _⟩ => k0_pay2 (blk0 V c 0 t) (blk0 V c 2 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 V c).A w = V c (Pipeline.arrRef spec0 w) := by dsimp only [dat0]

/-- The offset of a rectangle that starts at the origin of a rank-2 shape. -/
theorem off00 : (![0, 0] : Fin 2 → ℕ) = fun _ => 0 := funext fun a => by fin_cases a <;> rfl

section WholeAccess

variable {κ : Kind} {sp : Space} {S : Shape} {e : EltTy}

/-- A load through the rectangle that is the whole shape reads the contents as the view reads them. -/
theorem readAt_whole (v : View sig κ sp S e) (f : v.ty.Contents (Elt F)) {off : Fin S.rank → ℕ} (hoff : off = fun _ => 0)
    (inb : ∀ a, off a + S.size a ≤ S.size a) :
    v.readAt (Elt F) (Rect.unit off S.size inb).toLoadRect f = v.read (Elt F) f := by
  rw [View.readAt_eq_ld, View.ld_unit_zero hoff]

/-- One store through the rectangle that is the whole shape leaves the stored value, whatever was there. -/
theorem read_store_whole (v : View sig κ sp S e) (f : v.ty.Contents (Elt F)) {off : Fin S.rank → ℕ} (hoff : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hoff inb y⟩),
    View.canon_unit_zero hoff]

end WholeAccess

/-- The projection kernel on five whole memrefs: X, W1a, W1b at read contents x0, x1, x2, the two result buffers at
    anything. It loads each operand whole, stores X·W1a (rounded to bf16) over the first result buffer and X·W1b over
    the second, and leaves the operands as they were; whatever else the core holds (R) is untouched. -/
theorem kernel0 (c : Dev nD)
    (a0 : Memref sig .tc .vmem S10000x128 .f32) (h0 : a0.IsWhole) (a1 : Memref sig .tc .vmem S128x64 .f32) (h1 : a1.IsWhole)
    (a2 : Memref sig .tc .vmem S128x64 .f32) (h2 : a2.IsWhole) (a3 : Memref sig .tc .vmem S10000x64 .bf16) (h3 : a3.IsWhole)
    (a4 : Memref sig .tc .vmem S10000x64 .bf16) (h4 : a4.IsWhole)
    (x0 : Vec F S10000x128 .f32) (x1 x2 : Vec F S128x64 .f32) (d3 d4 : Vec F S10000x64 .bf16) (R : sProp 𝕄) :
    iprop(R ∗ owns (c : Thread nD τ) a0 fullShare x0 ∗ owns (c : Thread nD τ) a1 fullShare x1 ∗ owns (c : Thread nD τ) a2 fullShare x2
        ∗ owns (c : Thread nD τ) a3 fullShare d3 ∗ owns (c : Thread nD τ) a4 fullShare d4)
      ⊢ wp frame (wpE (defs₀ (F := F)) Variants.none c none) Set.univ (cc0__proj_kernel a0 h0 a1 h1 a2 h2 a3 h3 a4 h4)
          (fun _ => iprop(R ∗ owns (c : Thread nD τ) a0 fullShare x0 ∗ owns (c : Thread nD τ) a1 fullShare x1 ∗ owns (c : Thread nD τ) a2 fullShare x2
            ∗ owns (c : Thread nD τ) a3 fullShare (k0_pay1 x0 x1) ∗ owns (c : Thread nD τ) a4 fullShare (k0_pay2 x0 x2))) := by
  simp only [cc0__proj_kernel_eq_skeleton]; unfold cc0__proj_kernel_skel
  unfold owns
  iintro ⟨HR, ⟨%f0, %hf0, H0⟩, ⟨%f1, %hf1, H1⟩, ⟨%f2, %hf2, H2⟩, ⟨%f3, -, H3⟩, ⟨%f4, -, H4⟩⟩
  subst hf0 hf1 hf2
  sl_exec
  sl_step
  isplitl [HR]; · iexact HR
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    rw [read_store_whole _ _ off00, readAt_whole _ _ off00, readAt_whole _ _ off00]
  iexists _; isplitr; swap; · iexact H4
  ipureintro
  rw [read_store_whole _ _ off00, readAt_whole _ _ off00, readAt_whole _ _ off00]

/-- Each input window is fetched at the one point, so the body finds the array's block there: the whole array. -/
theorem before0_0 (c : Dev nD) (t : Fin cfg0.N) (d) : (dat0 V c).before 0 t d = blk0 V c 0 t := by
  unfold Dat.before; rw [if_pos (fetch0_0 t)]; unfold Dat.fetched Dat.blockOf blk0; rw [dat0_A]; rfl
theorem before0_1 (c : Dev nD) (t : Fin cfg0.N) (d) : (dat0 V c).before 1 t d = blk0 V c 1 t := by
  unfold Dat.before; rw [if_pos (fetch0_1 t)]; unfold Dat.fetched Dat.blockOf blk0; rw [dat0_A]; rfl
theorem before0_2 (c : Dev nD) (t : Fin cfg0.N) (d) : (dat0 V c).before 2 t d = blk0 V c 2 t := by
  unfold Dat.before; rw [if_pos (fetch0_2 t)]; unfold Dat.fetched Dat.blockOf blk0; rw [dat0_A]; rfl

/-- What the proof data say each window's buffer holds after the body. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay1 (blk0 V c 0 t) (blk0 V c 1 t) := by dsimp only [dat0]
theorem after0_4 (c : Dev nD) (t : Fin cfg0.N) : (dat0 V c).after 4 t = k0_pay2 (blk0 V c 0 t) (blk0 V c 2 t) := by dsimp only [dat0]

/-- The invariant and what the core owes do not depend on the point. -/
theorem dat0_Φ_const (c : Dev nD) (t t' : Fin (cfg0.N + 1)) : (dat0 V c).Φ t = (dat0 V c).Φ t' := by dsimp only [dat0]
theorem dat0_owes_const (c : Dev nD) (t t' : Fin (cfg0.N + 1)) : (dat0 V c).owesAt () t = (dat0 V c).owesAt () t' := rfl

/-- The body at the one point, on the five current staging memrefs: the invariant and the core's tallies ride along as
    the frame of the kernel's triple; the three inputs' memrefs hold their blocks, the two results' anything, and the
    kernel leaves the results at the two projections of the input blocks. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t))) := by
  simp only [before0_0, before0_1, before0_2, after0_0, after0_1, after0_2, after0_3, after0_4]
  rw [dat0_Φ_const V c t.succ t.castSucc, dat0_owes_const V c t.succ t.castSucc]
  iintro ⟨HΦ, HO, ⟨%d0, H0⟩, ⟨%d1, H1⟩, ⟨%d2, H2⟩, ⟨%d3, H3⟩, ⟨%d4, H4⟩⟩
  iapply (wp_mono _ _ _ fun _ => sep_assoc.1)
  iapply (kernel0 c (st0_0 t) (hstage0_0 0) (st0_1 t) (hstage0_1 0) (st0_2 t) (hstage0_2 0) (st0_3 t) (hstage0_3 0)
    (st0_4 t) (hstage0_4 0) (blk0 V c 0 t) (blk0 V c 1 t) (blk0 V c 2 t) _ _
    iprop((dat0 V c).Φ t.castSucc ∗ (dat0 V c).owesAt () t.castSucc))
  isplitl [HΦ HO]
  · isplitl [HΦ]; · iexact HΦ
    iexact HO
  isplitl [H0]; · iexact H0
  isplitl [H1]; · iexact H1
  isplitl [H2]; · iexact H2
  isplitl [H3]; · iexact H3
  iexact H4

/-- The body obligation of the projection kernel at its one point. -/
theorem body_obligation0 (c : Dev nD) : BodyObligation (dat0 (F := F) V c) (defs₀ (F := F)) Variants.none () Set.univ := fun t => by
  rw [bigSep_W0, bigSep_W0]; exact sound_body0 V c t

end Cert.KernelIdeal.Hand

end
-- ==== Proof.KI.Data1.lean ====
/-
  The main kernel (the second pallas_call): a grid of 2 × 50 points. At the first fifty points (phase 0) it writes
  rows 200·b … 200·b+199 of two resident scratch matrices,
      T_a[block b] = relu(A_s[block b] · S_a + b1a) · W2a,      T_b[block b] = relu(A_f[block b] · S_b + b1b) · W2b,
  and stores into no output; at the last fifty (phase 1) it reads both scratch matrices whole and stores four
  output blocks:  x1 = A_s[block] · T_a + b2a,  p1 = relu(relu(x1) · Wp),  and the same with A_f, T_b, b2b.
  Stated at a parameter V, the contents of the core's buffers when the region is entered.
-/
import proofs.«150603_g79422535238402_cont_9to1c4b_784_13_alg».proof.Proof.Gen.KernelIdeal.Launch
import proofs.«150603_g79422535238402_cont_9to1c4b_784_13_alg».proof.Proof.Gen.KernelIdeal.Skeleton
import proofs.«150603_g79422535238402_cont_9to1c4b_784_13_alg».proof.Proof.Gen.KernelIdeal.Points
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 200 rows of T_a that the point t computes from its block of A_s (at a phase-0 point these are the rows it stores). -/
def taBlk (c : Dev nD) (t : Fin cfg1.N) : Vec F S200x32 .f32 :=
  k1_pay3 (blk1 V c 0 t) (blk1 V c 2 t) (blk1 V c 4 t) (blk1 V c 5 t)
/-- The same for T_b, from the block of A_f. -/
def tbBlk (c : Dev nD) (t : Fin cfg1.N) : Vec F S200x32 .f32 :=
  k1_pay4 (blk1 V c 1 t) (blk1 V c 3 t) (blk1 V c 6 t) (blk1 V c 7 t)

/-- The phase-0 point that owns row r of the scratch matrices: r / 200 (always below 50, hence below 100). -/
def rowPoint (r : Fin 10000) : Fin cfg1.N := ⟨r.val / 200, by have := r.isLt; have : cfg1.N = 100 := N_1; omega⟩
/-- The row's place inside that point's 200 rows. -/
def rowIn (r : Fin 10000) : Fin 200 := ⟨r.val % 200, Nat.mod_lt _ (by decide)⟩

/-- T_a whole: row r is row r % 200 of what point r / 200 stores. -/
def TA (c : Dev nD) : Vec F S10000x32 .f32 := fun idx => taBlk V c (rowPoint (idx 0)) (ValueIdx.ix2 (rowIn (idx 0)) (idx 1))
/-- T_b whole. -/
def TB (c : Dev nD) : Vec F S10000x32 .f32 := fun idx => tbBlk V c (rowPoint (idx 0)) (ValueIdx.ix2 (rowIn (idx 0)) (idx 1))

/-- The staging buffers of the OTHER pallas_call, which this kernel never touches: each at something. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f))

/-- What the two scratch matrices hold before point n: SOME contents that agree with T_a, T_b on every row the
    phase-0 points below n have stored (rows below 200 · min n 50); the rest is whatever the region found. -/
def scratchInv (c : Dev nD) (n : Nat) : sProp 𝕄 :=
  iprop(∃ (f : Buf (Elt F) ((c : Thread nD τ).loc cc1_scratch0)) (g : Buf (Elt F) ((c : Thread nD τ).loc cc1_scratch1)),
    (((c : Thread nD τ).loc cc1_scratch0) ↦{fullShare} f) ∗ (((c : Thread nD τ).loc cc1_scratch1) ↦{fullShare} g)
    ∗ ⌜∀ idx : S10000x32.Idx, (idx 0).val < 200 * min n 50 → f idx = TA V c idx ∧ g idx = TB V c idx⌝)

/-- The kernel's invariant before point t. -/
def Φ1 (c : Dev nD) (t : Fin (cfg1.N + 1)) : sProp 𝕄 := iprop(otherStaging (F := F) c ∗ scratchInv V c t.val)

/-- The proof data of the main kernel. Inputs are left at their blocks. The four outputs' staging buffers after a
    phase-1 point hold that point's x1, x2, p1, p2 blocks (windows 11, 12, 13, 14); at a phase-0 point they are idle
    and the entry below is not consulted. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => k1_pay5 (k1_pay1 (blk1 V c 0 t)) (TA V c) (blk1 V c 9 t)
    | ⟨12, _⟩ => k1_pay7 (k1_pay2 (blk1 V c 1 t)) (TB V c) (blk1 V c 10 t)
    | ⟨13, _⟩ => k1_pay6 (k1_pay1 (blk1 V c 0 t)) (TA V c) (blk1 V c 9 t) (blk1 V c 8 t)
    | ⟨14, _⟩ => k1_pay8 (k1_pay2 (blk1 V c 1 t)) (TB V c) (blk1 V c 10 t) (blk1 V c 8 t)
  Φ t := Φ1 V c t
  q _ := fullShare
  owed _ := 0

theorem dat1_A (c : Dev nD) (w : Fin cfg1.W) : (dat1 V c).A w = V c (Pipeline.arrRef spec1 w) := by dsimp only [dat1]
theorem dat1_Φ (c : Dev nD) (t : Fin (cfg1.N + 1)) : (dat1 V c).Φ t = Φ1 V c t := by dsimp only [dat1]
theorem dat1_after11 (c : Dev nD) (t : Fin cfg1.N) : (dat1 V c).after 11 t = k1_pay5 (k1_pay1 (blk1 V c 0 t)) (TA V c) (blk1 V c 9 t) := by dsimp only [dat1]
theorem dat1_after12 (c : Dev nD) (t : Fin cfg1.N) : (dat1 V c).after 12 t = k1_pay7 (k1_pay2 (blk1 V c 1 t)) (TB V c) (blk1 V c 10 t) := by dsimp only [dat1]
theorem dat1_after13 (c : Dev nD) (t : Fin cfg1.N) : (dat1 V c).after 13 t = k1_pay6 (k1_pay1 (blk1 V c 0 t)) (TA V c) (blk1 V c 9 t) (blk1 V c 8 t) := by dsimp only [dat1]
theorem dat1_after14 (c : Dev nD) (t : Fin cfg1.N) : (dat1 V c).after 14 t = k1_pay8 (k1_pay2 (blk1 V c 1 t)) (TB V c) (blk1 V c 10 t) (blk1 V c 8 t) := by dsimp only [dat1]

end Cert.KernelIdeal.Hand

end
-- ==== Proof.KI.PhaseCommon.lean ====
/-
  What the main kernel's body is handed in its eleven input windows at a point, and its two phases as triples.
-/
import proofs.«150603_g79422535238402_cont_9to1c4b_784_13_alg».proof.Proof.KI.Data1
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven input windows' current staging memrefs at point t, each holding its block. -/
def ins (c : Dev nD) (t : Fin cfg1.N) : sProp 𝕄 :=
  iprop(owns (c : Thread nD τ) (st1_0 t) fullShare (blk1 V c 0 t) ∗ owns (c : Thread nD τ) (st1_1 t) fullShare (blk1 V c 1 t)
    ∗ owns (c : Thread nD τ) (st1_2 t) fullShare (blk1 V c 2 t) ∗ owns (c : Thread nD τ) (st1_3 t) fullShare (blk1 V c 3 t)
    ∗ owns (c : Thread nD τ) (st1_4 t) fullShare (blk1 V c 4 t) ∗ owns (c : Thread nD τ) (st1_5 t) fullShare (blk1 V c 5 t)
    ∗ owns (c : Thread nD τ) (st1_6 t) fullShare (blk1 V c 6 t) ∗ owns (c : Thread nD τ) (st1_7 t) fullShare (blk1 V c 7 t)
    ∗ owns (c : Thread nD τ) (st1_8 t) fullShare (blk1 V c 8 t) ∗ owns (c : Thread nD τ) (st1_9 t) fullShare (blk1 V c 9 t)
    ∗ owns (c : Thread nD τ) (st1_10 t) fullShare (blk1 V c 10 t))

/-- The four output windows' current staging memrefs at point t, each at something. -/
def outsAny (c : Dev nD) (t : Fin cfg1.N) : sProp 𝕄 :=
  iprop((∃ d, owns (c : Thread nD τ) (st1_11 t) fullShare d) ∗ (∃ d, owns (c : Thread nD τ) (st1_12 t) fullShare d)
    ∗ (∃ d, owns (c : Thread nD τ) (st1_13 t) fullShare d) ∗ (∃ d, owns (c : Thread nD τ) (st1_14 t) fullShare d))

/-- The four output windows' current staging memrefs at point t, each at what the proof data names. -/
def outsAfter (c : Dev nD) (t : Fin cfg1.N) : sProp 𝕄 :=
  iprop(owns (c : Thread nD τ) (st1_11 t) fullShare ((dat1 V c).after 11 t) ∗ owns (c : Thread nD τ) (st1_12 t) fullShare ((dat1 V c).after 12 t)
    ∗ owns (c : Thread nD τ) (st1_13 t) fullShare ((dat1 V c).after 13 t) ∗ owns (c : Thread nD τ) (st1_14 t) fullShare ((dat1 V c).after 14 t))

end Cert.KernelIdeal.Hand

end
-- ==== Proof.KI.Phase0.lean ====
/-
  Phase 0 of the main kernel (points 0 … 49): the body stores this point's 200 rows of T_a and T_b into the two
  scratch matrices and touches no output window; the rows stored so far grow by this point's.

  First the body's triple over its own memref parameters at a grid position whose first coordinate is 0: eight input
  windows are read, each scratch matrix is left with one more rectangle of rows written over what it held. Then the
  arithmetic of the invariant: a row below 200·t misses the rectangle stored at point t and keeps agreeing with T_a
  (T_b); row 200·t + r lies in it and reads row r of the stored block, which is what T_a (T_b) is there, because that
  row belongs to point (200·t + r) / 200 = t at place (200·t + r) % 200 = r.
-/
import proofs.«150603_g79422535238402_cont_9to1c4b_784_13_alg».proof.Proof.KI.PhaseCommon
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem phase0_off00 : (![0, 0] : Fin 2 → ℕ) = fun _ => 0 := funext fun a => by fin_cases a <;> rfl

/-- The main kernel's body at a phase-0 grid position (first coordinate 0), over its own memref parameters: it reads
    its first eight input windows, overwrites rows `k1_off1 i` … of the two scratch matrices with the T_a and T_b rows
    computed from them, and touches nothing else. -/
theorem kernel_phase0 (c : Dev nD) (i : grid1.Coords) (h1 : k1_cond1 i = 1#1) (h2 : ¬ k1_cond2 i = 1#1)
    (arg2 : Memref sig .tc .vmem S200x10000 .f32) (harg2 : arg2.IsWhole) (arg3 : Memref sig .tc .vmem S200x10000 .f32) (harg3 : arg3.IsWhole)
    (arg4 : Memref sig .tc .vmem S10000x64 .bf16) (harg4 : arg4.IsWhole) (arg5 : Memref sig .tc .vmem S10000x64 .bf16) (harg5 : arg5.IsWhole)
    (arg6 : Memref sig .tc .vmem S1x64 .f32) (harg6 : arg6.IsWhole) (arg7 : Memref sig .tc .vmem S64x32 .f32) (harg7 : arg7.IsWhole)
    (arg8 : Memref sig .tc .vmem S1x64 .f32) (harg8 : arg8.IsWhole) (arg9 : Memref sig .tc .vmem S64x32 .f32) (harg9 : arg9.IsWhole)
    (arg10 : Memref sig .tc .vmem S32x16 .f32) (harg10 : arg10.IsWhole) (arg11 : Memref sig .tc .vmem S1x32 .f32) (harg11 : arg11.IsWhole)
    (arg12 : Memref sig .tc .vmem S1x32 .f32) (harg12 : arg12.IsWhole) (arg13 : Memref sig .tc .vmem S200x32 .f32) (harg13 : arg13.IsWhole)
    (arg14 : Memref sig .tc .vmem S200x32 .f32) (harg14 : arg14.IsWhole) (arg15 : Memref sig .tc .vmem S200x16 .f32) (harg15 : arg15.IsWhole)
    (arg16 : Memref sig .tc .vmem S200x16 .f32) (harg16 : arg16.IsWhole)
    (arg17 : Memref sig .tc .vmem S10000x32 .f32) (harg17 : arg17.IsWhole) (arg18 : Memref sig .tc .vmem S10000x32 .f32) (harg18 : arg18.IsWhole)
    (x0 : Vec F S200x10000 .f32) (x1 : Vec F S200x10000 .f32) (x2 : Vec F S10000x64 .bf16) (x3 : Vec F S10000x64 .bf16)
    (x4 : Vec F S1x64 .f32) (x5 : Vec F S64x32 .f32) (x6 : Vec F S1x64 .f32) (x7 : Vec F S64x32 .f32)
    (f : Buf (Elt F) (arg17.view.loc (c : Thread nD τ))) (g : Buf (Elt F) (arg18.view.loc (c : Thread nD τ)))
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (arg17.view.loc (c : Thread nD τ) ↦[arg17.view.set]{fullShare} f) ∗ (arg18.view.loc (c : Thread nD τ) ↦[arg18.view.set]{fullShare} g)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ (arg17.view.loc (c : Thread nD τ) ↦[arg17.view.set]{fullShare}
                arg17.view.writes (Elt F) f [⟨Rect.unit (s := S10000x32) (k1_off1 i) S200x32.size (k1_off1_inb i h1), k1_pay3 x0 x2 x4 x5⟩])
            ∗ (arg18.view.loc (c : Thread nD τ) ↦[arg18.view.set]{fullShare}
                arg18.view.writes (Elt F) g [⟨Rect.unit (s := S10000x32) (k1_off1 i) S200x32.size (k1_off1_inb i h1), k1_pay4 x1 x3 x6 x7⟩])) -∗ K ⟨⟩))
      ⊢ wp frame (wpE (defs₀ (F := F)) Variants.none c none) Set.univ
          (cc1__cgcn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__cgcn_kernel_eq_skeleton]; unfold cc1__cgcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HS0, HS1, Hk⟩
  subst hf0 hf1 hf2 hf3 hf4 hf5 hf6 hf7
  sl_exec (disch := first | sl_exact h1 | sl_exact h2)
  sl_step
  simp only [View.readAt_eq_ld, View.ld_unit_zero (S := S200x10000) phase0_off00, View.ld_unit_zero (S := S10000x64) phase0_off00,
    View.ld_unit_zero (S := S1x64) phase0_off00, View.ld_unit_zero (S := S64x32) phase0_off00]
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexact HS0
  iexact HS1

/-- At a phase-0 point (below 50) the grid position is (0, t): the first branch is taken, the second is not, and the
    second coordinate is the point's number. Decided over the hundred points. -/
theorem phase0_point : ∀ t : Fin cfg1.N, t.val < 50 →
    k1_cond1 (grid1.coords t) = 1#1 ∧ ¬ k1_cond2 (grid1.coords t) = 1#1 ∧ (grid1.coords t 1).val = t.val :=
  (by decide +kernel : ∀ t : Fin grid1.N, t.val < 50 →
    k1_cond1 (grid1.coords t) = 1#1 ∧ ¬ k1_cond2 (grid1.coords t) = 1#1 ∧ (grid1.coords t 1).val = t.val)

/-- A 10000×32 buffer that agrees with `T` on rows below 200·n, after rows 200·n … 200·n+199 are overwritten by a
    200×32 payload that is `T` on those rows, agrees with `T` on rows below 200·(n+1): a row below 200·n misses the
    stored rectangle and reads what was there; a row 200·n + r reads the payload's row r. -/
theorem phase0_rows_step {κ : Kind} {sp : Space} (v : View sig κ sp S10000x32 .f32) (f : v.ty.Contents (Elt F))
    (off : Fin 2 → ℕ) (n : ℕ) (hoff : off = ![200 * n, 0]) (inb : ∀ a : Fin 2, off a + S200x32.size a ≤ S10000x32.size a)
    (w : Vec F S200x32 .f32) (T : Vec F S10000x32 .f32)
    (hprev : ∀ idx : S10000x32.Idx, (idx 0).val < 200 * n → v.read (Elt F) f idx = T idx)
    (hnew : ∀ (idx : S10000x32.Idx) (r : Fin 200) (q : Fin 32), (idx 0).val = 200 * n + r.val → (idx 1).val = q.val →
      T idx = w (ValueIdx.ix2 r q))
    (idx : S10000x32.Idx) (h : (idx 0).val < 200 * (n + 1)) :
    v.read (Elt F) (v.writes (Elt F) f [⟨Rect.unit (s := S10000x32) off S200x32.size inb, w⟩]) idx = T idx := by
  by_cases hlt : (idx 0).val < 200 * n
  · rw [View.read_writes_cons_rows_of_not_mem v f inb w [] idx hoff (W := 200) rfl (Or.inl hlt)]
    exact hprev idx hlt
  · have hq : (idx 1).val < 32 := ValueIdx.idx2_lt1 idx
    have h0 : (idx 0).val = 200 * n + ((idx 0).val - 200 * n) := by omega
    rw [View.read_writes_cons_rows_of_mem v f inb w [] idx
      (ValueIdx.ix2 (⟨(idx 0).val - 200 * n, by omega⟩ : Fin 200) (⟨(idx 1).val, hq⟩ : Fin 32)) hoff h0 rfl]
    exact (hnew idx _ _ h0 rfl).symm

/-- The first scratch matrix as the invariant holds it and as the body's run names it: one points-to. -/
theorem phase0_scr0_eq (c : Dev nD) (f : Buf (Elt F) ((c : Thread nD τ).loc cc1_scratch0)) :
    ((Memref.whole cc1_scratch0 : Memref sig .tc .vmem S10000x32 .f32).view.loc (c : Thread nD τ)
        ↦[(Memref.whole cc1_scratch0 : Memref sig .tc .vmem S10000x32 .f32).view.set]{fullShare} f : sProp 𝕄)
      = ((c : Thread nD τ).loc cc1_scratch0) ↦{fullShare} f := by
  simp only [Memref.view_whole, View.set_whole]
/-- The same for the second. -/
theorem phase0_scr1_eq (c : Dev nD) (g : Buf (Elt F) ((c : Thread nD τ).loc cc1_scratch1)) :
    ((Memref.whole cc1_scratch1 : Memref sig .tc .vmem S10000x32 .f32).view.loc (c : Thread nD τ)
        ↦[(Memref.whole cc1_scratch1 : Memref sig .tc .vmem S10000x32 .f32).view.set]{fullShare} g : sProp 𝕄)
      = ((c : Thread nD τ).loc cc1_scratch1) ↦{fullShare} g := by
  simp only [Memref.view_whole, View.set_whole]

variable (V : (c : Dev nD) → (b : Ref sig .tc) → Buf (Elt F) ((c : Thread nD τ).loc b))

/-- Row 200·t + r of T_a is row r of what point t stores. -/
theorem phase0_TA_row (c : Dev nD) (t : Fin cfg1.N) (ht : t.val < 50) (idx : S10000x32.Idx) (r : Fin 200) (q : Fin 32)
    (h0 : (idx 0).val = 200 * t.val + r.val) (h1 : (idx 1).val = q.val) :
    TA V c idx = taBlk V c t (ValueIdx.ix2 r q) := by
  have hp : rowPoint (idx 0) = t := Fin.ext (by show (idx 0).val / 200 = t.val; omega)
  have hr : rowIn (idx 0) = r := Fin.ext (by show (idx 0).val % 200 = r.val; omega)
  have hq : (idx 1 : Fin 32) = q := Fin.ext h1
  show taBlk V c (rowPoint (idx 0)) (ValueIdx.ix2 (rowIn (idx 0)) (idx 1)) = _
  rw [hp, hr, hq]
/-- The same for T_b. -/
theorem phase0_TB_row (c : Dev nD) (t : Fin cfg1.N) (ht : t.val < 50) (idx : S10000x32.Idx) (r : Fin 200) (q : Fin 32)
    (h0 : (idx 0).val = 200 * t.val + r.val) (h1 : (idx 1).val = q.val) :
    TB V c idx = tbBlk V c t (ValueIdx.ix2 r q) := by
  have hp : rowPoint (idx 0) = t := Fin.ext (by show (idx 0).val / 200 = t.val; omega)
  have hr : rowIn (idx 0) = r := Fin.ext (by show (idx 0).val % 200 = r.val; omega)
  have hq : (idx 1 : Fin 32) = q := Fin.ext h1
  show tbBlk V c (rowPoint (idx 0)) (ValueIdx.ix2 (rowIn (idx 0)) (idx 1)) = _
  rw [hp, hr, hq]

/-- The body at a phase-0 point t: the eleven input windows come back as they were, and the scratch matrices, which
    agreed with T_a, T_b on rows below 200·t, agree with them on rows below 200·(t+1). -/
theorem sound_phase0 (c : Dev nD) (t : Fin cfg1.N) (ht : t.val < 50) (K : PUnit → sProp 𝕄) :
    iprop(ins V c t ∗ scratchInv V c t.val ∗ (iprop(ins V c t ∗ scratchInv V c (t.val + 1)) -∗ K ⟨⟩))
      ⊢ wp frame (wpE (defs₀ (F := F)) Variants.none c none) Set.univ (bodyAt1 (F := F) t) K := by
  obtain ⟨hc1, hc2, hc3⟩ := phase0_point t ht
  have hoff : k1_off1 (grid1.coords t) = ![200 * t.val, 0] := by rw [k1_off1_eq, hc3]
  unfold ins scratchInv bodyAt1
  iintro ⟨⟨I0, I1, I2, I3, I4, I5, I6, I7, I8, I9, I10⟩, ⟨%f, %g, HS0, HS1, %hinv⟩, Hk⟩
  iapply (kernel_phase0 c (grid1.coords t) hc1 hc2 _ _ _ _ _ _ _ _ _ _ _ _ _ _ _ _ _ _ _ _ _ _ _ _ _ _ _ _ _ _
    (Memref.whole cc1_scratch0) (Memref.isWhole_whole _) (Memref.whole cc1_scratch1) (Memref.isWhole_whole _)
    (blk1 V c 0 t) (blk1 V c 1 t) (blk1 V c 2 t) (blk1 V c 3 t) (blk1 V c 4 t) (blk1 V c 5 t) (blk1 V c 6 t) (blk1 V c 7 t) f g K)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [HS0]; · rw [phase0_scr0_eq]; iexact HS0
  isplitl [HS1]; · rw [phase0_scr1_eq]; iexact HS1
  iintro ⟨I0, I1, I2, I3, I4, I5, I6, I7, HS0, HS1⟩
  iapply Hk
  isplitl [I0 I1 I2 I3 I4 I5 I6 I7 I8 I9 I10]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    iexact I10
  iexists _, _
  isplitl [HS0]; · rw [← phase0_scr0_eq]; iexact HS0
  isplitl [HS1]; · rw [← phase0_scr1_eq]; iexact HS1
  ipureintro
  intro idx h
  have hlt : (idx 0).val < 200 * (t.val + 1) := by
    have : min (t.val + 1) 50 = t.val + 1 := by omega
    rw [this] at h; exact h
  have hmin : min t.val 50 = t.val := by omega
  exact ⟨phase0_rows_step (Memref.whole cc1_scratch0 : Memref sig .tc .vmem S10000x32 .f32).view f _ t.val hoff _ _ (TA V c)
      (fun j hj => (hinv j (by rw [hmin]; exact hj)).1) (fun j r q h0 h1 => phase0_TA_row V c t ht j r q h0 h1) idx hlt,
    phase0_rows_step (Memref.whole cc1_scratch1 : Memref sig .tc .vmem S10000x32 .f32).view g _ t.val hoff _ _ (TB V c)
      (fun j hj => (hinv j (by rw [hmin]; exact hj)).2) (fun j r q h0 h1 => phase0_TB_row V c t ht j r q h0 h1) idx hlt⟩

end Cert.KernelIdeal.Hand

end
-- ==== Proof.KI.Phase1.lean ====
/-
  Phase 1 of the main kernel (points 50 … 99): both scratch matrices are complete (every row stored in phase 0), the
  body reads them whole and stores this point's x1, x2, p1, p2 blocks; the scratch matrices are left as they were.

  The kernel function is first run once over ANY whole memrefs and ANY contents, under the two facts about the grid
  point that decide its branches (the first is skipped, the second taken): it loads the two adjacency blocks, both
  scratch matrices, the two biases and the projection weights, and stores four values, each through the rectangle that
  is the whole of its buffer, so each buffer reads back as exactly the value stored. That triple is then read at the
  staging memrefs of a point t ≥ 50, where the invariant (min t 50 = 50, every row below 10000 = 200 · 50) says the
  scratch matrices ARE T_a and T_b.
-/
import proofs.«150603_g79422535238402_cont_9to1c4b_784_13_alg».proof.Proof.KI.PhaseCommon
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-shape rectangle -/

/-- The zero offsets of a rank-2 access, as the program spells them. -/
private theorem zeros2 : (![0, 0] : Fin 2 → ℕ) = fun _ => 0 := by
  funext a; fin_cases a <;> rfl

section Whole

variable {κ : Kind} {sp : Space} {S : Shape} {e : EltTy}

/-- A load through the rectangle that starts at zero and has the shape's own sizes reads what the view reads. -/
private theorem readAt_all (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f := by
  rw [View.readAt_eq_ld, View.ld_unit_zero h inb]

/-- One store through that rectangle, over anything, reads back as the stored value. -/
private theorem read_store_all (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb]

end Whole

/-! ## The kernel function at a phase-1 point, over any whole memrefs

Inputs x0 … x10 are what the eleven input memrefs read, ta and tb what the two scratch memrefs read; the four output
memrefs hold anything. Afterwards the inputs and the scratch memrefs read as before and the outputs read
x1 = A_s · trunc(ta) + b2a, x2 = A_f · trunc(tb) + b2b, p1 = relu(relu(x1) · Wp), p2 = relu(relu(x2) · Wp), as the
payloads name them. -/

theorem kernel_phase1 (c : Dev nD) (i : grid1.Coords) (hc1 : ¬ k1_cond1 i = 1#1) (hc2 : k1_cond2 i = 1#1)
    (arg2 : Memref sig .tc .vmem S200x10000 .f32) (harg2 : arg2.IsWhole) (arg3 : Memref sig .tc .vmem S200x10000 .f32) (harg3 : arg3.IsWhole) (arg4 : Memref sig .tc .vmem S10000x64 .bf16) (harg4 : arg4.IsWhole) (arg5 : Memref sig .tc .vmem S10000x64 .bf16) (harg5 : arg5.IsWhole) (arg6 : Memref sig .tc .vmem S1x64 .f32) (harg6 : arg6.IsWhole) (arg7 : Memref sig .tc .vmem S64x32 .f32) (harg7 : arg7.IsWhole) (arg8 : Memref sig .tc .vmem S1x64 .f32) (harg8 : arg8.IsWhole) (arg9 : Memref sig .tc .vmem S64x32 .f32) (harg9 : arg9.IsWhole) (arg10 : Memref sig .tc .vmem S32x16 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S200x32 .f32) (harg13 : arg13.IsWhole) (arg14 : Memref sig .tc .vmem S200x32 .f32) (harg14 : arg14.IsWhole) (arg15 : Memref sig .tc .vmem S200x16 .f32) (harg15 : arg15.IsWhole) (arg16 : Memref sig .tc .vmem S200x16 .f32) (harg16 : arg16.IsWhole) (arg17 : Memref sig .tc .vmem S10000x32 .f32) (harg17 : arg17.IsWhole) (arg18 : Memref sig .tc .vmem S10000x32 .f32) (harg18 : arg18.IsWhole)
    (x0 : Vec F S200x10000 .f32) (x1 : Vec F S200x10000 .f32) (x2 : Vec F S10000x64 .bf16) (x3 : Vec F S10000x64 .bf16)
    (x4 : Vec F S1x64 .f32) (x5 : Vec F S64x32 .f32) (x6 : Vec F S1x64 .f32) (x7 : Vec F S64x32 .f32) (x8 : Vec F S32x16 .f32)
    (x9 : Vec F S1x32 .f32) (x10 : Vec F S1x32 .f32) (ta tb : Vec F S10000x32 .f32) (K : PUnit → sProp 𝕄) :
    iprop((owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare x6 ∗ owns (c : Thread nD τ) arg9 fullShare x7
          ∗ owns (c : Thread nD τ) arg10 fullShare x8 ∗ owns (c : Thread nD τ) arg11 fullShare x9
          ∗ owns (c : Thread nD τ) arg12 fullShare x10)
        ∗ ((∃ d, owns (c : Thread nD τ) arg13 fullShare d) ∗ (∃ d, owns (c : Thread nD τ) arg14 fullShare d)
          ∗ (∃ d, owns (c : Thread nD τ) arg15 fullShare d) ∗ (∃ d, owns (c : Thread nD τ) arg16 fullShare d))
        ∗ owns (c : Thread nD τ) arg17 fullShare ta ∗ owns (c : Thread nD τ) arg18 fullShare tb
        ∗ (iprop((owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare x6 ∗ owns (c : Thread nD τ) arg9 fullShare x7
              ∗ owns (c : Thread nD τ) arg10 fullShare x8 ∗ owns (c : Thread nD τ) arg11 fullShare x9
              ∗ owns (c : Thread nD τ) arg12 fullShare x10)
            ∗ (owns (c : Thread nD τ) arg13 fullShare (k1_pay5 (k1_pay1 x0) ta x9)
              ∗ owns (c : Thread nD τ) arg14 fullShare (k1_pay7 (k1_pay2 x1) tb x10)
              ∗ owns (c : Thread nD τ) arg15 fullShare (k1_pay6 (k1_pay1 x0) ta x9 x8)
              ∗ owns (c : Thread nD τ) arg16 fullShare (k1_pay8 (k1_pay2 x1) tb x10 x8))
            ∗ owns (c : Thread nD τ) arg17 fullShare ta ∗ owns (c : Thread nD τ) arg18 fullShare tb) -∗ K ⟨⟩))
      ⊢ wp frame (wpE (defs₀ (F := F)) Variants.none c none) Set.univ (cc1__cgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__cgcn_kernel_eq_skeleton]; unfold cc1__cgcn_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%d11, %f11, -, H11⟩, ⟨%d12, %f12, -, H12⟩, ⟨%d13, %f13, -, H13⟩, ⟨%d14, %f14, -, H14⟩⟩, ⟨%fa, %hfa, HA⟩, ⟨%fb, %hfb, HB⟩, Hk⟩
  subst hf0 hf1 hf2 hf3 hf4 hf5 hf6 hf7 hf8 hf9 hf10 hfa hfb
  sl_exec
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [H11 H12 H13 H14]
  · isplitl [H11]
    · iexists _; isplitr
      swap; · iexact H11
      ipureintro
      rw [read_store_all _ _ zeros2, readAt_all _ _ zeros2, readAt_all _ _ zeros2, readAt_all _ _ zeros2]
    isplitl [H12]
    · iexists _; isplitr
      swap; · iexact H12
      ipureintro
      rw [read_store_all _ _ zeros2, readAt_all _ _ zeros2, readAt_all _ _ zeros2, readAt_all _ _ zeros2]
    isplitl [H13]
    · iexists _; isplitr
      swap; · iexact H13
      ipureintro
      rw [read_store_all _ _ zeros2, readAt_all _ _ zeros2, readAt_all _ _ zeros2, readAt_all _ _ zeros2, readAt_all _ _ zeros2]
    iexists _; isplitr
    swap; · iexact H14
    ipureintro
    rw [read_store_all _ _ zeros2]
    sl_unfold_run_names
    rw [readAt_all _ _ zeros2, readAt_all _ _ zeros2, readAt_all _ _ zeros2, readAt_all _ _ zeros2]
  isplitl [HA]
  · iexists fa; isplitr; · ipureintro; rfl
    iexact HA
  iexists fb; isplitr; · ipureintro; rfl
  iexact HB

/-! ## At the staging memrefs of a point t ≥ 50 -/

/-- At the last fifty points the first grid coordinate is 1: the first branch is skipped, the second taken. -/
private theorem phase1_conds : ∀ t : Fin cfg1.N, 50 ≤ t.val →
    ¬ k1_cond1 (grid1.coords t) = 1#1 ∧ k1_cond2 (grid1.coords t) = 1#1 :=
  (by decide +kernel : ∀ t : Fin grid1.N, 50 ≤ t.val → ¬ k1_cond1 (grid1.coords t) = 1#1 ∧ k1_cond2 (grid1.coords t) = 1#1)

variable (V : (c : Dev nD) → (b : Ref sig .tc) → Buf (Elt F) ((c : Thread nD τ).loc b))

/-- The kernel's triple at a phase-1 point, on the staging memrefs the pipeline hands it there and on the two scratch
    matrices held whole at T_a and T_b. -/
private theorem run_phase1 (c : Dev nD) (t : Fin cfg1.N) (ht : 50 ≤ t.val) (K : PUnit → sProp 𝕄) :
    iprop(ins V c t ∗ outsAny (F := F) c t
        ∗ (((c : Thread nD τ).loc cc1_scratch0) ↦{fullShare} TA V c) ∗ (((c : Thread nD τ).loc cc1_scratch1) ↦{fullShare} TB V c)
        ∗ (iprop(ins V c t ∗ outsAfter V c t
            ∗ (((c : Thread nD τ).loc cc1_scratch0) ↦{fullShare} TA V c) ∗ (((c : Thread nD τ).loc cc1_scratch1) ↦{fullShare} TB V c)) -∗ K ⟨⟩))
      ⊢ wp frame (wpE (defs₀ (F := F)) Variants.none c none) Set.univ (bodyAt1 (F := F) t) K := by
  obtain ⟨hc1, hc2⟩ := phase1_conds t ht
  have run := kernel_phase1 (F := F) c (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (Memref.whole cc1_scratch0) (Memref.isWhole_whole _) (Memref.whole cc1_scratch1) (Memref.isWhole_whole _)
    (blk1 V c 0 t) (blk1 V c 1 t) (blk1 V c 2 t) (blk1 V c 3 t) (blk1 V c 4 t) (blk1 V c 5 t) (blk1 V c 6 t) (blk1 V c 7 t)
    (blk1 V c 8 t) (blk1 V c 9 t) (blk1 V c 10 t) (TA V c) (TB V c) K
  rw [owns_whole (c : Thread nD τ) cc1_scratch0 fullShare (TA V c), owns_whole (c : Thread nD τ) cc1_scratch1 fullShare (TB V c)] at run
  exact run

theorem sound_phase1 (c : Dev nD) (t : Fin cfg1.N) (ht : 50 ≤ t.val) (K : PUnit → sProp 𝕄) :
    iprop(ins V c t ∗ outsAny (F := F) c t ∗ scratchInv V c t.val
        ∗ (iprop(ins V c t ∗ outsAfter V c t ∗ scratchInv V c (t.val + 1)) -∗ K ⟨⟩))
      ⊢ wp frame (wpE (defs₀ (F := F)) Variants.none c none) Set.univ (bodyAt1 (F := F) t) K := by
  unfold scratchInv
  iintro ⟨Hin, Hout, ⟨%f, %g, Hf, Hg, %hfg⟩, Hk⟩
  have hrow : ∀ idx : S10000x32.Idx, (idx 0).val < 200 * min t.val 50 := fun idx => by
    have h : (idx 0).val < 10000 := (idx 0).isLt
    rw [Nat.min_eq_right ht]; exact h
  obtain rfl : f = TA V c := funext fun idx => (hfg idx (hrow idx)).1
  obtain rfl : g = TB V c := funext fun idx => (hfg idx (hrow idx)).2
  iapply (run_phase1 V c t ht K)
  isplitl [Hin]; · iexact Hin
  isplitl [Hout]; · iexact Hout
  isplitl [Hf]; · iexact Hf
  isplitl [Hg]; · iexact Hg
  iintro ⟨Hin, Hout, Hf, Hg⟩
  iapply Hk
  isplitl [Hin]; · iexact Hin
  isplitl [Hout]; · iexact Hout
  iexists (TA V c), (TB V c)
  isplitl [Hf]; · iexact Hf
  isplitl [Hg]; · iexact Hg
  ipureintro; exact fun _ _ => ⟨rfl, rfl⟩

end Cert.KernelIdeal.Hand

end
-- ==== Proof.KI.Body1.lean ====
/-
  The body obligation of the main kernel: at a phase-0 point the four output windows are idle and handed back as found;
  at a phase-1 point they are left at the proof data's blocks; every input window holds its block at every point.
-/
import proofs.«150603_g79422535238402_cont_9to1c4b_784_13_alg».proof.Proof.KI.Phase0
import proofs.«150603_g79422535238402_cont_9to1c4b_784_13_alg».proof.Proof.KI.Phase1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid in closed form

The grid is 2 × 50, its points numbered row by row: point t has coordinates (t / 50, t % 50). The second branch of
the kernel (the one that stores the four outputs) is taken where the first coordinate is 1, that is at the points
50 … 99. Each output window's block index is the product of the two coordinates: 0 at every point up to and
including 50, and k at point 50 + k; so the next point's index differs from a point's exactly from point 50 on, the
last point writes back in any case, and each output is written back exactly at the points 50 … 99. Each fact below
is decided over the hundred points. -/

/-- The condition of the storing branch holds exactly at the last fifty points. -/
theorem body1_cond2 : ∀ t : Fin grid1.N, (k1_cond2 (grid1.coords t) == 1#1) = decide (50 ≤ t.val) := by decide +kernel

/-- Output window 11 is written back exactly at the last fifty points. -/
theorem body1_flush11 : ∀ t : Fin grid1.N, win1_11.flush t = decide (50 ≤ t.val) := by decide +kernel
/-- Output window 12 is written back exactly at the last fifty points. -/
theorem body1_flush12 : ∀ t : Fin grid1.N, win1_12.flush t = decide (50 ≤ t.val) := by decide +kernel
/-- Output window 13 is written back exactly at the last fifty points. -/
theorem body1_flush13 : ∀ t : Fin grid1.N, win1_13.flush t = decide (50 ≤ t.val) := by decide +kernel
/-- Output window 14 is written back exactly at the last fifty points. -/
theorem body1_flush14 : ∀ t : Fin grid1.N, win1_14.flush t = decide (50 ≤ t.val) := by decide +kernel

/-! ## Idle points

No input window is ever idle. An output window is idle where the storing branch is not taken: at the first fifty
points, none of which writes it back. -/

theorem body1_idle0 (i : cfg1.grid.Coords) : cfg1.idle 0 i = false := rfl
theorem body1_idle1 (i : cfg1.grid.Coords) : cfg1.idle 1 i = false := rfl
theorem body1_idle2 (i : cfg1.grid.Coords) : cfg1.idle 2 i = false := rfl
theorem body1_idle3 (i : cfg1.grid.Coords) : cfg1.idle 3 i = false := rfl
theorem body1_idle4 (i : cfg1.grid.Coords) : cfg1.idle 4 i = false := rfl
theorem body1_idle5 (i : cfg1.grid.Coords) : cfg1.idle 5 i = false := rfl
theorem body1_idle6 (i : cfg1.grid.Coords) : cfg1.idle 6 i = false := rfl
theorem body1_idle7 (i : cfg1.grid.Coords) : cfg1.idle 7 i = false := rfl
theorem body1_idle8 (i : cfg1.grid.Coords) : cfg1.idle 8 i = false := rfl
theorem body1_idle9 (i : cfg1.grid.Coords) : cfg1.idle 9 i = false := rfl
theorem body1_idle10 (i : cfg1.grid.Coords) : cfg1.idle 10 i = false := rfl

/-- Output window 11 is idle exactly at the first fifty points. -/
theorem body1_idle11 (t : Fin grid1.N) : idle1 11 (grid1.coords t) = !decide (50 ≤ t.val) := by
  show (!(k1_cond2 (grid1.coords t) == 1#1)) = _
  rw [body1_cond2]
theorem body1_idle11_lt (t : Fin grid1.N) (ht : t.val < 50) : idle1 11 (grid1.coords t) = true := by
  rw [body1_idle11, decide_eq_false (by omega)]; rfl
theorem body1_idle11_ge (t : Fin grid1.N) (ht : ¬ t.val < 50) : idle1 11 (grid1.coords t) = false := by
  rw [body1_idle11, decide_eq_true (by omega)]; rfl
theorem body1_flush11_lt (t : Fin cfg1.N) (ht : t.val < 50) : (cfg1.win 11).flush t = false := by
  rw [show (cfg1.win 11).flush t = win1_11.flush t from rfl, body1_flush11, decide_eq_false (by omega)]

/-- Output window 12 is idle exactly at the first fifty points. -/
theorem body1_idle12 (t : Fin grid1.N) : idle1 12 (grid1.coords t) = !decide (50 ≤ t.val) := by
  show (!(k1_cond2 (grid1.coords t) == 1#1)) = _
  rw [body1_cond2]
theorem body1_idle12_lt (t : Fin grid1.N) (ht : t.val < 50) : idle1 12 (grid1.coords t) = true := by
  rw [body1_idle12, decide_eq_false (by omega)]; rfl
theorem body1_idle12_ge (t : Fin grid1.N) (ht : ¬ t.val < 50) : idle1 12 (grid1.coords t) = false := by
  rw [body1_idle12, decide_eq_true (by omega)]; rfl
theorem body1_flush12_lt (t : Fin cfg1.N) (ht : t.val < 50) : (cfg1.win 12).flush t = false := by
  rw [show (cfg1.win 12).flush t = win1_12.flush t from rfl, body1_flush12, decide_eq_false (by omega)]

/-- Output window 13 is idle exactly at the first fifty points. -/
theorem body1_idle13 (t : Fin grid1.N) : idle1 13 (grid1.coords t) = !decide (50 ≤ t.val) := by
  show (!(k1_cond2 (grid1.coords t) == 1#1)) = _
  rw [body1_cond2]
theorem body1_idle13_lt (t : Fin grid1.N) (ht : t.val < 50) : idle1 13 (grid1.coords t) = true := by
  rw [body1_idle13, decide_eq_false (by omega)]; rfl
theorem body1_idle13_ge (t : Fin grid1.N) (ht : ¬ t.val < 50) : idle1 13 (grid1.coords t) = false := by
  rw [body1_idle13, decide_eq_true (by omega)]; rfl
theorem body1_flush13_lt (t : Fin cfg1.N) (ht : t.val < 50) : (cfg1.win 13).flush t = false := by
  rw [show (cfg1.win 13).flush t = win1_13.flush t from rfl, body1_flush13, decide_eq_false (by omega)]

/-- Output window 14 is idle exactly at the first fifty points. -/
theorem body1_idle14 (t : Fin grid1.N) : idle1 14 (grid1.coords t) = !decide (50 ≤ t.val) := by
  show (!(k1_cond2 (grid1.coords t) == 1#1)) = _
  rw [body1_cond2]
theorem body1_idle14_lt (t : Fin grid1.N) (ht : t.val < 50) : idle1 14 (grid1.coords t) = true := by
  rw [body1_idle14, decide_eq_false (by omega)]; rfl
theorem body1_idle14_ge (t : Fin grid1.N) (ht : ¬ t.val < 50) : idle1 14 (grid1.coords t) = false := by
  rw [body1_idle14, decide_eq_true (by omega)]; rfl
theorem body1_flush14_lt (t : Fin cfg1.N) (ht : t.val < 50) : (cfg1.win 14).flush t = false := by
  rw [show (cfg1.win 14).flush t = win1_14.flush t from rfl, body1_flush14, decide_eq_false (by omega)]

/-! ## What the proof data says at a point -/

/-- The core owes nothing at any point and the bound on its recorded pairs is the same at every point: what it
    owes is one proposition, whatever the point. -/
theorem body1_owesAt (c : Dev nD) (t t' : Fin (cfg1.N + 1)) :
    (dat1 (F := F) V c).owesAt () t = (dat1 (F := F) V c).owesAt () t' := rfl

theorem body1_after0 (c : Dev nD) (t : Fin cfg1.N) : (dat1 (F := F) V c).after 0 t = blk1 V c 0 t := by dsimp only [dat1]
theorem body1_after1 (c : Dev nD) (t : Fin cfg1.N) : (dat1 (F := F) V c).after 1 t = blk1 V c 1 t := by dsimp only [dat1]
theorem body1_after2 (c : Dev nD) (t : Fin cfg1.N) : (dat1 (F := F) V c).after 2 t = blk1 V c 2 t := by dsimp only [dat1]
theorem body1_after3 (c : Dev nD) (t : Fin cfg1.N) : (dat1 (F := F) V c).after 3 t = blk1 V c 3 t := by dsimp only [dat1]
theorem body1_after4 (c : Dev nD) (t : Fin cfg1.N) : (dat1 (F := F) V c).after 4 t = blk1 V c 4 t := by dsimp only [dat1]
theorem body1_after5 (c : Dev nD) (t : Fin cfg1.N) : (dat1 (F := F) V c).after 5 t = blk1 V c 5 t := by dsimp only [dat1]
theorem body1_after6 (c : Dev nD) (t : Fin cfg1.N) : (dat1 (F := F) V c).after 6 t = blk1 V c 6 t := by dsimp only [dat1]
theorem body1_after7 (c : Dev nD) (t : Fin cfg1.N) : (dat1 (F := F) V c).after 7 t = blk1 V c 7 t := by dsimp only [dat1]
theorem body1_after8 (c : Dev nD) (t : Fin cfg1.N) : (dat1 (F := F) V c).after 8 t = blk1 V c 8 t := by dsimp only [dat1]
theorem body1_after9 (c : Dev nD) (t : Fin cfg1.N) : (dat1 (F := F) V c).after 9 t = blk1 V c 9 t := by dsimp only [dat1]
theorem body1_after10 (c : Dev nD) (t : Fin cfg1.N) : (dat1 (F := F) V c).after 10 t = blk1 V c 10 t := by dsimp only [dat1]

/-! ## Every input window holds its block at every point

Windows 0 and 1 are fetched at every point; windows 2 … 10 only at the first, and their block index never moves.
Either way the body leaves an input's block in place, the window is uncut and never idle, so its current buffer
holds the block of the point: where it was not fetched the index did not move, and the block of the point before
is this point's. -/

theorem body1_before0 (c : Dev nD) (t : Fin cfg1.N) (d) : (dat1 (F := F) V c).before 0 t d = blk1 V c 0 t :=
  ((dat1 (F := F) V c).before_in_eq_fetched 0 rfl (fun _ => rfl) (fun _ _ _ => rfl)
    (fun t => by show (cfg1.win 0).cut _ (blk1 V c 0 t) = _; unfold Dat.blockOf blk1; rw [dat1_A]) t d).trans
    (by unfold Dat.fetched Dat.blockOf blk1; rw [dat1_A]; rfl)

theorem body1_before1 (c : Dev nD) (t : Fin cfg1.N) (d) : (dat1 (F := F) V c).before 1 t d = blk1 V c 1 t :=
  ((dat1 (F := F) V c).before_in_eq_fetched 1 rfl (fun _ => rfl) (fun _ _ _ => rfl)
    (fun t => by show (cfg1.win 1).cut _ (blk1 V c 1 t) = _; unfold Dat.blockOf blk1; rw [dat1_A]) t d).trans
    (by unfold Dat.fetched Dat.blockOf blk1; rw [dat1_A]; rfl)

theorem body1_before2 (c : Dev nD) (t : Fin cfg1.N) (d) : (dat1 (F := F) V c).before 2 t d = blk1 V c 2 t :=
  ((dat1 (F := F) V c).before_in_eq_fetched 2 rfl (fun _ => rfl) (fun _ _ _ => rfl)
    (fun t => by show (cfg1.win 2).cut _ (blk1 V c 2 t) = _; unfold Dat.blockOf blk1; rw [dat1_A]) t d).trans
    (by unfold Dat.fetched Dat.blockOf blk1; rw [dat1_A]; rfl)

theorem body1_before3 (c : Dev nD) (t : Fin cfg1.N) (d) : (dat1 (F := F) V c).before 3 t d = blk1 V c 3 t :=
  ((dat1 (F := F) V c).before_in_eq_fetched 3 rfl (fun _ => rfl) (fun _ _ _ => rfl)
    (fun t => by show (cfg1.win 3).cut _ (blk1 V c 3 t) = _; unfold Dat.blockOf blk1; rw [dat1_A]) t d).trans
    (by unfold Dat.fetched Dat.blockOf blk1; rw [dat1_A]; rfl)

theorem body1_before4 (c : Dev nD) (t : Fin cfg1.N) (d) : (dat1 (F := F) V c).before 4 t d = blk1 V c 4 t :=
  ((dat1 (F := F) V c).before_in_eq_fetched 4 rfl (fun _ => rfl) (fun _ _ _ => rfl)
    (fun t => by show (cfg1.win 4).cut _ (blk1 V c 4 t) = _; unfold Dat.blockOf blk1; rw [dat1_A]) t d).trans
    (by unfold Dat.fetched Dat.blockOf blk1; rw [dat1_A]; rfl)

theorem body1_before5 (c : Dev nD) (t : Fin cfg1.N) (d) : (dat1 (F := F) V c).before 5 t d = blk1 V c 5 t :=
  ((dat1 (F := F) V c).before_in_eq_fetched 5 rfl (fun _ => rfl) (fun _ _ _ => rfl)
    (fun t => by show (cfg1.win 5).cut _ (blk1 V c 5 t) = _; unfold Dat.blockOf blk1; rw [dat1_A]) t d).trans
    (by unfold Dat.fetched Dat.blockOf blk1; rw [dat1_A]; rfl)

theorem body1_before6 (c : Dev nD) (t : Fin cfg1.N) (d) : (dat1 (F := F) V c).before 6 t d = blk1 V c 6 t :=
  ((dat1 (F := F) V c).before_in_eq_fetched 6 rfl (fun _ => rfl) (fun _ _ _ => rfl)
    (fun t => by show (cfg1.win 6).cut _ (blk1 V c 6 t) = _; unfold Dat.blockOf blk1; rw [dat1_A]) t d).trans
    (by unfold Dat.fetched Dat.blockOf blk1; rw [dat1_A]; rfl)

theorem body1_before7 (c : Dev nD) (t : Fin cfg1.N) (d) : (dat1 (F := F) V c).before 7 t d = blk1 V c 7 t :=
  ((dat1 (F := F) V c).before_in_eq_fetched 7 rfl (fun _ => rfl) (fun _ _ _ => rfl)
    (fun t => by show (cfg1.win 7).cut _ (blk1 V c 7 t) = _; unfold Dat.blockOf blk1; rw [dat1_A]) t d).trans
    (by unfold Dat.fetched Dat.blockOf blk1; rw [dat1_A]; rfl)

theorem body1_before8 (c : Dev nD) (t : Fin cfg1.N) (d) : (dat1 (F := F) V c).before 8 t d = blk1 V c 8 t :=
  ((dat1 (F := F) V c).before_in_eq_fetched 8 rfl (fun _ => rfl) (fun _ _ _ => rfl)
    (fun t => by show (cfg1.win 8).cut _ (blk1 V c 8 t) = _; unfold Dat.blockOf blk1; rw [dat1_A]) t d).trans
    (by unfold Dat.fetched Dat.blockOf blk1; rw [dat1_A]; rfl)

theorem body1_before9 (c : Dev nD) (t : Fin cfg1.N) (d) : (dat1 (F := F) V c).before 9 t d = blk1 V c 9 t :=
  ((dat1 (F := F) V c).before_in_eq_fetched 9 rfl (fun _ => rfl) (fun _ _ _ => rfl)
    (fun t => by show (cfg1.win 9).cut _ (blk1 V c 9 t) = _; unfold Dat.blockOf blk1; rw [dat1_A]) t d).trans
    (by unfold Dat.fetched Dat.blockOf blk1; rw [dat1_A]; rfl)

theorem body1_before10 (c : Dev nD) (t : Fin cfg1.N) (d) : (dat1 (F := F) V c).before 10 t d = blk1 V c 10 t :=
  ((dat1 (F := F) V c).before_in_eq_fetched 10 rfl (fun _ => rfl) (fun _ _ _ => rfl)
    (fun t => by show (cfg1.win 10).cut _ (blk1 V c 10 t) = _; unfold Dat.blockOf blk1; rw [dat1_A]) t d).trans
    (by unfold Dat.fetched Dat.blockOf blk1; rw [dat1_A]; rfl)

/-! ## The obligation

At a point below 50 the four output windows are idle and not written back: the post asks each buffer back as it
was handed over, and the body, which touches none of them, runs from the inputs and the scratch invariant alone.
At a point from 50 on they are live: the body is handed each at some contents and leaves each at the proof data's
block. In both phases the inputs come back at their blocks, the other call's staging buffers and what the core owes
pass through unread, and the scratch invariant moves from the point to the next. -/

theorem body_obligation1 (c : Dev nD) : BodyObligation (dat1 (F := F) V c) (defs₀ (F := F)) Variants.none () Set.univ := fun t => by
  rw [bigSep_W1, bigSep_W1]
  by_cases ht : t.val < 50
  · -- phase 0: the outputs idle
    simp only [body1_idle0, body1_idle1, body1_idle2, body1_idle3, body1_idle4, body1_idle5, body1_idle6,
      body1_idle7, body1_idle8, body1_idle9, body1_idle10, body1_idle11_lt t ht, body1_flush11_lt t ht,
      body1_idle12_lt t ht, body1_flush12_lt t ht, body1_idle13_lt t ht, body1_flush13_lt t ht,
      body1_idle14_lt t ht, body1_flush14_lt t ht, body1_before0, body1_before1, body1_before2,
      body1_before3, body1_before4, body1_before5, body1_before6, body1_before7, body1_before8,
      body1_before9, body1_before10, body1_after0, body1_after1, body1_after2, body1_after3, body1_after4,
      body1_after5, body1_after6, body1_after7, body1_after8, body1_after9, body1_after10]
    rw [dat1_Φ, dat1_Φ, body1_owesAt V c t.succ t.castSucc]
    unfold Φ1
    simp only [Fin.val_castSucc, Fin.val_succ]
    iintro ⟨⟨Hstg, Hscr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14⟩
    iapply (sound_phase0 V c t ht)
    unfold ins
    isplitl [H0 H1 H2 H3 H4 H5 H6 H7 H8 H9 H10]
    · iframe
    isplitl [Hscr]
    · iexact Hscr
    iintro ⟨⟨H0, H1, H2, H3, H4, H5, H6, H7, H8, H9, H10⟩, Hscr⟩
    iframe
  · -- phase 1: the outputs stored
    simp only [body1_idle0, body1_idle1, body1_idle2, body1_idle3, body1_idle4, body1_idle5, body1_idle6,
      body1_idle7, body1_idle8, body1_idle9, body1_idle10, body1_idle11_ge t ht, body1_idle12_ge t ht,
      body1_idle13_ge t ht, body1_idle14_ge t ht, body1_before0, body1_before1, body1_before2,
      body1_before3, body1_before4, body1_before5, body1_before6, body1_before7, body1_before8,
      body1_before9, body1_before10, body1_after0, body1_after1, body1_after2, body1_after3, body1_after4,
      body1_after5, body1_after6, body1_after7, body1_after8, body1_after9, body1_after10]
    rw [dat1_Φ, dat1_Φ, body1_owesAt V c t.succ t.castSucc]
    unfold Φ1
    simp only [Fin.val_castSucc, Fin.val_succ]
    iintro ⟨⟨Hstg, Hscr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (sound_phase1 V c t (by omega))
    unfold ins outsAny outsAfter
    isplitl [H0 H1 H2 H3 H4 H5 H6 H7 H8 H9 H10]
    · iframe
    isplitl [H11 H12 H13 H14]
    · isplitl [H11]
      · iexists _; iexact H11
      isplitl [H12]
      · iexists _; iexact H12
      isplitl [H13]
      · iexists _; iexact H13
      iexists _; iexact H14
    isplitl [Hscr]
    · iexact Hscr
    iintro ⟨⟨H0, H1, H2, H3, H4, H5, H6, H7, H8, H9, H10⟩, ⟨H11, H12, H13, H14⟩, Hscr⟩
    iframe

end Cert.KernelIdeal.Hand

end
-- ==== Proof.KI.Run.lean ====
/-
  The launch: @main is the projection kernel's region, four host reshapes (the bias vectors as one-row matrices), and the
  main kernel's region. The core's unscoped buffers pass through four valuations: as launched (W0); with the projection
  kernel's arrays at what its write-backs leave (W1); after the reshapes (W2); with the main kernel's arrays at what ITS
  write-backs leave (W3). Every weakly fair execution ends with every unscoped buffer at W3.
-/
import proofs.«150603_g79422535238402_cont_9to1c4b_784_13_alg».proof.Proof.KI.Data0
import proofs.«150603_g79422535238402_cont_9to1c4b_784_13_alg».proof.Proof.KI.Body1
import proofs.«150603_g79422535238402_cont_9to1c4b_784_13_alg».proof.Proof.Gen.KernelIdeal.Regions
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's unscoped buffers at launch. -/
def W0 (c : Dev nD) : Valuation τ sig (Elt F) := fun b => m (c, b)
/-- What the projection kernel's region finds. -/
def Vin0 (c : Dev nD) (b : Ref sig .tc) : Buf (Elt F) ((c : Thread nD τ).loc b) := m ((c : Thread nD τ).loc b)
/-- After the projection kernel's region: its five arrays at what the write-backs leave. -/
def W1 (c : Dev nD) : Valuation τ sig (Elt F) :=
  Pipeline.withArrays spec0 c (W0 m c) (fun w => (dat0 (Vin0 m) c).arrAt w cfg0.N)
/-- After the four reshapes. -/
def W2 (c : Dev nD) : Valuation τ sig (Elt F) := StableHlo.after hostOps1 (W1 m c)
/-- What the main kernel's region finds. -/
def Vin1 (c : Dev nD) (b : Ref sig .tc) : Buf (Elt F) ((c : Thread nD τ).loc b) := W2 m c b
/-- After the main kernel's region: its fifteen arrays at what the write-backs leave. -/
def W3 (c : Dev nD) : Valuation τ sig (Elt F) :=
  Pipeline.withArrays spec1 c (W2 m c) (fun w => (dat1 (Vin1 m) c).arrAt w cfg1.N)

/-! The launch's own definitions and lemmas, in a namespace of their own. -/
namespace RunKit

/-! ## Reading the valuations: an array of a region at what its write-backs leave, any other buffer as before -/

theorem W1_arr (c : Dev nD) (w : Fin cfg0.W) : W1 m c (Pipeline.arrRef spec0 w) = (dat0 (Vin0 m) c).arrAt w cfg0.N :=
  Pipeline.withArrays_arr spec0 launch0.win.arr_inj c _ _ w
theorem W1_of_ne (c : Dev nD) (b : Ref sig .tc) (hb : ∀ w, Pipeline.arrRef spec0 w ≠ b) : W1 m c b = W0 m c b :=
  Pipeline.withArrays_of_ne spec0 c _ _ b hb
/-- The reshapes write the four one-row matrices and nothing else. -/
theorem W2_of (c : Dev nD) (b : Ref sig .tc) (hb : b ∉ hostOps1_W) : W2 m c b = W1 m c b :=
  StableHlo.after_of_writes_sub hostOps1 _ hostOps1_writes hb
theorem W3_arr (c : Dev nD) (w : Fin cfg1.W) : W3 m c (Pipeline.arrRef spec1 w) = (dat1 (Vin1 m) c).arrAt w cfg1.N :=
  Pipeline.withArrays_arr spec1 launch1.win.arr_inj c _ _ w
theorem W3_of_ne (c : Dev nD) (b : Ref sig .tc) (hb : ∀ w, Pipeline.arrRef spec1 w ≠ b) : W3 m c b = W2 m c b :=
  Pipeline.withArrays_of_ne spec1 c _ _ b hb

/-! ## The proof data of both kernels, and the launch -/

/-- No core owes another anything: no level is assigned. -/
abbrev L : GSem nD τ sig → Finset Unit := fun _ => ∅
abbrev lv : GSem nD τ sig → Unit → ℕ := fun _ _ => 0

/-- The proof data of the two kernels, each stated at what its region finds: the projection kernel at the launch
    contents, the main kernel at the contents after the projection kernel's write-backs and the four reshapes. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
  | ⟨_ + 2, h⟩ => absurd h (Nat.not_lt.2 (Nat.le_add_left _ _))

/-- What rides beside the buffers between items: the core owes nothing. -/
abbrev R (c : Dev nD) : sProp 𝕄 := iprop(∃ W, owes (c : Thread nD τ) (0 : CellTallies nD τ sig Unit) W)

/-- The thread state between items: every unscoped buffer whole at a valuation, the core owing nothing. -/
abbrev St (W : Dev nD → Valuation τ sig (Elt F)) (c : Dev nD) : sProp 𝕄 :=
  iprop(StableHlo.held (c : Thread nD τ) (Pipeline.ucRefs τ sig) (W c) ∗ R c)

/-- Every unscoped buffer held at "pipeline p's arrays at A, every other buffer at V" is p's arrays at A beside the
    unscoped buffers that are no array of p at V: the unscoped buffers split at the arrays, an array's entry of the
    valuation is its entry of A, any other buffer's is its entry of V. -/
theorem held_withArrays (p : Fin 2) (hw : Pipeline.WinFacts (cfgs p).spec) (harr : ∀ w, ((cfgs p).spec w).arr.IsWhole)
    (c : Dev nD) (hshare : ∀ w, (pdats m p c).share w = fullShare) (V : Valuation τ sig (Elt F))
    (A : (w : Fin (cfgs p).W) → Buf (Elt F) (((cfgs p).spec w).arr.view.loc (c : Thread nD τ))) :
    (StableHlo.held (c : Thread nD τ) (Pipeline.ucRefs τ sig) (Pipeline.withArrays (cfgs p).spec c V A) : sProp 𝕄)
      = iprop((pdats m p c).arrays A ∗ Pipeline.unscopedRest (cfgs p).spec c (fun b => V b)) := by
  rw [← Pipeline.unscopedBufs_held, Pipeline.unscopedBufs_split cfgs p hw.arr_unscoped hw.arr_inj c,
    Pipeline.arrays_eq cfgs (pdats m) p c harr hshare]
  congr 1
  · exact bigSep_congr fun w _ => by rw [Pipeline.withArrays_arr _ hw.arr_inj]
  · unfold Pipeline.unscopedRest
    exact bigSep_congr fun b hb => by
      dsimp only
      rw [Pipeline.withArrays_of_ne _ c V A b fun w e => (Finset.mem_sdiff.mp hb).2 (Finset.mem_image.mpr ⟨w, Finset.mem_univ _, e⟩)]

set_option backward.isDefEq.respectTransparency.types false in
/-- THE PROJECTION KERNEL'S REGION. Entered with every unscoped buffer at the launch contents: its five arrays go into
    the pipeline, every other unscoped buffer bypasses it; the invariant is the scoped buffers it does not stage and
    nothing else; it leaves the arrays at what the write-backs leave and the other buffers as they were. -/
def reg0 : Pipeline.RegionSeg (pcfgs (F := F)) adm (pdats m) () defs₀ Variants.none L lv 0 where
  win := launch0.win.to₀
  block_pos := launch0.block_pos
  stage_whole := launch0.stage_whole
  K := PEmpty
  osem := fun k => k.elim
  ho := Pipeline.OwnSemFacts.none _
  hbody c := (body_obligation0 (Vin0 m) c).loose
  hwaits := Pipeline.hwaits_of_owed_zero _ _ _ _ L lv 0 fun _ _ => rfl
  pre := St (W0 m)
  post := St (W1 m)
  X _ := iprop(emp)
  Y _ := iprop(emp)
  Z c := Pipeline.unscopedRest spec0 c (fun b => W0 m c b)
  hentry c := by
    unfold St
    rw [show StableHlo.held (c : Thread nD τ) (Pipeline.ucRefs τ sig) (W0 m c) = unscopedBufs c (fun b => W0 m c b) from (Pipeline.unscopedBufs_held c _).symm]
    have hsplit := Pipeline.arrays_of_unscopedBufs (pcfgs (F := F)) adm (pdats m) (p := 0) launch0.win launch0.arr_whole c
      ((pdats m 0 c).share_full fun _ => rfl) (fun b => W0 m c b) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    have hΦ : ∀ t, (pdats m 0 c).Φ t = Pipeline.scopedRest (Ix := Unit) (Name := ℕ) (U := UR sig nD τ) (Lvl := ℕ) (Val := Elt F) spec0 c := fun _ => rfl
    rw [hΦ]
    iintro ⟨-, -, Hr⟩
    iexact Hr
  hout c := by
    have hΦ : ∀ t, (pdats m 0 c).Φ t = Pipeline.scopedRest (Ix := Unit) (Name := ℕ) (U := UR sig nD τ) (Lvl := ℕ) (Val := Elt F) spec0 c := fun _ => rfl
    rw [Pipeline.ownSems0_none, hΦ]
    iintro Hr
    isplitr; · iempintro
    isplitr; · iempintro
    iexact Hr
  hexit c := by
    unfold St
    rw [show W1 m c = Pipeline.withArrays (cfgs 0).spec c (W0 m c) (fun w => (pdats m 0 c).arrAt w cfg0.N) from rfl,
      held_withArrays m 0 launch0.win launch0.arr_whole c ((pdats m 0 c).share_full fun _ => rfl)]
    iintro ⟨Ha, HO, -, Hz⟩
    imodintro
    isplitr [HO]
    · isplitl [Ha]; · iexact Ha
      iexact Hz
    · unfold Pipeline.Dat.owesAt Pipeline.owesWithin
      icases HO with ⟨%W, -, HO⟩; iexists W; iexact HO

set_option backward.isDefEq.respectTransparency.types false in
/-- THE MAIN KERNEL'S REGION. Entered with every unscoped buffer as the reshapes left it: its fifteen arrays go into the
    pipeline, every other unscoped buffer bypasses it. The scoped buffers it does not stage are the projection
    kernel's five staging buffers and the two scratch matrices: they are the invariant before the first point, where
    nothing is claimed of the scratch matrices' rows (no row lies below 200 · min 0 50 = 0), and the invariant after the
    last point gives them back, the claim about the rows forgotten. -/
def reg1 : Pipeline.RegionSeg (pcfgs (F := F)) adm (pdats m) () defs₀ Variants.none L lv 1 where
  win := launch1.win.to₀
  block_pos := launch1.block_pos
  stage_whole := launch1.stage_whole
  K := PEmpty
  osem := fun k => k.elim
  ho := Pipeline.OwnSemFacts.none _
  hbody c := (body_obligation1 (Vin1 m) c).loose
  hwaits := Pipeline.hwaits_of_owed_zero _ _ _ _ L lv 1 fun _ _ => rfl
  pre := St (W2 m)
  post := St (W3 m)
  X _ := iprop(emp)
  Y _ := iprop(emp)
  Z c := Pipeline.unscopedRest spec1 c (fun b => W2 m c b)
  hentry c := by
    unfold St
    rw [show StableHlo.held (c : Thread nD τ) (Pipeline.ucRefs τ sig) (W2 m c) = unscopedBufs c (fun b => W2 m c b) from (Pipeline.unscopedBufs_held c _).symm]
    have hsplit := Pipeline.arrays_of_unscopedBufs (pcfgs (F := F)) adm (pdats m) (p := 1) launch1.win launch1.arr_whole c
      ((pdats m 1 c).share_full fun _ => rfl) (fun b => W2 m c b) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    have hΦ : ∀ t, (pdats m 1 c).Φ t = Φ1 (Vin1 m) c t := fun _ => rfl
    rw [hΦ, show (Pipeline.scopedRest (Pipeline.pin (pcfgs (F := F)) adm 1).spec c : sProp 𝕄) = _ from scopedRest1_eq c]
    unfold Φ1 otherStaging scratchInv
    iintro ⟨-, -, ⟨H0, H1, H2, H3, H4, ⟨%f, Hf⟩, ⟨%g, Hg⟩⟩⟩
    isplitl [H0 H1 H2 H3 H4]
    · isplitl [H0]; · iexact H0
      isplitl [H1]; · iexact H1
      isplitl [H2]; · iexact H2
      isplitl [H3]; · iexact H3
      iexact H4
    iexists f, g
    isplitl [Hf]; · iexact Hf
    isplitl [Hg]; · iexact Hg
    ipureintro
    intro idx h
    rw [show ((0 : Fin (cfg1.N + 1)) : ℕ) = 0 from rfl, Nat.zero_min, Nat.mul_zero] at h
    exact absurd h (Nat.not_lt_zero _)
  hout c := by
    have hΦ : ∀ t, (pdats m 1 c).Φ t = Φ1 (Vin1 m) c t := fun _ => rfl
    rw [Pipeline.ownSems0_none, hΦ, show (Pipeline.scopedRest (Pipeline.pin (pcfgs (F := F)) adm 1).spec c : sProp 𝕄) = _ from scopedRest1_eq c]
    unfold Φ1 otherStaging scratchInv
    iintro ⟨⟨H0, H1, H2, H3, H4⟩, ⟨%f, %g, Hf, Hg, -⟩⟩
    isplitr; · iempintro
    isplitr; · iempintro
    isplitl [H0]; · iexact H0
    isplitl [H1]; · iexact H1
    isplitl [H2]; · iexact H2
    isplitl [H3]; · iexact H3
    isplitl [H4]; · iexact H4
    isplitl [Hf]; · iexists f; iexact Hf
    iexists g; iexact Hg
  hexit c := by
    unfold St
    rw [show W3 m c = Pipeline.withArrays (cfgs 1).spec c (W2 m c) (fun w => (pdats m 1 c).arrAt w cfg1.N) from rfl,
      held_withArrays m 1 launch1.win launch1.arr_whole c ((pdats m 1 c).share_full fun _ => rfl)]
    iintro ⟨Ha, HO, -, Hz⟩
    imodintro
    isplitr [HO]
    · isplitl [Ha]; · iexact Ha
      iexact Hz
    · unfold Pipeline.Dat.owesAt Pipeline.owesWithin
      icases HO with ⟨%W, -, HO⟩; iexists W; iexact HO

/-- The four reshapes between the regions, over the unscoped buffers from W1, the core's owing nothing riding along. -/
def hseg : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- @main as the list of the three. -/
abbrev msegs : List (Pipeline.Seg (pcfgs (F := F)) adm (pdats m) () defs₀ Variants.none L lv) :=
  [.region (reg0 m), .host (hseg m), .region (reg1 m)]

end RunKit

open RunKit

set_option backward.isDefEq.respectTransparency.types false in
/-- THE RUN. From any memory with zero counters every weakly fair execution of @main terminates, and every final memory
    holds every unscoped buffer of every core at W3. -/
theorem run_main : θ_run defs (onTc (τ := τ) (main (F := F))) ⟨m, fun _ => 0, ρ⟩ (fun r => ∀ c : Dev nD, ∀ b : Ref sig .tc,
    (Proc.devRef .tc b : DevRef τ sig) ∈ Pipeline.ucRefs τ sig → r.2.mem ((c.tc : Thread nD τ).loc b) = W3 m c b) :=
  Pipeline.θ_run_regions_kit (pcfgs (F := F)) adm (pdats m) () cellOf_inj emb₁ defs₀ Variants.none L lv m ρ main (msegs m)
    (fun c Q => by rw [main_segs adm (pdats m) () Variants.none L lv (hseg m) (reg0 m) (reg1 m) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := fun c => StableHlo.held (c : Thread nD τ) (Pipeline.ucRefs τ sig) (W3 m c))
    (hch := ⟨fun _ => .rfl, fun _ => .rfl, fun _ => .rfl, fun _ => .rfl⟩)
    (hinit := by
      refine Pipeline.initEach L lv fun c => ?_
      unfold St
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b : Ref sig .tc, (Proc.devRef .tc b : DevRef τ sig) ∈ Pipeline.ucRefs τ sig → s.mem ((c.tc : Thread nD τ).loc b) = W3 m c b)
    (hfin := fun c s' => by
      unfold StableHlo.held
      iintro ⟨Hh, HSI⟩
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro; exact fun b hb => h (Proc.devRef .tc b) hb
      · iexact HSI)
    (hQ := fun _ h => h)

/-! ## W3 read at the arguments and at the results -/

theorem W3_arg0 (c : Dev nD) : W3 m c main_arg0 = m ((c : Thread nD τ).loc main_arg0) :=
  (W3_of_ne m c main_arg0 (by decide)).trans <| (W2_of m c main_arg0 (by decide)).trans <|
    (W1_arr m c 0).trans <| ((dat0 (Vin0 m) c).arrAt_in 0 rfl _).trans rfl
theorem W3_arg1 (c : Dev nD) : W3 m c main_arg1 = m ((c : Thread nD τ).loc main_arg1) :=
  (W3_arr m c 0).trans <| ((dat1 (Vin1 m) c).arrAt_in 0 rfl _).trans <| (W2_of m c main_arg1 (by decide)).trans <|
    (W1_of_ne m c main_arg1 (by decide)).trans rfl
theorem W3_arg2 (c : Dev nD) : W3 m c main_arg2 = m ((c : Thread nD τ).loc main_arg2) :=
  (W3_arr m c 1).trans <| ((dat1 (Vin1 m) c).arrAt_in 1 rfl _).trans <| (W2_of m c main_arg2 (by decide)).trans <|
    (W1_of_ne m c main_arg2 (by decide)).trans rfl
theorem W3_arg3 (c : Dev nD) : W3 m c main_arg3 = m ((c : Thread nD τ).loc main_arg3) :=
  (W3_of_ne m c main_arg3 (by decide)).trans <| (W2_of m c main_arg3 (by decide)).trans <|
    (W1_arr m c 1).trans <| ((dat0 (Vin0 m) c).arrAt_in 1 rfl _).trans rfl
theorem W3_arg4 (c : Dev nD) : W3 m c main_arg4 = m ((c : Thread nD τ).loc main_arg4) :=
  (W3_of_ne m c main_arg4 (by decide)).trans <| (W2_of m c main_arg4 (by decide)).trans <|
    (W1_of_ne m c main_arg4 (by decide)).trans rfl
theorem W3_arg5 (c : Dev nD) : W3 m c main_arg5 = m ((c : Thread nD τ).loc main_arg5) :=
  (W3_arr m c 5).trans <| ((dat1 (Vin1 m) c).arrAt_in 5 rfl _).trans <| (W2_of m c main_arg5 (by decide)).trans <|
    (W1_of_ne m c main_arg5 (by decide)).trans rfl
theorem W3_arg6 (c : Dev nD) : W3 m c main_arg6 = m ((c : Thread nD τ).loc main_arg6) :=
  (W3_of_ne m c main_arg6 (by decide)).trans <| (W2_of m c main_arg6 (by decide)).trans <|
    (W1_of_ne m c main_arg6 (by decide)).trans rfl
theorem W3_arg7 (c : Dev nD) : W3 m c main_arg7 = m ((c : Thread nD τ).loc main_arg7) :=
  (W3_of_ne m c main_arg7 (by decide)).trans <| (W2_of m c main_arg7 (by decide)).trans <|
    (W1_arr m c 2).trans <| ((dat0 (Vin0 m) c).arrAt_in 2 rfl _).trans rfl
theorem W3_arg8 (c : Dev nD) : W3 m c main_arg8 = m ((c : Thread nD τ).loc main_arg8) :=
  (W3_of_ne m c main_arg8 (by decide)).trans <| (W2_of m c main_arg8 (by decide)).trans <|
    (W1_of_ne m c main_arg8 (by decide)).trans rfl
theorem W3_arg9 (c : Dev nD) : W3 m c main_arg9 = m ((c : Thread nD τ).loc main_arg9) :=
  (W3_arr m c 7).trans <| ((dat1 (Vin1 m) c).arrAt_in 7 rfl _).trans <| (W2_of m c main_arg9 (by decide)).trans <|
    (W1_of_ne m c main_arg9 (by decide)).trans rfl
theorem W3_arg10 (c : Dev nD) : W3 m c main_arg10 = m ((c : Thread nD τ).loc main_arg10) :=
  (W3_of_ne m c main_arg10 (by decide)).trans <| (W2_of m c main_arg10 (by decide)).trans <|
    (W1_of_ne m c main_arg10 (by decide)).trans rfl
theorem W3_arg11 (c : Dev nD) : W3 m c main_arg11 = m ((c : Thread nD τ).loc main_arg11) :=
  (W3_arr m c 8).trans <| ((dat1 (Vin1 m) c).arrAt_in 8 rfl _).trans <| (W2_of m c main_arg11 (by decide)).trans <|
    (W1_of_ne m c main_arg11 (by decide)).trans rfl

/-- The four results are the main kernel's four output arrays after its write-backs. -/
theorem W3_v5_0 (c : Dev nD) : W3 m c main_v5_0 = (dat1 (Vin1 m) c).arrAt 11 cfg1.N := W3_arr m c 11
theorem W3_v5_1 (c : Dev nD) : W3 m c main_v5_1 = (dat1 (Vin1 m) c).arrAt 12 cfg1.N := W3_arr m c 12
theorem W3_v5_2 (c : Dev nD) : W3 m c main_v5_2 = (dat1 (Vin1 m) c).arrAt 13 cfg1.N := W3_arr m c 13
theorem W3_v5_3 (c : Dev nD) : W3 m c main_v5_3 = (dat1 (Vin1 m) c).arrAt 14 cfg1.N := W3_arr m c 14

/-- Every reference these lemmas and the claim read is unscoped. -/
theorem mem_ucRefs_of_hbm (b : Ref sig .tc) (h : b.1 = .hbm) : (Proc.devRef .tc b : DevRef τ sig) ∈ Pipeline.ucRefs τ sig := by
  refine Finset.mem_filter.mpr ⟨StableHlo.devRef_mem_tcRefs b, ?_⟩
  obtain ⟨sp, i, hn⟩ := b
  subst h
  revert i
  decide

end Cert.KernelIdeal.Hand

end
-- ==== Proof.KI.Spec.lean ====
/-
  The kernel's results as pure functions of the twelve argument arrays (no memory, no schedule).
  With A one of the two 10000 × 10000 adjacency matrices, S = X · W1 (the projection kernel's result), and the bias
  vectors read as one-row matrices:
      T  = relu(A · S + b1) · W2      (computed 200 rows at a time: rows 200·b … 200·b+199 from rows 200·b … of A)
      x  = A · T + b2                 (again 200 rows at a time)
      p  = relu(relu(x) · Wp)
  Each is written through the kernel body's own named payloads, so that "what the memory ends holding" and "what the
  reference computes" are both statements about these functions.
-/
import proofs.«150603_g79422535238402_cont_9to1c4b_784_13_alg».proof.Proof.Gen.KernelIdeal.Skeleton
import Idealize.ShloMosaic.Lib.ValueIdx

noncomputable section

namespace Cert.KernelIdeal.Spec

open Cert.KernelIdeal Cert.KernelIdeal.Gen Idealize.ShloMosaic

variable {F : FTy → Type} [FloatOps F]

/-- The block of 200 rows that row r lies in, -/
def rowBlock (r : Fin 10000) : Fin 50 := ⟨r.val / 200, by have := r.isLt; omega⟩
/-- and its place inside that block. -/
def rowIn (r : Fin 10000) : Fin 200 := ⟨r.val % 200, Nat.mod_lt _ (by decide)⟩

/-- Rows 200·b … 200·b + 199 of a 10000 × 10000 matrix. -/
def rowsOf (a : Vec F S10000x10000 .f32) (b : Fin 50) : Vec F S200x10000 .f32 :=
  fun y => a (ValueIdx.ix2 (⟨200 * b.val + (y 0).val, by have := ValueIdx.idx2_lt0 y; have := b.isLt; omega⟩ : Fin 10000) (y 1))

/-- A bias vector as the one-row matrix the host reshape makes of it. -/
def biasRow64 (v : Vec F S64 .f32) : Vec F S1x64 .f32 := shapeCast S1x64 v shapeCasts_S64_S1x64
def biasRow32 (v : Vec F S32 .f32) : Vec F S1x32 .f32 := shapeCast S1x32 v shapeCasts_S32_S1x32

/-- T_a = relu(A_s · S_a + b1a) · W2a, row by row through the phase-0 payload of its block. -/
def TaOf (a : Vec F S10000x10000 .f32) (s : Vec F S10000x64 .bf16) (b1r : Vec F S1x64 .f32) (w2 : Vec F S64x32 .f32) : Vec F S10000x32 .f32 :=
  fun i => k1_pay3 (rowsOf a (rowBlock (i 0))) s b1r w2 (ValueIdx.ix2 (rowIn (i 0)) (i 1))
/-- T_b, the same through the second branch's payload. -/
def TbOf (a : Vec F S10000x10000 .f32) (s : Vec F S10000x64 .bf16) (b1r : Vec F S1x64 .f32) (w2 : Vec F S64x32 .f32) : Vec F S10000x32 .f32 :=
  fun i => k1_pay4 (rowsOf a (rowBlock (i 0))) s b1r w2 (ValueIdx.ix2 (rowIn (i 0)) (i 1))

/-- x1 = A_s · T_a + b2a. -/
def X1Of (a : Vec F S10000x10000 .f32) (T : Vec F S10000x32 .f32) (b2r : Vec F S1x32 .f32) : Vec F S10000x32 .f32 :=
  fun i => k1_pay5 (k1_pay1 (rowsOf a (rowBlock (i 0)))) T b2r (ValueIdx.ix2 (rowIn (i 0)) (i 1))
/-- p1 = relu(relu(x1) · Wp). -/
def P1Of (a : Vec F S10000x10000 .f32) (T : Vec F S10000x32 .f32) (b2r : Vec F S1x32 .f32) (wp : Vec F S32x16 .f32) : Vec F S10000x16 .f32 :=
  fun i => k1_pay6 (k1_pay1 (rowsOf a (rowBlock (i 0)))) T b2r wp (ValueIdx.ix2 (rowIn (i 0)) (i 1))
/-- x2 = A_f · T_b + b2b. -/
def X2Of (a : Vec F S10000x10000 .f32) (T : Vec F S10000x32 .f32) (b2r : Vec F S1x32 .f32) : Vec F S10000x32 .f32 :=
  fun i => k1_pay7 (k1_pay2 (rowsOf a (rowBlock (i 0)))) T b2r (ValueIdx.ix2 (rowIn (i 0)) (i 1))
/-- p2 = relu(relu(x2) · Wp). -/
def P2Of (a : Vec F S10000x10000 .f32) (T : Vec F S10000x32 .f32) (b2r : Vec F S1x32 .f32) (wp : Vec F S32x16 .f32) : Vec F S10000x16 .f32 :=
  fun i => k1_pay8 (k1_pay2 (rowsOf a (rowBlock (i 0)))) T b2r wp (ValueIdx.ix2 (rowIn (i 0)) (i 1))

/-- The four results as functions of the argument arrays X, A_s / A_f, W1, b1, W2, b2 (and Wp). -/
def KX1 (x0 : Vec F S10000x128 .f32) (x1 : Vec F S10000x10000 .f32) (x3 : Vec F S128x64 .f32) (x4 : Vec F S64 .f32) (x5 : Vec F S64x32 .f32) (x6 : Vec F S32 .f32) : Vec F S10000x32 .f32 :=
  X1Of x1 (TaOf x1 (k0_pay1 x0 x3) (biasRow64 x4) x5) (biasRow32 x6)
def KP1 (x0 : Vec F S10000x128 .f32) (x1 : Vec F S10000x10000 .f32) (x3 : Vec F S128x64 .f32) (x4 : Vec F S64 .f32) (x5 : Vec F S64x32 .f32) (x6 : Vec F S32 .f32) (x11 : Vec F S32x16 .f32) : Vec F S10000x16 .f32 :=
  P1Of x1 (TaOf x1 (k0_pay1 x0 x3) (biasRow64 x4) x5) (biasRow32 x6) x11
def KX2 (x0 : Vec F S10000x128 .f32) (x2 : Vec F S10000x10000 .f32) (x7 : Vec F S128x64 .f32) (x8 : Vec F S64 .f32) (x9 : Vec F S64x32 .f32) (x10 : Vec F S32 .f32) : Vec F S10000x32 .f32 :=
  X2Of x2 (TbOf x2 (k0_pay2 x0 x7) (biasRow64 x8) x9) (biasRow32 x10)
def KP2 (x0 : Vec F S10000x128 .f32) (x2 : Vec F S10000x10000 .f32) (x7 : Vec F S128x64 .f32) (x8 : Vec F S64 .f32) (x9 : Vec F S64x32 .f32) (x10 : Vec F S32 .f32) (x11 : Vec F S32x16 .f32) : Vec F S10000x16 .f32 :=
  P2Of x2 (TbOf x2 (k0_pay2 x0 x7) (biasRow64 x8) x9) (biasRow32 x10) x11

end Cert.KernelIdeal.Spec

end
-- ==== Proof.KI.Value.lean ====
/-
  What each region's output arrays hold after its write-backs, as whole-array functions of the contents V the region found.
  The projection kernel writes each result whole at its one point. The main kernel writes back an output block only at the
  phase-1 points (50 … 99); point 50 + b writes rows 200·b … 200·b + 199, so the fifty blocks tile each output.
-/
import proofs.«150603_g79422535238402_cont_9to1c4b_784_13_alg».proof.Proof.KI.Data0
import proofs.«150603_g79422535238402_cont_9to1c4b_784_13_alg».proof.Proof.KI.Data1
import proofs.«150603_g79422535238402_cont_9to1c4b_784_13_alg».proof.Proof.KI.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection kernel: one point, every block its whole array -/

theorem blk0_0_eq (c : Dev nD) (t : Fin cfg0.N) : blk0 V c 0 t = V c main_arg0 := by
  funext y
  unfold blk0
  rw [View.read_apply]
  show V c main_arg0 _ = V c main_arg0 y
  congr 1
  funext a
  apply Fin.ext
  exact win0_0.rect_emb_val_of_index_zero t a rfl y

theorem blk0_1_eq (c : Dev nD) (t : Fin cfg0.N) : blk0 V c 1 t = V c main_arg3 := by
  funext y
  unfold blk0
  rw [View.read_apply]
  show V c main_arg3 _ = V c main_arg3 y
  congr 1
  funext a
  apply Fin.ext
  exact win0_1.rect_emb_val_of_index_zero t a rfl y

theorem blk0_2_eq (c : Dev nD) (t : Fin cfg0.N) : blk0 V c 2 t = V c main_arg7 := by
  funext y
  unfold blk0
  rw [View.read_apply]
  show V c main_arg7 _ = V c main_arg7 y
  congr 1
  funext a
  apply Fin.ext
  exact win0_2.rect_emb_val_of_index_zero t a rfl y

/-- What the one point writes back into S_a is S_a whole: block (0, 0) read at zero offsets is the array. -/
theorem flushed0_3_eq (c : Dev nD) (t : Fin cfg0.N) :
    (dat0 V c).flushed 3 t = ((cfg0.win 3).blk t).view.read (Elt F) (k0_pay1 (V c main_arg0) (V c main_arg3)) := by
  show (cfg0.win 3).cut (grid0.coords t) ((dat0 V c).after 3 t) = _
  rw [show (dat0 V c).after 3 t = k0_pay1 (blk0 V c 0 t) (blk0 V c 1 t) from rfl, blk0_0_eq, blk0_1_eq]
  funext y
  rw [View.read_apply]
  show k0_pay1 (V c main_arg0) (V c main_arg3) y = k0_pay1 (V c main_arg0) (V c main_arg3) (((cfg0.win 3).blk t).view.emb y)
  congr 1
  funext a
  apply Fin.ext
  exact (win0_3.rect_emb_val_of_index_zero t a rfl y).symm

/-- The one point's block of S_a is all of it. -/
theorem cover0_3 (i : S10000x64.Idx) : ∃ t : Fin cfg0.N, (cfg0.win 3).flush t = true ∧ i ∈ ((cfg0.win 3).blk t).view.set := by
  have hi0 : (i 0).val < 10000 := ValueIdx.idx2_lt0 i
  have hi1 : (i 1).val < 64 := ValueIdx.idx2_lt1 i
  refine ⟨t0_0, flush0_3 t0_0, ?_⟩
  show i ∈ ((View.whole main_v0_0).slice (win0_3.rect t0_0)).set
  rw [View.set_slice_whole, Rect.mem_set_unit]
  intro a
  match a with
  | ⟨0, _⟩ => show 0 * 10000 ≤ (i 0).val ∧ (i 0).val < 0 * 10000 + 10000; omega
  | ⟨1, _⟩ => show 0 * 64 ≤ (i 1).val ∧ (i 1).val < 0 * 64 + 64; omega

theorem arrAt0_3 (c : Dev nD) : (dat0 V c).arrAt 3 cfg0.N = k0_pay1 (V c main_arg0) (V c main_arg3) :=
  (dat0 V c).arrAt_eq_of_cover 3 _ (fun t _ => flushed0_3_eq V c t) cover0_3

/-- What the one point writes back into S_b is S_b whole: block (0, 0) read at zero offsets is the array. -/
theorem flushed0_4_eq (c : Dev nD) (t : Fin cfg0.N) :
    (dat0 V c).flushed 4 t = ((cfg0.win 4).blk t).view.read (Elt F) (k0_pay2 (V c main_arg0) (V c main_arg7)) := by
  show (cfg0.win 4).cut (grid0.coords t) ((dat0 V c).after 4 t) = _
  rw [show (dat0 V c).after 4 t = k0_pay2 (blk0 V c 0 t) (blk0 V c 2 t) from rfl, blk0_0_eq, blk0_2_eq]
  funext y
  rw [View.read_apply]
  show k0_pay2 (V c main_arg0) (V c main_arg7) y = k0_pay2 (V c main_arg0) (V c main_arg7) (((cfg0.win 4).blk t).view.emb y)
  congr 1
  funext a
  apply Fin.ext
  exact (win0_4.rect_emb_val_of_index_zero t a rfl y).symm

/-- The one point's block of S_b is all of it. -/
theorem cover0_4 (i : S10000x64.Idx) : ∃ t : Fin cfg0.N, (cfg0.win 4).flush t = true ∧ i ∈ ((cfg0.win 4).blk t).view.set := by
  have hi0 : (i 0).val < 10000 := ValueIdx.idx2_lt0 i
  have hi1 : (i 1).val < 64 := ValueIdx.idx2_lt1 i
  refine ⟨t0_0, flush0_4 t0_0, ?_⟩
  show i ∈ ((View.whole main_v0_1).slice (win0_4.rect t0_0)).set
  rw [View.set_slice_whole, Rect.mem_set_unit]
  intro a
  match a with
  | ⟨0, _⟩ => show 0 * 10000 ≤ (i 0).val ∧ (i 0).val < 0 * 10000 + 10000; omega
  | ⟨1, _⟩ => show 0 * 64 ≤ (i 1).val ∧ (i 1).val < 0 * 64 + 64; omega

theorem arrAt0_4 (c : Dev nD) : (dat0 V c).arrAt 4 cfg0.N = k0_pay2 (V c main_arg0) (V c main_arg7) :=
  (dat0 V c).arrAt_eq_of_cover 4 _ (fun t _ => flushed0_4_eq V c t) cover0_4

/-! ## The main kernel's input blocks, read off the arrays -/

/-- The block index of the two adjacency windows is the second grid coordinate, on the row axis only. -/
theorem rowIdx_in : ∀ t : Fin cfg1.N,
    win1_0.index t (0 : Fin 2) = t.val % 50 ∧ win1_0.index t (1 : Fin 2) = 0
  ∧ win1_1.index t (0 : Fin 2) = t.val % 50 ∧ win1_1.index t (1 : Fin 2) = 0 :=
  (by decide +kernel : ∀ t : Fin grid1.N, _)

/-- Windows 2 … 10 sit at block index (0, 0) at every point: their block is their whole array. -/
theorem wholeIdx : ∀ (t : Fin cfg1.N) (a : Fin 2),
    win1_2.index t a = 0 ∧ win1_3.index t a = 0 ∧ win1_4.index t a = 0 ∧ win1_5.index t a = 0 ∧ win1_6.index t a = 0
  ∧ win1_7.index t a = 0 ∧ win1_8.index t a = 0 ∧ win1_9.index t a = 0 ∧ win1_10.index t a = 0 :=
  (by decide +kernel : ∀ (t : Fin grid1.N) (a : Fin 2), _)

/-- The second grid coordinate of a point, as a row-block number. -/
def colOf (t : Fin cfg1.N) : Fin 50 := ⟨t.val % 50, Nat.mod_lt _ (by decide)⟩

/-- Window 0's block at point t is rows 200·(t % 50) … of the first adjacency matrix. -/
theorem blk1_0_eq (c : Dev nD) (t : Fin cfg1.N) : blk1 V c 0 t = Spec.rowsOf (V c main_arg1) (colOf t) := by
  obtain ⟨e0, e1, -, -⟩ := rowIdx_in t
  funext y
  unfold blk1
  rw [View.read_apply]
  show V c main_arg1 _ = V c main_arg1 _
  congr 1
  funext a
  apply Fin.ext
  match a with
  | ⟨0, _⟩ => show win1_0.index t (0 : Fin 2) * 200 + 1 * (y 0).val = 200 * (t.val % 50) + (y 0).val; rw [e0]; omega
  | ⟨1, _⟩ => show win1_0.index t (1 : Fin 2) * 10000 + 1 * (y 1).val = (y 1).val; rw [e1]; omega

/-- Window 1's block at point t is the same rows of the second adjacency matrix. -/
theorem blk1_1_eq (c : Dev nD) (t : Fin cfg1.N) : blk1 V c 1 t = Spec.rowsOf (V c main_arg2) (colOf t) := by
  obtain ⟨-, -, e0, e1⟩ := rowIdx_in t
  funext y
  unfold blk1
  rw [View.read_apply]
  show V c main_arg2 _ = V c main_arg2 _
  congr 1
  funext a
  apply Fin.ext
  match a with
  | ⟨0, _⟩ => show win1_1.index t (0 : Fin 2) * 200 + 1 * (y 0).val = 200 * (t.val % 50) + (y 0).val; rw [e0]; omega
  | ⟨1, _⟩ => show win1_1.index t (1 : Fin 2) * 10000 + 1 * (y 1).val = (y 1).val; rw [e1]; omega

/-! Each of the other nine input windows reads its array whole. -/
theorem blk1_2_eq (c : Dev nD) (t : Fin cfg1.N) : blk1 V c 2 t = V c main_v0_0 := by
  funext y
  unfold blk1
  rw [View.read_apply]
  show V c main_v0_0 _ = V c main_v0_0 y
  congr 1
  funext a
  apply Fin.ext
  exact win1_2.rect_emb_val_of_index_zero t a (wholeIdx t a).1 y

theorem blk1_3_eq (c : Dev nD) (t : Fin cfg1.N) : blk1 V c 3 t = V c main_v0_1 := by
  funext y
  unfold blk1
  rw [View.read_apply]
  show V c main_v0_1 _ = V c main_v0_1 y
  congr 1
  funext a
  apply Fin.ext
  exact win1_3.rect_emb_val_of_index_zero t a (wholeIdx t a).2.1 y

theorem blk1_4_eq (c : Dev nD) (t : Fin cfg1.N) : blk1 V c 4 t = V c main_v1 := by
  funext y
  unfold blk1
  rw [View.read_apply]
  show V c main_v1 _ = V c main_v1 y
  congr 1
  funext a
  apply Fin.ext
  exact win1_4.rect_emb_val_of_index_zero t a (wholeIdx t a).2.2.1 y

theorem blk1_5_eq (c : Dev nD) (t : Fin cfg1.N) : blk1 V c 5 t = V c main_arg5 := by
  funext y
  unfold blk1
  rw [View.read_apply]
  show V c main_arg5 _ = V c main_arg5 y
  congr 1
  funext a
  apply Fin.ext
  exact win1_5.rect_emb_val_of_index_zero t a (wholeIdx t a).2.2.2.1 y

theorem blk1_6_eq (c : Dev nD) (t : Fin cfg1.N) : blk1 V c 6 t = V c main_v2 := by
  funext y
  unfold blk1
  rw [View.read_apply]
  show V c main_v2 _ = V c main_v2 y
  congr 1
  funext a
  apply Fin.ext
  exact win1_6.rect_emb_val_of_index_zero t a (wholeIdx t a).2.2.2.2.1 y

theorem blk1_7_eq (c : Dev nD) (t : Fin cfg1.N) : blk1 V c 7 t = V c main_arg9 := by
  funext y
  unfold blk1
  rw [View.read_apply]
  show V c main_arg9 _ = V c main_arg9 y
  congr 1
  funext a
  apply Fin.ext
  exact win1_7.rect_emb_val_of_index_zero t a (wholeIdx t a).2.2.2.2.2.1 y

theorem blk1_8_eq (c : Dev nD) (t : Fin cfg1.N) : blk1 V c 8 t = V c main_arg11 := by
  funext y
  unfold blk1
  rw [View.read_apply]
  show V c main_arg11 _ = V c main_arg11 y
  congr 1
  funext a
  apply Fin.ext
  exact win1_8.rect_emb_val_of_index_zero t a (wholeIdx t a).2.2.2.2.2.2.1 y

theorem blk1_9_eq (c : Dev nD) (t : Fin cfg1.N) : blk1 V c 9 t = V c main_v3 := by
  funext y
  unfold blk1
  rw [View.read_apply]
  show V c main_v3 _ = V c main_v3 y
  congr 1
  funext a
  apply Fin.ext
  exact win1_9.rect_emb_val_of_index_zero t a (wholeIdx t a).2.2.2.2.2.2.2.1 y

theorem blk1_10_eq (c : Dev nD) (t : Fin cfg1.N) : blk1 V c 10 t = V c main_v4 := by
  funext y
  unfold blk1
  rw [View.read_apply]
  show V c main_v4 _ = V c main_v4 y
  congr 1
  funext a
  apply Fin.ext
  exact win1_10.rect_emb_val_of_index_zero t a (wholeIdx t a).2.2.2.2.2.2.2.2 y

/-- The row-block number of the point that owns row r is the row's own block. -/
theorem colOf_rowPoint (r : Fin 10000) : colOf (rowPoint r) = Spec.rowBlock r :=
  Fin.ext (Nat.mod_eq_of_lt (by have := r.isLt; show r.val / 200 < 50; omega))

/-! ## The scratch specification is the pure T_a, T_b -/

/-- The scratch specification of the proof data is the pure T_a of the arrays the region found (and T_b). -/
theorem TA_eq (c : Dev nD) : TA V c = Spec.TaOf (V c main_arg1) (V c main_v0_0) (V c main_v1) (V c main_arg5) := by
  funext idx
  unfold TA taBlk Spec.TaOf
  rw [blk1_0_eq, blk1_2_eq, blk1_4_eq, blk1_5_eq]
  have e : colOf (rowPoint (idx 0)) = Spec.rowBlock (idx 0) := colOf_rowPoint (idx 0)
  rw [e]
  rfl
theorem TB_eq (c : Dev nD) : TB V c = Spec.TbOf (V c main_arg2) (V c main_v0_1) (V c main_v2) (V c main_arg9) := by
  funext idx
  unfold TB tbBlk Spec.TbOf
  rw [blk1_1_eq, blk1_3_eq, blk1_6_eq, blk1_7_eq]
  have e : colOf (rowPoint (idx 0)) = Spec.rowBlock (idx 0) := colOf_rowPoint (idx 0)
  rw [e]
  rfl

/-! ## The main kernel's outputs: from the blocks the phase-1 points write back to the whole arrays -/

/-- An output block is written back exactly at the phase-1 points. -/
theorem flush_out : ∀ t : Fin cfg1.N,
    ((cfg1.win 11).flush t = true ↔ 50 ≤ t.val) ∧ ((cfg1.win 12).flush t = true ↔ 50 ≤ t.val)
  ∧ ((cfg1.win 13).flush t = true ↔ 50 ≤ t.val) ∧ ((cfg1.win 14).flush t = true ↔ 50 ≤ t.val) :=
  (by decide +kernel : ∀ t : Fin grid1.N, (win1_11.flush t = true ↔ 50 ≤ t.val) ∧ (win1_12.flush t = true ↔ 50 ≤ t.val)
      ∧ (win1_13.flush t = true ↔ 50 ≤ t.val) ∧ (win1_14.flush t = true ↔ 50 ≤ t.val))

/-- At a phase-1 point the four output windows sit at block (t % 50, 0): the product of the two grid coordinates. -/
theorem rowIdx_out : ∀ t : Fin cfg1.N,
    (50 ≤ t.val → win1_11.index t (0 : Fin 2) = t.val % 50) ∧ win1_11.index t (1 : Fin 2) = 0
  ∧ (50 ≤ t.val → win1_12.index t (0 : Fin 2) = t.val % 50) ∧ win1_12.index t (1 : Fin 2) = 0
  ∧ (50 ≤ t.val → win1_13.index t (0 : Fin 2) = t.val % 50) ∧ win1_13.index t (1 : Fin 2) = 0
  ∧ (50 ≤ t.val → win1_14.index t (0 : Fin 2) = t.val % 50) ∧ win1_14.index t (1 : Fin 2) = 0 :=
  (by decide +kernel : ∀ t : Fin grid1.N, _)

/-- A function given row block by row block, read at the array index i that is place y of block b. -/
theorem rowwise_at {n : Nat} {α : Type} (f : Fin 50 → (⟨2, ![200, n]⟩ : Shape).Idx → α) (b : Fin 50)
    (y : (⟨2, ![200, n]⟩ : Shape).Idx) (i : (⟨2, ![10000, n]⟩ : Shape).Idx)
    (h0 : (i 0).val = 200 * b.val + (y 0).val) (h1 : (i 1).val = (y 1).val) :
    f (Spec.rowBlock (i 0)) (ValueIdx.ix2 (Spec.rowIn (i 0)) (i 1)) = f b y := by
  have hy0 : (y 0).val < 200 := ValueIdx.idx2_lt0 y
  have hb : Spec.rowBlock (i 0) = b := Fin.ext (by show (i 0).val / 200 = b.val; omega)
  have hy : ValueIdx.ix2 (Spec.rowIn (i 0)) (i 1) = y := by
    funext d
    match d with
    | ⟨0, _⟩ => exact Fin.ext (by show (i 0).val % 200 = (y 0).val; omega)
    | ⟨1, _⟩ => exact Fin.ext h1
  rw [hb]
  exact congrArg (f b) hy

/-- The phase-1 point that writes back row r's block. -/
def outPoint (r : Fin 10000) : Fin cfg1.N := ⟨50 + r.val / 200, by have := r.isLt; have : cfg1.N = 100 := N_1; omega⟩

/-! ### Window 11: x1 -/

/-- What a phase-1 point writes back into x1 is its block of the whole x1. -/
theorem flushed11_eq (c : Dev nD) (t : Fin cfg1.N) (hf : (cfg1.win 11).flush t = true) :
    (dat1 V c).flushed 11 t = ((cfg1.win 11).blk t).view.read (Elt F)
      (Spec.X1Of (V c main_arg1) (Spec.TaOf (V c main_arg1) (V c main_v0_0) (V c main_v1) (V c main_arg5)) (V c main_v3)) := by
  have h50 : 50 ≤ t.val := (flush_out t).1.mp hf
  obtain ⟨e0, e1, -⟩ := rowIdx_out t
  have e0 := e0 h50
  show (cfg1.win 11).cut (grid1.coords t) ((dat1 V c).after 11 t) = _
  rw [dat1_after11, blk1_0_eq, blk1_9_eq, TA_eq]
  funext y
  rw [View.read_apply]
  show k1_pay5 (k1_pay1 (Spec.rowsOf (V c main_arg1) (colOf t))) (Spec.TaOf (V c main_arg1) (V c main_v0_0) (V c main_v1) (V c main_arg5)) (V c main_v3) y = Spec.X1Of (V c main_arg1) (Spec.TaOf (V c main_arg1) (V c main_v0_0) (V c main_v1) (V c main_arg5)) (V c main_v3) (((cfg1.win 11).blk t).view.emb y)
  refine (rowwise_at (fun b y => k1_pay5 (k1_pay1 (Spec.rowsOf (V c main_arg1) b)) (Spec.TaOf (V c main_arg1) (V c main_v0_0) (V c main_v1) (V c main_arg5)) (V c main_v3) y) (colOf t) y (((cfg1.win 11).blk t).view.emb y) ?_ ?_).symm
  · show win1_11.index t (0 : Fin 2) * 200 + 1 * (y 0).val = 200 * (t.val % 50) + (y 0).val
    rw [e0]; omega
  · show win1_11.index t (1 : Fin 2) * 32 + 1 * (y 1).val = (y 1).val
    rw [e1]; omega

/-- An index of x1 is in point t's block iff each coordinate is in the block's range on its axis. -/
theorem mem_blk11 (t : Fin cfg1.N) (i : S10000x32.Idx) :
    i ∈ ((cfg1.win 11).blk t).view.set ↔ ∀ a : Fin 2, win1_11.index t a * S200x32.size a ≤ (i a).val ∧ (i a).val < win1_11.index t a * S200x32.size a + S200x32.size a := by
  show i ∈ ((View.whole main_v5_0).slice (win1_11.rect t)).set ↔ _
  rw [View.set_slice_whole, Rect.mem_set_unit]
  exact Iff.rfl

/-- Every row of x1 lies in the block of the phase-1 point 50 + r / 200. -/
theorem cover11 (i : S10000x32.Idx) : ∃ t : Fin cfg1.N, (cfg1.win 11).flush t = true ∧ i ∈ ((cfg1.win 11).blk t).view.set := by
  have hi0 : (i 0).val < 10000 := ValueIdx.idx2_lt0 i
  have hi1 : (i 1).val < 32 := ValueIdx.idx2_lt1 i
  have ht : (outPoint (i 0)).val = 50 + (i 0).val / 200 := rfl
  have h50 : 50 ≤ (outPoint (i 0)).val := by omega
  obtain ⟨e0, e1, -⟩ := rowIdx_out (outPoint (i 0))
  have e0 := e0 h50
  refine ⟨outPoint (i 0), (flush_out _).1.mpr h50, ?_⟩
  rw [mem_blk11]
  intro a
  match a with
  | ⟨0, _⟩ => show win1_11.index (outPoint (i 0)) (0 : Fin 2) * 200 ≤ (i 0).val ∧ (i 0).val < win1_11.index (outPoint (i 0)) (0 : Fin 2) * 200 + 200; rw [e0, ht]; omega
  | ⟨1, _⟩ => show win1_11.index (outPoint (i 0)) (1 : Fin 2) * 32 ≤ (i 1).val ∧ (i 1).val < win1_11.index (outPoint (i 0)) (1 : Fin 2) * 32 + 32; rw [e1]; omega

theorem arrAt1_11 (c : Dev nD) : (dat1 V c).arrAt 11 cfg1.N
    = Spec.X1Of (V c main_arg1) (Spec.TaOf (V c main_arg1) (V c main_v0_0) (V c main_v1) (V c main_arg5)) (V c main_v3) :=
  (dat1 V c).arrAt_eq_of_cover 11 _ (flushed11_eq V c) cover11

/-! ### Window 12: x2 -/

/-- What a phase-1 point writes back into x2 is its block of the whole x2. -/
theorem flushed12_eq (c : Dev nD) (t : Fin cfg1.N) (hf : (cfg1.win 12).flush t = true) :
    (dat1 V c).flushed 12 t = ((cfg1.win 12).blk t).view.read (Elt F)
      (Spec.X2Of (V c main_arg2) (Spec.TbOf (V c main_arg2) (V c main_v0_1) (V c main_v2) (V c main_arg9)) (V c main_v4)) := by
  have h50 : 50 ≤ t.val := (flush_out t).2.1.mp hf
  obtain ⟨-, -, e0, e1, -⟩ := rowIdx_out t
  have e0 := e0 h50
  show (cfg1.win 12).cut (grid1.coords t) ((dat1 V c).after 12 t) = _
  rw [dat1_after12, blk1_1_eq, blk1_10_eq, TB_eq]
  funext y
  rw [View.read_apply]
  show k1_pay7 (k1_pay2 (Spec.rowsOf (V c main_arg2) (colOf t))) (Spec.TbOf (V c main_arg2) (V c main_v0_1) (V c main_v2) (V c main_arg9)) (V c main_v4) y = Spec.X2Of (V c main_arg2) (Spec.TbOf (V c main_arg2) (V c main_v0_1) (V c main_v2) (V c main_arg9)) (V c main_v4) (((cfg1.win 12).blk t).view.emb y)
  refine (rowwise_at (fun b y => k1_pay7 (k1_pay2 (Spec.rowsOf (V c main_arg2) b)) (Spec.TbOf (V c main_arg2) (V c main_v0_1) (V c main_v2) (V c main_arg9)) (V c main_v4) y) (colOf t) y (((cfg1.win 12).blk t).view.emb y) ?_ ?_).symm
  · show win1_12.index t (0 : Fin 2) * 200 + 1 * (y 0).val = 200 * (t.val % 50) + (y 0).val
    rw [e0]; omega
  · show win1_12.index t (1 : Fin 2) * 32 + 1 * (y 1).val = (y 1).val
    rw [e1]; omega

/-- An index of x2 is in point t's block iff each coordinate is in the block's range on its axis. -/
theorem mem_blk12 (t : Fin cfg1.N) (i : S10000x32.Idx) :
    i ∈ ((cfg1.win 12).blk t).view.set ↔ ∀ a : Fin 2, win1_12.index t a * S200x32.size a ≤ (i a).val ∧ (i a).val < win1_12.index t a * S200x32.size a + S200x32.size a := by
  show i ∈ ((View.whole main_v5_1).slice (win1_12.rect t)).set ↔ _
  rw [View.set_slice_whole, Rect.mem_set_unit]
  exact Iff.rfl

/-- Every row of x2 lies in the block of the phase-1 point 50 + r / 200. -/
theorem cover12 (i : S10000x32.Idx) : ∃ t : Fin cfg1.N, (cfg1.win 12).flush t = true ∧ i ∈ ((cfg1.win 12).blk t).view.set := by
  have hi0 : (i 0).val < 10000 := ValueIdx.idx2_lt0 i
  have hi1 : (i 1).val < 32 := ValueIdx.idx2_lt1 i
  have ht : (outPoint (i 0)).val = 50 + (i 0).val / 200 := rfl
  have h50 : 50 ≤ (outPoint (i 0)).val := by omega
  obtain ⟨-, -, e0, e1, -⟩ := rowIdx_out (outPoint (i 0))
  have e0 := e0 h50
  refine ⟨outPoint (i 0), (flush_out _).2.1.mpr h50, ?_⟩
  rw [mem_blk12]
  intro a
  match a with
  | ⟨0, _⟩ => show win1_12.index (outPoint (i 0)) (0 : Fin 2) * 200 ≤ (i 0).val ∧ (i 0).val < win1_12.index (outPoint (i 0)) (0 : Fin 2) * 200 + 200; rw [e0, ht]; omega
  | ⟨1, _⟩ => show win1_12.index (outPoint (i 0)) (1 : Fin 2) * 32 ≤ (i 1).val ∧ (i 1).val < win1_12.index (outPoint (i 0)) (1 : Fin 2) * 32 + 32; rw [e1]; omega

theorem arrAt1_12 (c : Dev nD) : (dat1 V c).arrAt 12 cfg1.N
    = Spec.X2Of (V c main_arg2) (Spec.TbOf (V c main_arg2) (V c main_v0_1) (V c main_v2) (V c main_arg9)) (V c main_v4) :=
  (dat1 V c).arrAt_eq_of_cover 12 _ (flushed12_eq V c) cover12

/-! ### Window 13: p1 -/

/-- What a phase-1 point writes back into p1 is its block of the whole p1. -/
theorem flushed13_eq (c : Dev nD) (t : Fin cfg1.N) (hf : (cfg1.win 13).flush t = true) :
    (dat1 V c).flushed 13 t = ((cfg1.win 13).blk t).view.read (Elt F)
      (Spec.P1Of (V c main_arg1) (Spec.TaOf (V c main_arg1) (V c main_v0_0) (V c main_v1) (V c main_arg5)) (V c main_v3) (V c main_arg11)) := by
  have h50 : 50 ≤ t.val := (flush_out t).2.2.1.mp hf
  obtain ⟨-, -, -, -, e0, e1, -⟩ := rowIdx_out t
  have e0 := e0 h50
  show (cfg1.win 13).cut (grid1.coords t) ((dat1 V c).after 13 t) = _
  rw [dat1_after13, blk1_0_eq, blk1_9_eq, blk1_8_eq, TA_eq]
  funext y
  rw [View.read_apply]
  show k1_pay6 (k1_pay1 (Spec.rowsOf (V c main_arg1) (colOf t))) (Spec.TaOf (V c main_arg1) (V c main_v0_0) (V c main_v1) (V c main_arg5)) (V c main_v3) (V c main_arg11) y = Spec.P1Of (V c main_arg1) (Spec.TaOf (V c main_arg1) (V c main_v0_0) (V c main_v1) (V c main_arg5)) (V c main_v3) (V c main_arg11) (((cfg1.win 13).blk t).view.emb y)
  refine (rowwise_at (fun b y => k1_pay6 (k1_pay1 (Spec.rowsOf (V c main_arg1) b)) (Spec.TaOf (V c main_arg1) (V c main_v0_0) (V c main_v1) (V c main_arg5)) (V c main_v3) (V c main_arg11) y) (colOf t) y (((cfg1.win 13).blk t).view.emb y) ?_ ?_).symm
  · show win1_13.index t (0 : Fin 2) * 200 + 1 * (y 0).val = 200 * (t.val % 50) + (y 0).val
    rw [e0]; omega
  · show win1_13.index t (1 : Fin 2) * 16 + 1 * (y 1).val = (y 1).val
    rw [e1]; omega

/-- An index of p1 is in point t's block iff each coordinate is in the block's range on its axis. -/
theorem mem_blk13 (t : Fin cfg1.N) (i : S10000x16.Idx) :
    i ∈ ((cfg1.win 13).blk t).view.set ↔ ∀ a : Fin 2, win1_13.index t a * S200x16.size a ≤ (i a).val ∧ (i a).val < win1_13.index t a * S200x16.size a + S200x16.size a := by
  show i ∈ ((View.whole main_v5_2).slice (win1_13.rect t)).set ↔ _
  rw [View.set_slice_whole, Rect.mem_set_unit]
  exact Iff.rfl

/-- Every row of p1 lies in the block of the phase-1 point 50 + r / 200. -/
theorem cover13 (i : S10000x16.Idx) : ∃ t : Fin cfg1.N, (cfg1.win 13).flush t = true ∧ i ∈ ((cfg1.win 13).blk t).view.set := by
  have hi0 : (i 0).val < 10000 := ValueIdx.idx2_lt0 i
  have hi1 : (i 1).val < 16 := ValueIdx.idx2_lt1 i
  have ht : (outPoint (i 0)).val = 50 + (i 0).val / 200 := rfl
  have h50 : 50 ≤ (outPoint (i 0)).val := by omega
  obtain ⟨-, -, -, -, e0, e1, -⟩ := rowIdx_out (outPoint (i 0))
  have e0 := e0 h50
  refine ⟨outPoint (i 0), (flush_out _).2.2.1.mpr h50, ?_⟩
  rw [mem_blk13]
  intro a
  match a with
  | ⟨0, _⟩ => show win1_13.index (outPoint (i 0)) (0 : Fin 2) * 200 ≤ (i 0).val ∧ (i 0).val < win1_13.index (outPoint (i 0)) (0 : Fin 2) * 200 + 200; rw [e0, ht]; omega
  | ⟨1, _⟩ => show win1_13.index (outPoint (i 0)) (1 : Fin 2) * 16 ≤ (i 1).val ∧ (i 1).val < win1_13.index (outPoint (i 0)) (1 : Fin 2) * 16 + 16; rw [e1]; omega

theorem arrAt1_13 (c : Dev nD) : (dat1 V c).arrAt 13 cfg1.N
    = Spec.P1Of (V c main_arg1) (Spec.TaOf (V c main_arg1) (V c main_v0_0) (V c main_v1) (V c main_arg5)) (V c main_v3) (V c main_arg11) :=
  (dat1 V c).arrAt_eq_of_cover 13 _ (flushed13_eq V c) cover13

/-! ### Window 14: p2 -/

/-- What a phase-1 point writes back into p2 is its block of the whole p2. -/
theorem flushed14_eq (c : Dev nD) (t : Fin cfg1.N) (hf : (cfg1.win 14).flush t = true) :
    (dat1 V c).flushed 14 t = ((cfg1.win 14).blk t).view.read (Elt F)
      (Spec.P2Of (V c main_arg2) (Spec.TbOf (V c main_arg2) (V c main_v0_1) (V c main_v2) (V c main_arg9)) (V c main_v4) (V c main_arg11)) := by
  have h50 : 50 ≤ t.val := (flush_out t).2.2.2.mp hf
  obtain ⟨-, -, -, -, -, -, e0, e1⟩ := rowIdx_out t
  have e0 := e0 h50
  show (cfg1.win 14).cut (grid1.coords t) ((dat1 V c).after 14 t) = _
  rw [dat1_after14, blk1_1_eq, blk1_10_eq, blk1_8_eq, TB_eq]
  funext y
  rw [View.read_apply]
  show k1_pay8 (k1_pay2 (Spec.rowsOf (V c main_arg2) (colOf t))) (Spec.TbOf (V c main_arg2) (V c main_v0_1) (V c main_v2) (V c main_arg9)) (V c main_v4) (V c main_arg11) y = Spec.P2Of (V c main_arg2) (Spec.TbOf (V c main_arg2) (V c main_v0_1) (V c main_v2) (V c main_arg9)) (V c main_v4) (V c main_arg11) (((cfg1.win 14).blk t).view.emb y)
  refine (rowwise_at (fun b y => k1_pay8 (k1_pay2 (Spec.rowsOf (V c main_arg2) b)) (Spec.TbOf (V c main_arg2) (V c main_v0_1) (V c main_v2) (V c main_arg9)) (V c main_v4) (V c main_arg11) y) (colOf t) y (((cfg1.win 14).blk t).view.emb y) ?_ ?_).symm
  · show win1_14.index t (0 : Fin 2) * 200 + 1 * (y 0).val = 200 * (t.val % 50) + (y 0).val
    rw [e0]; omega
  · show win1_14.index t (1 : Fin 2) * 16 + 1 * (y 1).val = (y 1).val
    rw [e1]; omega

/-- An index of p2 is in point t's block iff each coordinate is in the block's range on its axis. -/
theorem mem_blk14 (t : Fin cfg1.N) (i : S10000x16.Idx) :
    i ∈ ((cfg1.win 14).blk t).view.set ↔ ∀ a : Fin 2, win1_14.index t a * S200x16.size a ≤ (i a).val ∧ (i a).val < win1_14.index t a * S200x16.size a + S200x16.size a := by
  show i ∈ ((View.whole main_v5_3).slice (win1_14.rect t)).set ↔ _
  rw [View.set_slice_whole, Rect.mem_set_unit]
  exact Iff.rfl

/-- Every row of p2 lies in the block of the phase-1 point 50 + r / 200. -/
theorem cover14 (i : S10000x16.Idx) : ∃ t : Fin cfg1.N, (cfg1.win 14).flush t = true ∧ i ∈ ((cfg1.win 14).blk t).view.set := by
  have hi0 : (i 0).val < 10000 := ValueIdx.idx2_lt0 i
  have hi1 : (i 1).val < 16 := ValueIdx.idx2_lt1 i
  have ht : (outPoint (i 0)).val = 50 + (i 0).val / 200 := rfl
  have h50 : 50 ≤ (outPoint (i 0)).val := by omega
  obtain ⟨-, -, -, -, -, -, e0, e1⟩ := rowIdx_out (outPoint (i 0))
  have e0 := e0 h50
  refine ⟨outPoint (i 0), (flush_out _).2.2.2.mpr h50, ?_⟩
  rw [mem_blk14]
  intro a
  match a with
  | ⟨0, _⟩ => show win1_14.index (outPoint (i 0)) (0 : Fin 2) * 200 ≤ (i 0).val ∧ (i 0).val < win1_14.index (outPoint (i 0)) (0 : Fin 2) * 200 + 200; rw [e0, ht]; omega
  | ⟨1, _⟩ => show win1_14.index (outPoint (i 0)) (1 : Fin 2) * 16 ≤ (i 1).val ∧ (i 1).val < win1_14.index (outPoint (i 0)) (1 : Fin 2) * 16 + 16; rw [e1]; omega

theorem arrAt1_14 (c : Dev nD) : (dat1 V c).arrAt 14 cfg1.N
    = Spec.P2Of (V c main_arg2) (Spec.TbOf (V c main_arg2) (V c main_v0_1) (V c main_v2) (V c main_arg9)) (V c main_v4) (V c main_arg11) :=
  (dat1 V c).arrAt_eq_of_cover 14 _ (flushed14_eq V c) cover14

end Cert.KernelIdeal.Hand

end
-- ==== Proof.KI.Entry.lean ====
/-
  What the main kernel's region finds in its eleven input arrays, in terms of the launch memory: the adjacency matrices
  and the weights untouched; S_a, S_b as the projection kernel left them; the four bias vectors as one-row matrices.
-/
import proofs.«150603_g79422535238402_cont_9to1c4b_784_13_alg».proof.Proof.KI.Run
import proofs.«150603_g79422535238402_cont_9to1c4b_784_13_alg».proof.Proof.KI.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the projection kernel's region, a reference that is none of its five arrays holds what the launch memory held. -/
theorem W1_of_ne (c : Dev nD) (r : Ref sig .tc) (hA : ∀ w, Pipeline.arrRef spec0 w ≠ r) :
    W1 m c (Proc.devRef .tc r) = m ((c : Thread nD τ).loc r) := by
  unfold W1; rw [Pipeline.withArrays_of_ne spec0 c _ _ r hA]; rfl

/-- and one of them, array w, holds what the kernel's write-backs left there. -/
theorem W1_arr (c : Dev nD) (w : Fin cfg0.W) :
    W1 m c (Proc.devRef .tc (Pipeline.arrRef spec0 w)) = (dat0 (Vin0 m) c).arrAt w cfg0.N := by
  unfold W1; exact Pipeline.withArrays_arr spec0 winFacts0.arr_inj c _ _ w

/-- The four reshapes write only their own results: any other reference comes through them unchanged. -/
theorem Vin1_of_not_written (c : Dev nD) (r : Ref sig .tc) (hW : r ∉ hostOps1_W) :
    Vin1 m c r = W1 m c (Proc.devRef .tc r) := by
  unfold Vin1 W2; exact StableHlo.after_of_writes_sub hostOps1 _ hostOps1_writes hW

/-- So a reference that no reshape writes and that is no array of the projection kernel reaches the main kernel's
    region as launched. -/
theorem Vin1_of_untouched (c : Dev nD) (r : Ref sig .tc) (hW : r ∉ hostOps1_W) (hA : ∀ w, Pipeline.arrRef spec0 w ≠ r) :
    Vin1 m c r = m ((c : Thread nD τ).loc r) :=
  (Vin1_of_not_written m c r hW).trans (W1_of_ne m c r hA)

/-! ## The two adjacency matrices and the three weight matrices: as launched -/

theorem Vin1_arg1 (c : Dev nD) : Vin1 m c main_arg1 = m ((c : Thread nD τ).loc main_arg1) :=
  Vin1_of_untouched m c main_arg1 (by decide) (by decide)
theorem Vin1_arg2 (c : Dev nD) : Vin1 m c main_arg2 = m ((c : Thread nD τ).loc main_arg2) :=
  Vin1_of_untouched m c main_arg2 (by decide) (by decide)
theorem Vin1_arg5 (c : Dev nD) : Vin1 m c main_arg5 = m ((c : Thread nD τ).loc main_arg5) :=
  Vin1_of_untouched m c main_arg5 (by decide) (by decide)
theorem Vin1_arg9 (c : Dev nD) : Vin1 m c main_arg9 = m ((c : Thread nD τ).loc main_arg9) :=
  Vin1_of_untouched m c main_arg9 (by decide) (by decide)
theorem Vin1_arg11 (c : Dev nD) : Vin1 m c main_arg11 = m ((c : Thread nD τ).loc main_arg11) :=
  Vin1_of_untouched m c main_arg11 (by decide) (by decide)

/-! ## S_a and S_b: the projection kernel's two result arrays (its windows 3 and 4), which no reshape writes -/

theorem Vin1_v0_0 (c : Dev nD) : Vin1 m c main_v0_0 = (dat0 (Vin0 m) c).arrAt 3 cfg0.N :=
  (Vin1_of_not_written m c main_v0_0 (by decide)).trans (W1_arr m c 3)
theorem Vin1_v0_1 (c : Dev nD) : Vin1 m c main_v0_1 = (dat0 (Vin0 m) c).arrAt 4 cfg0.N :=
  (Vin1_of_not_written m c main_v0_1 (by decide)).trans (W1_arr m c 4)

/-! ## The four bias vectors: each reshape's result is its argument, which the projection kernel does not touch, read
    as a one-row matrix; the later reshapes write other references -/

theorem Vin1_v1 (c : Dev nD) : Vin1 m c main_v1 = Spec.biasRow64 (m ((c : Thread nD τ).loc main_arg4)) := by
  unfold Vin1 W2
  after_results
  rw [W1_of_ne m c main_arg4 (by decide)]
  rfl
theorem Vin1_v2 (c : Dev nD) : Vin1 m c main_v2 = Spec.biasRow64 (m ((c : Thread nD τ).loc main_arg8)) := by
  unfold Vin1 W2
  after_results
  rw [W1_of_ne m c main_arg8 (by decide)]
  rfl
theorem Vin1_v3 (c : Dev nD) : Vin1 m c main_v3 = Spec.biasRow32 (m ((c : Thread nD τ).loc main_arg6)) := by
  unfold Vin1 W2
  after_results
  rw [W1_of_ne m c main_arg6 (by decide)]
  rfl
theorem Vin1_v4 (c : Dev nD) : Vin1 m c main_v4 = Spec.biasRow32 (m ((c : Thread nD τ).loc main_arg10)) := by
  unfold Vin1 W2
  after_results
  rw [W1_of_ne m c main_arg10 (by decide)]
  rfl

end Cert.KernelIdeal.Hand

end
-- ==== Proof.KI.Final.lean ====
/-
  The four results after the run, as the pure functions of the launch memory's argument arrays.
-/
import proofs.«150603_g79422535238402_cont_9to1c4b_784_13_alg».proof.Proof.KI.Run
import proofs.«150603_g79422535238402_cont_9to1c4b_784_13_alg».proof.Proof.KI.Value
import proofs.«150603_g79422535238402_cont_9to1c4b_784_13_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem final_x1 (c : Dev nD) : W3 m c main_v5_0 = Spec.KX1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W3_v5_0 m c, arrAt1_11 (Vin1 m) c, Vin1_arg1, Vin1_v0_0, Vin1_v1, Vin1_arg5, Vin1_v3, arrAt0_3 (Vin0 m) c]
  rfl
theorem final_x2 (c : Dev nD) : W3 m c main_v5_1 = Spec.KX2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) := by
  rw [W3_v5_1 m c, arrAt1_12 (Vin1 m) c, Vin1_arg2, Vin1_v0_1, Vin1_v2, Vin1_arg9, Vin1_v4, arrAt0_4 (Vin0 m) c]
  rfl
theorem final_p1 (c : Dev nD) : W3 m c main_v5_2 = Spec.KP1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) := by
  rw [W3_v5_2 m c, arrAt1_13 (Vin1 m) c, Vin1_arg1, Vin1_v0_0, Vin1_v1, Vin1_arg5, Vin1_v3, Vin1_arg11, arrAt0_3 (Vin0 m) c]
  rfl
theorem final_p2 (c : Dev nD) : W3 m c main_v5_3 = Spec.KP2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W3_v5_3 m c, arrAt1_14 (Vin1 m) c, Vin1_arg2, Vin1_v0_1, Vin1_v2, Vin1_arg9, Vin1_v4, Vin1_arg11, arrAt0_4 (Vin0 m) c]
  rfl

end Cert.KernelIdeal.Hand

end
-- ==== Proof.BridgeA.lean ====
/-
  Over the extended reals the kernel's four result functions ARE the reference's: both sides are the same composition
      relu(relu(A · (relu(A · (X · W1) + b1) · W2) + b2) · Wp)
  with every matrix product a plain sum of products over the contracted index; the kernel only computes the two outer
  products 200 rows at a time and changes float format in between, which is the identity here.

  This file does the first branch (A = A_s). Both sides are read at one entry (r, j) and shown to be the same nested sum
      x(r, j) = Σ_k A(r, k) · T(k, j) + b2(j),
      T(k, j) = Σ_l max(Σ_n A(k, n) · S(n, l) + b1(l), 0) · W2(l, j),
      S(n, l) = Σ_f X(n, f) · W1(f, l),
      p(r, c) = max(Σ_j max(x(r, j), 0) · Wp(j, c), 0),
  term by term: no law of arithmetic is used, only that equal indices give equal entries. The kernel reads row r as row
  r mod 200 of the block of 200 rows numbered r div 200, and 200 · (r div 200) + r mod 200 = r.
-/
import proofs.«150603_g79422535238402_cont_9to1c4b_784_13_alg».proof.Proof.KI.Spec
import proofs.«150603_g79422535238402_cont_9to1c4b_784_13_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

namespace A

/-! ## The common value: the nested sums, entry by entry -/

/-- The zero both programs clamp at (the word 0 of the 32-bit format, never evaluated). -/
abbrev z32 : EReal := Ideal.ofBits .f32 0x00000000#32

/-- S(n, l) = Σ_f X(n, f) · W1(f, l). -/
def projAt (X : (⟨2, ![10000, 128]⟩ : Shape).Idx → EReal) (W1 : (⟨2, ![128, 64]⟩ : Shape).Idx → EReal) (n : Fin 10000) (l : Fin 64) : EReal :=
  ∑ f : Fin 128, X (ix2 n f) * W1 (ix2 f l)

/-- H(k, l) = max(Σ_n A(k, n) · S(n, l) + b1(l), 0). -/
def actAt (A : (⟨2, ![10000, 10000]⟩ : Shape).Idx → EReal) (X : (⟨2, ![10000, 128]⟩ : Shape).Idx → EReal) (W1 : (⟨2, ![128, 64]⟩ : Shape).Idx → EReal)
    (b1 : (⟨1, ![64]⟩ : Shape).Idx → EReal) (k : Fin 10000) (l : Fin 64) : EReal :=
  max ((∑ n : Fin 10000, A (ix2 k n) * projAt X W1 n l) + b1 (ix1 l)) z32

/-- T(k, j) = Σ_l H(k, l) · W2(l, j). -/
def hidAt (A : (⟨2, ![10000, 10000]⟩ : Shape).Idx → EReal) (X : (⟨2, ![10000, 128]⟩ : Shape).Idx → EReal) (W1 : (⟨2, ![128, 64]⟩ : Shape).Idx → EReal)
    (b1 : (⟨1, ![64]⟩ : Shape).Idx → EReal) (W2 : (⟨2, ![64, 32]⟩ : Shape).Idx → EReal) (k : Fin 10000) (j : Fin 32) : EReal :=
  ∑ l : Fin 64, actAt A X W1 b1 k l * W2 (ix2 l j)

/-- x(r, j) = Σ_k A(r, k) · T(k, j) + b2(j). -/
def outAt (A : (⟨2, ![10000, 10000]⟩ : Shape).Idx → EReal) (X : (⟨2, ![10000, 128]⟩ : Shape).Idx → EReal) (W1 : (⟨2, ![128, 64]⟩ : Shape).Idx → EReal)
    (b1 : (⟨1, ![64]⟩ : Shape).Idx → EReal) (W2 : (⟨2, ![64, 32]⟩ : Shape).Idx → EReal) (b2 : (⟨1, ![32]⟩ : Shape).Idx → EReal) (r : Fin 10000) (j : Fin 32) : EReal :=
  (∑ k : Fin 10000, A (ix2 r k) * hidAt A X W1 b1 W2 k j) + b2 (ix1 j)

/-- p(r, c) = max(Σ_j max(x(r, j), 0) · Wp(j, c), 0). -/
def probAt (A : (⟨2, ![10000, 10000]⟩ : Shape).Idx → EReal) (X : (⟨2, ![10000, 128]⟩ : Shape).Idx → EReal) (W1 : (⟨2, ![128, 64]⟩ : Shape).Idx → EReal)
    (b1 : (⟨1, ![64]⟩ : Shape).Idx → EReal) (W2 : (⟨2, ![64, 32]⟩ : Shape).Idx → EReal) (b2 : (⟨1, ![32]⟩ : Shape).Idx → EReal)
    (Wp : (⟨2, ![32, 16]⟩ : Shape).Idx → EReal) (r : Fin 10000) (c : Fin 16) : EReal :=
  max (∑ j : Fin 32, max (outAt A X W1 b1 W2 b2 r j) z32 * Wp (ix2 j c)) z32

/-! ## The kernel's side -/

section KernelSide
open Cert.KernelIdeal Cert.KernelIdeal.Gen Cert.KernelIdeal.Spec

/-! ### Each matrix product of the kernel, read at an entry

A product into the zero accumulator is the sum over its one contracted index; the contraction's index set is matched
with the range of that index, and the two operand positions are read off coordinate by coordinate. -/

theorem lhs_proj_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_proj_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_proj_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_proj_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- X · W1 at (p, q). -/
theorem matmul_proj_apply (a : FVec Ideal S10000x128 .f32) (b : FVec Ideal S128x64 .f32) (p : Fin 10000) (q : Fin 64) :
    matmul dot_S10000x128_S128x64_S10000x64_1_0_0_1_n_n none a b (constant (F := Ideal) S10000x64 .f32 0x00000000#32) (ix2 p q)
      = ∑ k : Fin 128, a (ix2 p k) * b (ix2 k q) := by
  show FloatOps.matmul _ _ _ _ _ _ = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

theorem lhs_as_0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem lhs_as_1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
theorem rhs_as_0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
theorem rhs_as_1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl
/-- A's 200 rows times S at (p, q). -/
theorem matmul_as_apply (a : FVec Ideal S200x10000 .bf16) (b : FVec Ideal S10000x64 .bf16) (p : Fin 200) (q : Fin 64) :
    matmul dot_S200x10000_S10000x64_S200x64_1_0_0_1_n_n none a b (constant (F := Ideal) S200x64 .f32 0x00000000#32) (ix2 p q)
      = ∑ k : Fin 10000, a (ix2 p k) * b (ix2 k q) := by
  show FloatOps.matmul _ _ _ _ _ _ = _
  rw [Ideal.matmul_constant_zero_apply, ← Equiv.sum_comp (contrEquiv1 dot_S200x10000_S10000x64_S200x64_1_0_0_1_n_n 10000 rfl rfl).symm]
  refine Finset.sum_congr rfl fun k _ => ?_
  have hk := contrEquiv1_symm_val dot_S200x10000_S10000x64_S200x64_1_0_0_1_n_n 10000 rfl rfl k
  have el : dot_S200x10000_S10000x64_S200x64_1_0_0_1_n_n.lhsIdx (ix2 p q) ((contrEquiv1 dot_S200x10000_S10000x64_S200x64_1_0_0_1_n_n 10000 rfl rfl).symm k) = ix2 p k := funext fun a => Fin.ext (by
    match a with
    | ⟨0, _⟩ => exact lhs_as_0 _ _
    | ⟨1, _⟩ => exact (lhs_as_1 _ _).trans hk)
  have er : dot_S200x10000_S10000x64_S200x64_1_0_0_1_n_n.rhsIdx (ix2 p q) ((contrEquiv1 dot_S200x10000_S10000x64_S200x64_1_0_0_1_n_n 10000 rfl rfl).symm k) = ix2 k q := funext fun a => Fin.ext (by
    match a with
    | ⟨0, _⟩ => exact (rhs_as_0 _ _).trans hk
    | ⟨1, _⟩ => exact rhs_as_1 _ _)
  rw [el, er]

theorem lhs_w2_0 (i : S200x32.Idx) (q : dot_S200x64_S64x32_S200x32_1_0_0_1_n_n.contr.Idx) :
    (dot_S200x64_S64x32_S200x32_1_0_0_1_n_n.lhsIdx i q 0).val = (i 0).val := by
  unfold DotDims.lhsIdx
  rw [dif_neg (show ¬(0 : Fin S200x64.rank) ∈ dot_S200x64_S64x32_S200x32_1_0_0_1_n_n.lhsBatch by decide), dif_pos (show (0 : Fin S200x64.rank) ∈ dot_S200x64_S64x32_S200x32_1_0_0_1_n_n.lhsNonContracting by decide)]
  rfl
theorem lhs_w2_1 (i : S200x32.Idx) (q : dot_S200x64_S64x32_S200x32_1_0_0_1_n_n.contr.Idx) :
    (dot_S200x64_S64x32_S200x32_1_0_0_1_n_n.lhsIdx i q 1).val = (q ⟨0, by decide⟩).val :=
  dot_S200x64_S64x32_S200x32_1_0_0_1_n_n.lhsIdx_val_of_single rfl i q
theorem rhs_w2_0 (i : S200x32.Idx) (q : dot_S200x64_S64x32_S200x32_1_0_0_1_n_n.contr.Idx) :
    (dot_S200x64_S64x32_S200x32_1_0_0_1_n_n.rhsIdx i q 0).val = (q ⟨0, by decide⟩).val :=
  dot_S200x64_S64x32_S200x32_1_0_0_1_n_n.rhsIdx_val_of_single rfl i q
theorem rhs_w2_1 (i : S200x32.Idx) (q : dot_S200x64_S64x32_S200x32_1_0_0_1_n_n.contr.Idx) :
    (dot_S200x64_S64x32_S200x32_1_0_0_1_n_n.rhsIdx i q 1).val = (i 1).val := by
  unfold DotDims.rhsIdx
  rw [dif_neg (show ¬(1 : Fin S64x32.rank) ∈ dot_S200x64_S64x32_S200x32_1_0_0_1_n_n.rhsBatch by decide), dif_pos (show (1 : Fin S64x32.rank) ∈ dot_S200x64_S64x32_S200x32_1_0_0_1_n_n.rhsNonContracting by decide)]
  rfl
/-- The activated rows times W2 at (p, q). -/
theorem matmul_w2_apply (a : FVec Ideal S200x64 .f32) (b : FVec Ideal S64x32 .f32) (p : Fin 200) (q : Fin 32) :
    matmul dot_S200x64_S64x32_S200x32_1_0_0_1_n_n none a b (constant (F := Ideal) S200x32 .f32 0x00000000#32) (ix2 p q)
      = ∑ k : Fin 64, a (ix2 p k) * b (ix2 k q) := by
  show FloatOps.matmul _ _ _ _ _ _ = _
  rw [Ideal.matmul_constant_zero_apply, ← Equiv.sum_comp (contrEquiv1 dot_S200x64_S64x32_S200x32_1_0_0_1_n_n 64 rfl rfl).symm]
  refine Finset.sum_congr rfl fun k _ => ?_
  have hk := contrEquiv1_symm_val dot_S200x64_S64x32_S200x32_1_0_0_1_n_n 64 rfl rfl k
  have el : dot_S200x64_S64x32_S200x32_1_0_0_1_n_n.lhsIdx (ix2 p q) ((contrEquiv1 dot_S200x64_S64x32_S200x32_1_0_0_1_n_n 64 rfl rfl).symm k) = ix2 p k := funext fun a => Fin.ext (by
    match a with
    | ⟨0, _⟩ => exact lhs_w2_0 _ _
    | ⟨1, _⟩ => exact (lhs_w2_1 _ _).trans hk)
  have er : dot_S200x64_S64x32_S200x32_1_0_0_1_n_n.rhsIdx (ix2 p q) ((contrEquiv1 dot_S200x64_S64x32_S200x32_1_0_0_1_n_n 64 rfl rfl).symm k) = ix2 k q := funext fun a => Fin.ext (by
    match a with
    | ⟨0, _⟩ => exact (rhs_w2_0 _ _).trans hk
    | ⟨1, _⟩ => exact rhs_w2_1 _ _)
  rw [el, er]

theorem lhs_at_0 (i : S200x32.Idx) (q : dot_S200x10000_S10000x32_S200x32_1_0_0_1_n_n.contr.Idx) :
    (dot_S200x10000_S10000x32_S200x32_1_0_0_1_n_n.lhsIdx i q 0).val = (i 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl
theorem lhs_at_1 (i : S200x32.Idx) (q : dot_S200x10000_S10000x32_S200x32_1_0_0_1_n_n.contr.Idx) :
    (dot_S200x10000_S10000x32_S200x32_1_0_0_1_n_n.lhsIdx i q 1).val = (q ⟨0, by decide⟩).val :=
  dot_S200x10000_S10000x32_S200x32_1_0_0_1_n_n.lhsIdx_val_of_single rfl i q
theorem rhs_at_0 (i : S200x32.Idx) (q : dot_S200x10000_S10000x32_S200x32_1_0_0_1_n_n.contr.Idx) :
    (dot_S200x10000_S10000x32_S200x32_1_0_0_1_n_n.rhsIdx i q 0).val = (q ⟨0, by decide⟩).val :=
  dot_S200x10000_S10000x32_S200x32_1_0_0_1_n_n.rhsIdx_val_of_single rfl i q
theorem rhs_at_1 (i : S200x32.Idx) (q : dot_S200x10000_S10000x32_S200x32_1_0_0_1_n_n.contr.Idx) :
    (dot_S200x10000_S10000x32_S200x32_1_0_0_1_n_n.rhsIdx i q 1).val = (i 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl
/-- A's 200 rows times T at (p, q). -/
theorem matmul_at_apply (a : FVec Ideal S200x10000 .bf16) (b : FVec Ideal S10000x32 .bf16) (p : Fin 200) (q : Fin 32) :
    matmul dot_S200x10000_S10000x32_S200x32_1_0_0_1_n_n none a b (constant (F := Ideal) S200x32 .f32 0x00000000#32) (ix2 p q)
      = ∑ k : Fin 10000, a (ix2 p k) * b (ix2 k q) := by
  show FloatOps.matmul _ _ _ _ _ _ = _
  rw [Ideal.matmul_constant_zero_apply, ← Equiv.sum_comp (contrEquiv1 dot_S200x10000_S10000x32_S200x32_1_0_0_1_n_n 10000 rfl rfl).symm]
  refine Finset.sum_congr rfl fun k _ => ?_
  have hk := contrEquiv1_symm_val dot_S200x10000_S10000x32_S200x32_1_0_0_1_n_n 10000 rfl rfl k
  have el : dot_S200x10000_S10000x32_S200x32_1_0_0_1_n_n.lhsIdx (ix2 p q) ((contrEquiv1 dot_S200x10000_S10000x32_S200x32_1_0_0_1_n_n 10000 rfl rfl).symm k) = ix2 p k := funext fun a => Fin.ext (by
    match a with
    | ⟨0, _⟩ => exact lhs_at_0 _ _
    | ⟨1, _⟩ => exact (lhs_at_1 _ _).trans hk)
  have er : dot_S200x10000_S10000x32_S200x32_1_0_0_1_n_n.rhsIdx (ix2 p q) ((contrEquiv1 dot_S200x10000_S10000x32_S200x32_1_0_0_1_n_n 10000 rfl rfl).symm k) = ix2 k q := funext fun a => Fin.ext (by
    match a with
    | ⟨0, _⟩ => exact (rhs_at_0 _ _).trans hk
    | ⟨1, _⟩ => exact rhs_at_1 _ _)
  rw [el, er]

theorem lhs_wp_0 (i : S200x16.Idx) (q : dot_S200x32_S32x16_S200x16_1_0_0_1_n_n.contr.Idx) :
    (dot_S200x32_S32x16_S200x16_1_0_0_1_n_n.lhsIdx i q 0).val = (i 0).val := by
  unfold DotDims.lhsIdx
  rw [dif_neg (show ¬(0 : Fin S200x32.rank) ∈ dot_S200x32_S32x16_S200x16_1_0_0_1_n_n.lhsBatch by decide), dif_pos (show (0 : Fin S200x32.rank) ∈ dot_S200x32_S32x16_S200x16_1_0_0_1_n_n.lhsNonContracting by decide)]
  rfl
theorem lhs_wp_1 (i : S200x16.Idx) (q : dot_S200x32_S32x16_S200x16_1_0_0_1_n_n.contr.Idx) :
    (dot_S200x32_S32x16_S200x16_1_0_0_1_n_n.lhsIdx i q 1).val = (q ⟨0, by decide⟩).val :=
  dot_S200x32_S32x16_S200x16_1_0_0_1_n_n.lhsIdx_val_of_single rfl i q
theorem rhs_wp_0 (i : S200x16.Idx) (q : dot_S200x32_S32x16_S200x16_1_0_0_1_n_n.contr.Idx) :
    (dot_S200x32_S32x16_S200x16_1_0_0_1_n_n.rhsIdx i q 0).val = (q ⟨0, by decide⟩).val :=
  dot_S200x32_S32x16_S200x16_1_0_0_1_n_n.rhsIdx_val_of_single rfl i q
theorem rhs_wp_1 (i : S200x16.Idx) (q : dot_S200x32_S32x16_S200x16_1_0_0_1_n_n.contr.Idx) :
    (dot_S200x32_S32x16_S200x16_1_0_0_1_n_n.rhsIdx i q 1).val = (i 1).val := by
  unfold DotDims.rhsIdx
  rw [dif_neg (show ¬(1 : Fin S32x16.rank) ∈ dot_S200x32_S32x16_S200x16_1_0_0_1_n_n.rhsBatch by decide), dif_pos (show (1 : Fin S32x16.rank) ∈ dot_S200x32_S32x16_S200x16_1_0_0_1_n_n.rhsNonContracting by decide)]
  rfl
/-- The clamped rows times Wp at (p, q). -/
theorem matmul_wp_apply (a : FVec Ideal S200x32 .f32) (b : FVec Ideal S32x16 .f32) (p : Fin 200) (q : Fin 16) :
    matmul dot_S200x32_S32x16_S200x16_1_0_0_1_n_n none a b (constant (F := Ideal) S200x16 .f32 0x00000000#32) (ix2 p q)
      = ∑ k : Fin 32, a (ix2 p k) * b (ix2 k q) := by
  show FloatOps.matmul _ _ _ _ _ _ = _
  rw [Ideal.matmul_constant_zero_apply, ← Equiv.sum_comp (contrEquiv1 dot_S200x32_S32x16_S200x16_1_0_0_1_n_n 32 rfl rfl).symm]
  refine Finset.sum_congr rfl fun k _ => ?_
  have hk := contrEquiv1_symm_val dot_S200x32_S32x16_S200x16_1_0_0_1_n_n 32 rfl rfl k
  have el : dot_S200x32_S32x16_S200x16_1_0_0_1_n_n.lhsIdx (ix2 p q) ((contrEquiv1 dot_S200x32_S32x16_S200x16_1_0_0_1_n_n 32 rfl rfl).symm k) = ix2 p k := funext fun a => Fin.ext (by
    match a with
    | ⟨0, _⟩ => exact lhs_wp_0 _ _
    | ⟨1, _⟩ => exact (lhs_wp_1 _ _).trans hk)
  have er : dot_S200x32_S32x16_S200x16_1_0_0_1_n_n.rhsIdx (ix2 p q) ((contrEquiv1 dot_S200x32_S32x16_S200x16_1_0_0_1_n_n 32 rfl rfl).symm k) = ix2 k q := funext fun a => Fin.ext (by
    match a with
    | ⟨0, _⟩ => exact (rhs_wp_0 _ _).trans hk
    | ⟨1, _⟩ => exact rhs_wp_1 _ _)
  rw [el, er]

/-! ### The payloads at an entry -/

/-- The projection kernel's result: S(p, q) = Σ_k X(p, k) · W1(k, q); the change of format is the identity. -/
theorem k0_pay1_apply (v0 : FVec Ideal S10000x128 .f32) (v1 : FVec Ideal S128x64 .f32) (p : Fin 10000) (q : Fin 64) :
    k0_pay1 (F := Ideal) v0 v1 (ix2 p q) = ∑ k : Fin 128, v0 (ix2 p k) * v1 (ix2 k q) := by
  unfold k0_pay1
  show (truncf .bf16 (matmul dot_S10000x128_S128x64_S10000x64_1_0_0_1_n_n none v0 v1 (constant (F := Ideal) S10000x64 .f32 0x00000000#32)) _) (ix2 p q) = _
  rw [truncf_apply, matmul_proj_apply]

/-- The 200 rows of A in the narrow format are the same 200 rows. -/
theorem k1_pay1_apply (v1 : FVec Ideal S200x10000 .f32) (p : Fin 200) (k : Fin 10000) :
    k1_pay1 (F := Ideal) v1 (ix2 p k) = v1 (ix2 p k) := rfl

/-- A block of T: T(p, q) = Σ_l max(Σ_n A(p, n) · S(n, l) + b1(0, l), 0) · W2(l, q). -/
theorem k1_pay3_apply (v1 : FVec Ideal S200x10000 .f32) (v11 : FVec Ideal S10000x64 .bf16) (v14 : FVec Ideal S1x64 .f32) (v20 : FVec Ideal S64x32 .f32)
    (p : Fin 200) (q : Fin 32) :
    k1_pay3 (F := Ideal) v1 v11 v14 v20 (ix2 p q)
      = ∑ l : Fin 64, max ((∑ n : Fin 10000, v1 (ix2 p n) * v11 (ix2 n l)) + v14 (ix2 (0 : Fin 1) l)) z32 * v20 (ix2 l q) := by
  unfold k1_pay3
  rw [shapeCast_self, matmul_w2_apply]
  refine Finset.sum_congr rfl fun l _ => ?_
  rw [maximumf_apply, addf_apply, matmul_as_apply, broadcastTo_1b_ab_apply, shapeCast_self, shapeCast_self, broadcast_apply]
  rfl

/-- A block of x: x(p, q) = Σ_k A(p, k) · T(k, q) + b2(0, q). -/
theorem k1_pay5_apply (v2 : FVec Ideal S200x10000 .bf16) (v11 : FVec Ideal S10000x32 .f32) (v14 : FVec Ideal S1x32 .f32) (p : Fin 200) (q : Fin 32) :
    k1_pay5 (F := Ideal) v2 v11 v14 (ix2 p q) = (∑ k : Fin 10000, v2 (ix2 p k) * v11 (ix2 k q)) + v14 (ix2 (0 : Fin 1) q) := by
  unfold k1_pay5
  rw [addf_apply, matmul_at_apply, broadcastTo_1b_ab_apply, shapeCast_self]
  rfl

/-- A block of p: p(p, q) = max(Σ_j max(x(p, j), 0) · Wp(j, q), 0). -/
theorem k1_pay6_apply (v2 : FVec Ideal S200x10000 .bf16) (v11 : FVec Ideal S10000x32 .f32) (v14 : FVec Ideal S1x32 .f32) (v21 : FVec Ideal S32x16 .f32)
    (p : Fin 200) (q : Fin 16) :
    k1_pay6 (F := Ideal) v2 v11 v14 v21 (ix2 p q)
      = max (∑ j : Fin 32, max (k1_pay5 (F := Ideal) v2 v11 v14 (ix2 p j)) z32 * v21 (ix2 j q)) z32 := by
  unfold k1_pay6
  rw [maximumf_apply, matmul_wp_apply, broadcast_apply]
  rfl

/-! ### Rows and biases -/

/-- Row r of A is row r mod 200 of its block of 200 rows. -/
theorem rowsOf_row (a : FVec Ideal S10000x10000 .f32) (r : Fin 10000) (k : Fin 10000) :
    rowsOf (F := Ideal) a (rowBlock r) (ix2 (rowIn r) k) = a (ix2 r k) := by
  unfold rowsOf
  exact congrArg a (Shape.idx_ext₂ (Nat.div_add_mod r.val 200) rfl)

/-- A bias as a one-row matrix reads the bias. -/
theorem biasRow64_apply (v : FVec Ideal S64 .f32) (l : Fin 64) : biasRow64 (F := Ideal) v (ix2 (0 : Fin 1) l) = v (ix1 l) := by
  unfold biasRow64
  exact shapeCast_a_1a_apply v _ 0 l
theorem biasRow32_apply (v : FVec Ideal S32 .f32) (j : Fin 32) : biasRow32 (F := Ideal) v (ix2 (0 : Fin 1) j) = v (ix1 j) := by
  unfold biasRow32
  exact shapeCast_a_1a_apply v _ 0 j

/-! ### The kernel's results at an entry -/

theorem ker_T_at (x0 : FVec Ideal S10000x128 .f32) (x1 : FVec Ideal S10000x10000 .f32) (x3 : FVec Ideal S128x64 .f32) (x4 : FVec Ideal S64 .f32)
    (x5 : FVec Ideal S64x32 .f32) (k : Fin 10000) (j : Fin 32) :
    TaOf (F := Ideal) x1 (k0_pay1 (F := Ideal) x0 x3) (biasRow64 (F := Ideal) x4) x5 (ix2 k j) = hidAt x1 x0 x3 x4 x5 k j := by
  show k1_pay3 (F := Ideal) (rowsOf (F := Ideal) x1 (rowBlock k)) (k0_pay1 (F := Ideal) x0 x3) (biasRow64 (F := Ideal) x4) x5 (ix2 (rowIn k) j) = _
  rw [k1_pay3_apply]
  unfold hidAt actAt
  refine Finset.sum_congr rfl fun l _ => ?_
  rw [biasRow64_apply]
  have hs : ∑ n : Fin 10000, rowsOf (F := Ideal) x1 (rowBlock k) (ix2 (rowIn k) n) * k0_pay1 (F := Ideal) x0 x3 (ix2 n l)
      = ∑ n : Fin 10000, x1 (ix2 k n) * projAt x0 x3 n l :=
    Finset.sum_congr rfl fun n _ => by rw [rowsOf_row, k0_pay1_apply]; rfl
  rw [hs]

theorem ker_X_at (x0 : FVec Ideal S10000x128 .f32) (x1 : FVec Ideal S10000x10000 .f32) (x3 : FVec Ideal S128x64 .f32) (x4 : FVec Ideal S64 .f32)
    (x5 : FVec Ideal S64x32 .f32) (x6 : FVec Ideal S32 .f32) (r : Fin 10000) (j : Fin 32) :
    KX1 (F := Ideal) x0 x1 x3 x4 x5 x6 (ix2 r j) = outAt x1 x0 x3 x4 x5 x6 r j := by
  show k1_pay5 (F := Ideal) (k1_pay1 (F := Ideal) (rowsOf (F := Ideal) x1 (rowBlock r)))
      (TaOf (F := Ideal) x1 (k0_pay1 (F := Ideal) x0 x3) (biasRow64 (F := Ideal) x4) x5) (biasRow32 (F := Ideal) x6) (ix2 (rowIn r) j) = _
  rw [k1_pay5_apply, biasRow32_apply]
  unfold outAt
  have hs : ∑ k : Fin 10000, k1_pay1 (F := Ideal) (rowsOf (F := Ideal) x1 (rowBlock r)) (ix2 (rowIn r) k)
        * TaOf (F := Ideal) x1 (k0_pay1 (F := Ideal) x0 x3) (biasRow64 (F := Ideal) x4) x5 (ix2 k j)
      = ∑ k : Fin 10000, x1 (ix2 r k) * hidAt x1 x0 x3 x4 x5 k j :=
    Finset.sum_congr rfl fun k _ => by rw [k1_pay1_apply, rowsOf_row, ker_T_at]
  rw [hs]

theorem ker_P_at (x0 : FVec Ideal S10000x128 .f32) (x1 : FVec Ideal S10000x10000 .f32) (x3 : FVec Ideal S128x64 .f32) (x4 : FVec Ideal S64 .f32)
    (x5 : FVec Ideal S64x32 .f32) (x6 : FVec Ideal S32 .f32) (x11 : FVec Ideal S32x16 .f32) (r : Fin 10000) (c : Fin 16) :
    KP1 (F := Ideal) x0 x1 x3 x4 x5 x6 x11 (ix2 r c) = probAt x1 x0 x3 x4 x5 x6 x11 r c := by
  show k1_pay6 (F := Ideal) (k1_pay1 (F := Ideal) (rowsOf (F := Ideal) x1 (rowBlock r)))
      (TaOf (F := Ideal) x1 (k0_pay1 (F := Ideal) x0 x3) (biasRow64 (F := Ideal) x4) x5) (biasRow32 (F := Ideal) x6) x11 (ix2 (rowIn r) c) = _
  rw [k1_pay6_apply]
  unfold probAt
  have hs : ∑ j : Fin 32, max (k1_pay5 (F := Ideal) (k1_pay1 (F := Ideal) (rowsOf (F := Ideal) x1 (rowBlock r)))
          (TaOf (F := Ideal) x1 (k0_pay1 (F := Ideal) x0 x3) (biasRow64 (F := Ideal) x4) x5) (biasRow32 (F := Ideal) x6) (ix2 (rowIn r) j)) z32 * x11 (ix2 j c)
      = ∑ j : Fin 32, max (outAt x1 x0 x3 x4 x5 x6 r j) z32 * x11 (ix2 j c) :=
    Finset.sum_congr rfl fun j _ => by rw [← ker_X_at]; rfl
  rw [hs]

end KernelSide

/-! ## The reference's side -/

section ReferenceSide
open Cert.ReferenceIdeal Cert.ReferenceIdeal.Read

/-- X · W1 at (n, l). -/
theorem ref_S_at (x0 : (⟨S10000x128, .f32⟩ : BufTy).Contents (Elt Ideal)) (x3 : (⟨S128x64, .f32⟩ : BufTy).Contents (Elt Ideal)) (n : Fin 10000) (l : Fin 64) :
    val_main_v0 (F := Ideal) x0 x3 (ix2 n l) = projAt x0 x3 n l := by
  rw [val_main_v0_apply]
  unfold projAt
  refine Finset.sum_congr rfl fun f _ => ?_
  have el : lidx_main_v0 (ix2 n l) f = ix2 n f := Shape.idx_ext₂ rfl rfl
  have er : ridx_main_v0 (ix2 n l) f = ix2 f l := Shape.idx_ext₂ rfl rfl
  rw [el, er]

/-- A · (X · W1) at (k, l). -/
theorem ref_AS_at (x0 : (⟨S10000x128, .f32⟩ : BufTy).Contents (Elt Ideal)) (x1 : (⟨S10000x10000, .f32⟩ : BufTy).Contents (Elt Ideal)) (x3 : (⟨S128x64, .f32⟩ : BufTy).Contents (Elt Ideal)) (k : Fin 10000) (l : Fin 64) :
    val_main_v1 (F := Ideal) x0 x1 x3 (ix2 k l) = ∑ n : Fin 10000, x1 (ix2 k n) * projAt x0 x3 n l := by
  rw [val_main_v1_apply]
  refine Finset.sum_congr rfl fun n _ => ?_
  have el : lidx_main_v1 (ix2 k l) n = ix2 k n := Shape.idx_ext₂ rfl rfl
  have er : ridx_main_v1 (ix2 k l) n = ix2 n l := Shape.idx_ext₂ rfl rfl
  rw [el, er, ref_S_at]

/-- relu(A · (X · W1) + b1) at (k, l): the bias is broadcast along the rows, the clamp is at the zero word. -/
theorem ref_H_at (x0 : (⟨S10000x128, .f32⟩ : BufTy).Contents (Elt Ideal)) (x1 : (⟨S10000x10000, .f32⟩ : BufTy).Contents (Elt Ideal)) (x3 : (⟨S128x64, .f32⟩ : BufTy).Contents (Elt Ideal)) (x4 : (⟨S64, .f32⟩ : BufTy).Contents (Elt Ideal)) (k : Fin 10000) (l : Fin 64) :
    val_main_v5 (F := Ideal) x0 x1 x3 x4 (ix2 k l) = actAt x1 x0 x3 x4 k l := by
  rw [val_main_v5_apply, val_main_v4_apply, ref_AS_at, val_main_v3_apply, val_main_v2_apply, val_main_call0_v0_apply, val_main_call0_cst_apply]
  have eb : idx_main_v2 (idx_main_v3 (ix2 k l)) = ix1 l := funext fun a => by match a with | ⟨0, _⟩ => rfl
  rw [eb]
  rfl

/-- relu(…) · W2 at (k, j). -/
theorem ref_T_at (x0 : (⟨S10000x128, .f32⟩ : BufTy).Contents (Elt Ideal)) (x1 : (⟨S10000x10000, .f32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (k : Fin 10000) (j : Fin 32) :
    val_main_v6 (F := Ideal) x0 x1 x3 x4 x5 (ix2 k j) = hidAt x1 x0 x3 x4 x5 k j := by
  rw [val_main_v6_apply]
  unfold hidAt
  refine Finset.sum_congr rfl fun l _ => ?_
  have el : lidx_main_v6 (ix2 k j) l = ix2 k l := Shape.idx_ext₂ rfl rfl
  have er : ridx_main_v6 (ix2 k j) l = ix2 l j := Shape.idx_ext₂ rfl rfl
  rw [el, er, ref_H_at]

/-- A · T + b2 at (r, j). -/
theorem ref_X_at (x0 : (⟨S10000x128, .f32⟩ : BufTy).Contents (Elt Ideal)) (x1 : (⟨S10000x10000, .f32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (r : Fin 10000) (j : Fin 32) :
    val_main_v10 (F := Ideal) x0 x1 x3 x4 x5 x6 (ix2 r j) = outAt x1 x0 x3 x4 x5 x6 r j := by
  rw [val_main_v10_apply, val_main_v7_apply, val_main_v9_apply, val_main_v8_apply]
  have eb : idx_main_v8 (idx_main_v9 (ix2 r j)) = ix1 j := funext fun a => by match a with | ⟨0, _⟩ => rfl
  have hs : ∑ k : Fin 10000, x1 (lidx_main_v7 (ix2 r j) k) * val_main_v6 (F := Ideal) x0 x1 x3 x4 x5 (ridx_main_v7 (ix2 r j) k)
      = ∑ k : Fin 10000, x1 (ix2 r k) * hidAt x1 x0 x3 x4 x5 k j :=
    Finset.sum_congr rfl fun k _ => by
      have el : lidx_main_v7 (ix2 r j) k = ix2 r k := Shape.idx_ext₂ rfl rfl
      have er : ridx_main_v7 (ix2 r j) k = ix2 k j := Shape.idx_ext₂ rfl rfl
      rw [el, er, ref_T_at]
  rw [eb, hs]
  rfl

/-- relu(relu(x) · Wp) at (r, c). -/
theorem ref_P_at (x0 : (⟨S10000x128, .f32⟩ : BufTy).Contents (Elt Ideal)) (x1 : (⟨S10000x10000, .f32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x11 : (⟨S32x16, .f32⟩ : BufTy).Contents (Elt Ideal)) (r : Fin 10000) (c : Fin 16) :
    val_main_v24 (F := Ideal) x0 x1 x3 x4 x5 x6 x11 (ix2 r c) = probAt x1 x0 x3 x4 x5 x6 x11 r c := by
  rw [val_main_v24_apply, val_main_v23_apply, val_main_call3_v0_apply, val_main_call3_cst_apply]
  have hs : ∑ j : Fin 32, val_main_v22 (F := Ideal) x0 x1 x3 x4 x5 x6 (lidx_main_v23 (ix2 r c) j) * x11 (ridx_main_v23 (ix2 r c) j)
      = ∑ j : Fin 32, max (outAt x1 x0 x3 x4 x5 x6 r j) z32 * x11 (ix2 j c) :=
    Finset.sum_congr rfl fun j _ => by
      have el : lidx_main_v23 (ix2 r c) j = ix2 r j := Shape.idx_ext₂ rfl rfl
      have er : ridx_main_v23 (ix2 r c) j = ix2 j c := Shape.idx_ext₂ rfl rfl
      rw [el, er, val_main_v22_apply, ref_X_at, val_main_call2_v0_apply, val_main_call2_cst_apply]
      rfl
  rw [hs]
  rfl

end ReferenceSide

end A

open A

/-! ## The two sides agree -/

theorem x1_eq (x0 : (⟨Cert.ReferenceIdeal.S10000x128, .f32⟩ : BufTy).Contents (Elt Ideal)) (x1 : (⟨Cert.ReferenceIdeal.S10000x10000, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) :
    Cert.KernelIdeal.Spec.KX1 (F := Ideal) x0 x1 x3 x4 x5 x6 = Cert.ReferenceIdeal.Read.val_main_v10 (F := Ideal) x0 x1 x3 x4 x5 x6 := by
  funext i
  obtain ⟨r, j, rfl⟩ : ∃ (r : Fin 10000) (j : Fin 32), i = ix2 r j := ⟨i 0, i 1, eq_ix2 i⟩
  exact (ker_X_at x0 x1 x3 x4 x5 x6 r j).trans (ref_X_at x0 x1 x3 x4 x5 x6 r j).symm
theorem p1_eq (x0 : (⟨Cert.ReferenceIdeal.S10000x128, .f32⟩ : BufTy).Contents (Elt Ideal)) (x1 : (⟨Cert.ReferenceIdeal.S10000x10000, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x11 : (⟨Cert.ReferenceIdeal.S32x16, .f32⟩ : BufTy).Contents (Elt Ideal)) :
    Cert.KernelIdeal.Spec.KP1 (F := Ideal) x0 x1 x3 x4 x5 x6 x11 = Cert.ReferenceIdeal.Read.val_main_v24 (F := Ideal) x0 x1 x3 x4 x5 x6 x11 := by
  funext i
  obtain ⟨r, c, rfl⟩ : ∃ (r : Fin 10000) (c : Fin 16), i = ix2 r c := ⟨i 0, i 1, eq_ix2 i⟩
  exact (ker_P_at x0 x1 x3 x4 x5 x6 x11 r c).trans (ref_P_at x0 x1 x3 x4 x5 x6 x11 r c).symm
end Cert.Bridge

end
-- ==== Proof.BridgeB.lean ====
/-
  Over the extended reals the kernel's four result functions ARE the reference's: both sides are the same composition
      relu(relu(A · (relu(A · (X · W1) + b1) · W2) + b2) · Wp)
  with every matrix product a plain sum of products over the contracted index; the kernel only computes the two outer
  products 200 rows at a time and changes float format in between, which is the identity here.
-/
import proofs.«150603_g79422535238402_cont_9to1c4b_784_13_alg».proof.Proof.KI.Spec
import proofs.«150603_g79422535238402_cont_9to1c4b_784_13_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value

noncomputable section

namespace Cert.Bridge.Second

open Idealize.ShloMosaic Cert.KernelIdeal Cert.KernelIdeal.Gen Cert.KernelIdeal.Spec

open ValueIdx (ix1 ix2)

/-! ## The five matrix products, each read at a row and a column

Every product the kernel takes is rows × contraction by contraction × columns into a zero accumulator; at row p and
column q it is the sum, over the contracted place k, of the left factor at (p, k) times the right factor at (k, q). -/

/-! ### 10000 × 128 by 128 × 64 -/

theorem lhs_proj_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_proj_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_proj_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_proj_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem matmul_proj_apply {φ₁ φ₂ : FTy} (l : FVec Ideal S10000x128 φ₁) (r : FVec Ideal S128x64 φ₂) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! ### 200 × 10000 by 10000 × 64 -/

theorem lhs_gath64_0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem lhs_gath64_1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
theorem rhs_gath64_0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
theorem rhs_gath64_1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

theorem matmul_gath64_apply {φ₁ φ₂ : FTy} (l : FVec Ideal S200x10000 φ₁) (r : FVec Ideal S10000x64 φ₂) (p : Fin 200) (q : Fin 64) :
    matmul dot_S200x10000_S10000x64_S200x64_1_0_0_1_n_n none l r (constant (F := Ideal) S200x64 .f32 0x00000000#32) (ix2 p q)
      = ∑ k : Fin 10000, l (ix2 p k) * r (ix2 k q) := by
  simp only [matmul]
  rw [Ideal.matmul_constant_zero_apply, ← Equiv.sum_comp (ValueIdx.contrEquiv1 dot_S200x10000_S10000x64_S200x64_1_0_0_1_n_n 10000 rfl rfl).symm]
  refine Finset.sum_congr rfl fun k _ => ?_
  have hk := ValueIdx.contrEquiv1_symm_val dot_S200x10000_S10000x64_S200x64_1_0_0_1_n_n 10000 rfl rfl k
  have el : dot_S200x10000_S10000x64_S200x64_1_0_0_1_n_n.lhsIdx (ix2 p q) ((ValueIdx.contrEquiv1 dot_S200x10000_S10000x64_S200x64_1_0_0_1_n_n 10000 rfl rfl).symm k) = ix2 p k := funext fun a => Fin.ext (by
    match a with
    | ⟨0, _⟩ => exact lhs_gath64_0 _ _
    | ⟨1, _⟩ => exact (lhs_gath64_1 _ _).trans hk)
  have er : dot_S200x10000_S10000x64_S200x64_1_0_0_1_n_n.rhsIdx (ix2 p q) ((ValueIdx.contrEquiv1 dot_S200x10000_S10000x64_S200x64_1_0_0_1_n_n 10000 rfl rfl).symm k) = ix2 k q := funext fun a => Fin.ext (by
    match a with
    | ⟨0, _⟩ => exact (rhs_gath64_0 _ _).trans hk
    | ⟨1, _⟩ => exact rhs_gath64_1 _ _)
  rw [el, er]

/-! ### 200 × 64 by 64 × 32 -/

theorem lhs_mix_0 (i : S200x32.Idx) (q : dot_S200x64_S64x32_S200x32_1_0_0_1_n_n.contr.Idx) :
    (dot_S200x64_S64x32_S200x32_1_0_0_1_n_n.lhsIdx i q 0).val = (i 0).val := by
  unfold DotDims.lhsIdx
  rw [dif_neg (show ¬(0 : Fin S200x64.rank) ∈ dot_S200x64_S64x32_S200x32_1_0_0_1_n_n.lhsBatch by decide), dif_pos (show (0 : Fin S200x64.rank) ∈ dot_S200x64_S64x32_S200x32_1_0_0_1_n_n.lhsNonContracting by decide)]
  rfl
theorem lhs_mix_1 (i : S200x32.Idx) (q : dot_S200x64_S64x32_S200x32_1_0_0_1_n_n.contr.Idx) :
    (dot_S200x64_S64x32_S200x32_1_0_0_1_n_n.lhsIdx i q 1).val = (q ⟨0, by decide⟩).val :=
  dot_S200x64_S64x32_S200x32_1_0_0_1_n_n.lhsIdx_val_of_single rfl i q
theorem rhs_mix_0 (i : S200x32.Idx) (q : dot_S200x64_S64x32_S200x32_1_0_0_1_n_n.contr.Idx) :
    (dot_S200x64_S64x32_S200x32_1_0_0_1_n_n.rhsIdx i q 0).val = (q ⟨0, by decide⟩).val :=
  dot_S200x64_S64x32_S200x32_1_0_0_1_n_n.rhsIdx_val_of_single rfl i q
theorem rhs_mix_1 (i : S200x32.Idx) (q : dot_S200x64_S64x32_S200x32_1_0_0_1_n_n.contr.Idx) :
    (dot_S200x64_S64x32_S200x32_1_0_0_1_n_n.rhsIdx i q 1).val = (i 1).val := by
  unfold DotDims.rhsIdx
  rw [dif_neg (show ¬(1 : Fin S64x32.rank) ∈ dot_S200x64_S64x32_S200x32_1_0_0_1_n_n.rhsBatch by decide), dif_pos (show (1 : Fin S64x32.rank) ∈ dot_S200x64_S64x32_S200x32_1_0_0_1_n_n.rhsNonContracting by decide)]
  rfl

theorem matmul_mix_apply {φ₁ φ₂ : FTy} (l : FVec Ideal S200x64 φ₁) (r : FVec Ideal S64x32 φ₂) (p : Fin 200) (q : Fin 32) :
    matmul dot_S200x64_S64x32_S200x32_1_0_0_1_n_n none l r (constant (F := Ideal) S200x32 .f32 0x00000000#32) (ix2 p q)
      = ∑ k : Fin 64, l (ix2 p k) * r (ix2 k q) := by
  simp only [matmul]
  rw [Ideal.matmul_constant_zero_apply, ← Equiv.sum_comp (ValueIdx.contrEquiv1 dot_S200x64_S64x32_S200x32_1_0_0_1_n_n 64 rfl rfl).symm]
  refine Finset.sum_congr rfl fun k _ => ?_
  have hk := ValueIdx.contrEquiv1_symm_val dot_S200x64_S64x32_S200x32_1_0_0_1_n_n 64 rfl rfl k
  have el : dot_S200x64_S64x32_S200x32_1_0_0_1_n_n.lhsIdx (ix2 p q) ((ValueIdx.contrEquiv1 dot_S200x64_S64x32_S200x32_1_0_0_1_n_n 64 rfl rfl).symm k) = ix2 p k := funext fun a => Fin.ext (by
    match a with
    | ⟨0, _⟩ => exact lhs_mix_0 _ _
    | ⟨1, _⟩ => exact (lhs_mix_1 _ _).trans hk)
  have er : dot_S200x64_S64x32_S200x32_1_0_0_1_n_n.rhsIdx (ix2 p q) ((ValueIdx.contrEquiv1 dot_S200x64_S64x32_S200x32_1_0_0_1_n_n 64 rfl rfl).symm k) = ix2 k q := funext fun a => Fin.ext (by
    match a with
    | ⟨0, _⟩ => exact (rhs_mix_0 _ _).trans hk
    | ⟨1, _⟩ => exact rhs_mix_1 _ _)
  rw [el, er]

/-! ### 200 × 10000 by 10000 × 32 -/

theorem lhs_gath32_0 (i : S200x32.Idx) (q : dot_S200x10000_S10000x32_S200x32_1_0_0_1_n_n.contr.Idx) :
    (dot_S200x10000_S10000x32_S200x32_1_0_0_1_n_n.lhsIdx i q 0).val = (i 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl
theorem lhs_gath32_1 (i : S200x32.Idx) (q : dot_S200x10000_S10000x32_S200x32_1_0_0_1_n_n.contr.Idx) :
    (dot_S200x10000_S10000x32_S200x32_1_0_0_1_n_n.lhsIdx i q 1).val = (q ⟨0, by decide⟩).val :=
  dot_S200x10000_S10000x32_S200x32_1_0_0_1_n_n.lhsIdx_val_of_single rfl i q
theorem rhs_gath32_0 (i : S200x32.Idx) (q : dot_S200x10000_S10000x32_S200x32_1_0_0_1_n_n.contr.Idx) :
    (dot_S200x10000_S10000x32_S200x32_1_0_0_1_n_n.rhsIdx i q 0).val = (q ⟨0, by decide⟩).val :=
  dot_S200x10000_S10000x32_S200x32_1_0_0_1_n_n.rhsIdx_val_of_single rfl i q
theorem rhs_gath32_1 (i : S200x32.Idx) (q : dot_S200x10000_S10000x32_S200x32_1_0_0_1_n_n.contr.Idx) :
    (dot_S200x10000_S10000x32_S200x32_1_0_0_1_n_n.rhsIdx i q 1).val = (i 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl

theorem matmul_gath32_apply {φ₁ φ₂ : FTy} (l : FVec Ideal S200x10000 φ₁) (r : FVec Ideal S10000x32 φ₂) (p : Fin 200) (q : Fin 32) :
    matmul dot_S200x10000_S10000x32_S200x32_1_0_0_1_n_n none l r (constant (F := Ideal) S200x32 .f32 0x00000000#32) (ix2 p q)
      = ∑ k : Fin 10000, l (ix2 p k) * r (ix2 k q) := by
  simp only [matmul]
  rw [Ideal.matmul_constant_zero_apply, ← Equiv.sum_comp (ValueIdx.contrEquiv1 dot_S200x10000_S10000x32_S200x32_1_0_0_1_n_n 10000 rfl rfl).symm]
  refine Finset.sum_congr rfl fun k _ => ?_
  have hk := ValueIdx.contrEquiv1_symm_val dot_S200x10000_S10000x32_S200x32_1_0_0_1_n_n 10000 rfl rfl k
  have el : dot_S200x10000_S10000x32_S200x32_1_0_0_1_n_n.lhsIdx (ix2 p q) ((ValueIdx.contrEquiv1 dot_S200x10000_S10000x32_S200x32_1_0_0_1_n_n 10000 rfl rfl).symm k) = ix2 p k := funext fun a => Fin.ext (by
    match a with
    | ⟨0, _⟩ => exact lhs_gath32_0 _ _
    | ⟨1, _⟩ => exact (lhs_gath32_1 _ _).trans hk)
  have er : dot_S200x10000_S10000x32_S200x32_1_0_0_1_n_n.rhsIdx (ix2 p q) ((ValueIdx.contrEquiv1 dot_S200x10000_S10000x32_S200x32_1_0_0_1_n_n 10000 rfl rfl).symm k) = ix2 k q := funext fun a => Fin.ext (by
    match a with
    | ⟨0, _⟩ => exact (rhs_gath32_0 _ _).trans hk
    | ⟨1, _⟩ => exact rhs_gath32_1 _ _)
  rw [el, er]

/-! ### 200 × 32 by 32 × 16 -/

theorem lhs_pool_0 (i : S200x16.Idx) (q : dot_S200x32_S32x16_S200x16_1_0_0_1_n_n.contr.Idx) :
    (dot_S200x32_S32x16_S200x16_1_0_0_1_n_n.lhsIdx i q 0).val = (i 0).val := by
  unfold DotDims.lhsIdx
  rw [dif_neg (show ¬(0 : Fin S200x32.rank) ∈ dot_S200x32_S32x16_S200x16_1_0_0_1_n_n.lhsBatch by decide), dif_pos (show (0 : Fin S200x32.rank) ∈ dot_S200x32_S32x16_S200x16_1_0_0_1_n_n.lhsNonContracting by decide)]
  rfl
theorem lhs_pool_1 (i : S200x16.Idx) (q : dot_S200x32_S32x16_S200x16_1_0_0_1_n_n.contr.Idx) :
    (dot_S200x32_S32x16_S200x16_1_0_0_1_n_n.lhsIdx i q 1).val = (q ⟨0, by decide⟩).val :=
  dot_S200x32_S32x16_S200x16_1_0_0_1_n_n.lhsIdx_val_of_single rfl i q
theorem rhs_pool_0 (i : S200x16.Idx) (q : dot_S200x32_S32x16_S200x16_1_0_0_1_n_n.contr.Idx) :
    (dot_S200x32_S32x16_S200x16_1_0_0_1_n_n.rhsIdx i q 0).val = (q ⟨0, by decide⟩).val :=
  dot_S200x32_S32x16_S200x16_1_0_0_1_n_n.rhsIdx_val_of_single rfl i q
theorem rhs_pool_1 (i : S200x16.Idx) (q : dot_S200x32_S32x16_S200x16_1_0_0_1_n_n.contr.Idx) :
    (dot_S200x32_S32x16_S200x16_1_0_0_1_n_n.rhsIdx i q 1).val = (i 1).val := by
  unfold DotDims.rhsIdx
  rw [dif_neg (show ¬(1 : Fin S32x16.rank) ∈ dot_S200x32_S32x16_S200x16_1_0_0_1_n_n.rhsBatch by decide), dif_pos (show (1 : Fin S32x16.rank) ∈ dot_S200x32_S32x16_S200x16_1_0_0_1_n_n.rhsNonContracting by decide)]
  rfl

theorem matmul_pool_apply {φ₁ φ₂ : FTy} (l : FVec Ideal S200x32 φ₁) (r : FVec Ideal S32x16 φ₂) (p : Fin 200) (q : Fin 16) :
    matmul dot_S200x32_S32x16_S200x16_1_0_0_1_n_n none l r (constant (F := Ideal) S200x16 .f32 0x00000000#32) (ix2 p q)
      = ∑ k : Fin 32, l (ix2 p k) * r (ix2 k q) := by
  simp only [matmul]
  rw [Ideal.matmul_constant_zero_apply, ← Equiv.sum_comp (ValueIdx.contrEquiv1 dot_S200x32_S32x16_S200x16_1_0_0_1_n_n 32 rfl rfl).symm]
  refine Finset.sum_congr rfl fun k _ => ?_
  have hk := ValueIdx.contrEquiv1_symm_val dot_S200x32_S32x16_S200x16_1_0_0_1_n_n 32 rfl rfl k
  have el : dot_S200x32_S32x16_S200x16_1_0_0_1_n_n.lhsIdx (ix2 p q) ((ValueIdx.contrEquiv1 dot_S200x32_S32x16_S200x16_1_0_0_1_n_n 32 rfl rfl).symm k) = ix2 p k := funext fun a => Fin.ext (by
    match a with
    | ⟨0, _⟩ => exact lhs_pool_0 _ _
    | ⟨1, _⟩ => exact (lhs_pool_1 _ _).trans hk)
  have er : dot_S200x32_S32x16_S200x16_1_0_0_1_n_n.rhsIdx (ix2 p q) ((ValueIdx.contrEquiv1 dot_S200x32_S32x16_S200x16_1_0_0_1_n_n 32 rfl rfl).symm k) = ix2 k q := funext fun a => Fin.ext (by
    match a with
    | ⟨0, _⟩ => exact (rhs_pool_0 _ _).trans hk
    | ⟨1, _⟩ => exact rhs_pool_1 _ _)
  rw [el, er]

/-! ## The kernel's payloads at a row and a column -/

/-- The projection S = X · W1 (the change of float format after it is the identity). -/
theorem k0_pay2_apply (v5 : FVec Ideal S10000x128 .f32) (v6 : FVec Ideal S128x64 .f32) (p : Fin 10000) (q : Fin 64) :
    k0_pay2 (F := Ideal) v5 v6 (ix2 p q) = ∑ k : Fin 128, v5 (ix2 p k) * v6 (ix2 k q) := by
  unfold k0_pay2
  rw [ValueIdx.truncf_apply, matmul_proj_apply]

/-- The change of float format of a block of adjacency rows is the identity. -/
theorem k1_pay2_eq (v3 : FVec Ideal S200x10000 .f32) : k1_pay2 (F := Ideal) v3 = v3 := rfl

/-- A block of 200 rows of T = relu(A · S + b1) · W2. -/
theorem k1_pay4_apply (v3 : FVec Ideal S200x10000 .f32) (v26 : FVec Ideal S10000x64 .bf16) (v29 : FVec Ideal S1x64 .f32) (v35 : FVec Ideal S64x32 .f32)
    (p : Fin 200) (q : Fin 32) :
    k1_pay4 (F := Ideal) v3 v26 v29 v35 (ix2 p q)
      = ∑ l : Fin 64, max ((∑ n : Fin 10000, v3 (ix2 p n) * v26 (ix2 n l)) + v29 (ix2 (0 : Fin 1) l)) (Ideal.ofBits .f32 0x00000000#32) * v35 (ix2 l q) := by
  unfold k1_pay4
  rw [shapeCast_self, matmul_mix_apply]
  refine Finset.sum_congr rfl fun l _ => ?_
  rw [ValueIdx.maximumf_apply, ValueIdx.addf_apply, matmul_gath64_apply, shapeCast_self, shapeCast_self, ValueIdx.broadcastTo_1b_ab_apply, ValueIdx.broadcast_apply, k1_pay2_eq]
  rfl

/-- A block of 200 rows of x = A · T + b2. -/
theorem k1_pay7_apply (v4 : FVec Ideal S200x10000 .bf16) (v26 : FVec Ideal S10000x32 .f32) (v29 : FVec Ideal S1x32 .f32) (p : Fin 200) (q : Fin 32) :
    k1_pay7 (F := Ideal) v4 v26 v29 (ix2 p q) = (∑ k : Fin 10000, v4 (ix2 p k) * v26 (ix2 k q)) + v29 (ix2 (0 : Fin 1) q) := by
  unfold k1_pay7
  rw [ValueIdx.addf_apply, matmul_gath32_apply, shapeCast_self, ValueIdx.broadcastTo_1b_ab_apply]
  rfl

/-- The same block of p = relu(relu(x) · Wp). -/
theorem k1_pay8_apply (v4 : FVec Ideal S200x10000 .bf16) (v26 : FVec Ideal S10000x32 .f32) (v29 : FVec Ideal S1x32 .f32) (v36 : FVec Ideal S32x16 .f32)
    (p : Fin 200) (q : Fin 16) :
    k1_pay8 (F := Ideal) v4 v26 v29 v36 (ix2 p q)
      = max (∑ l : Fin 32, max (k1_pay7 (F := Ideal) v4 v26 v29 (ix2 p l)) (Ideal.ofBits .f32 0x00000000#32) * v36 (ix2 l q)) (Ideal.ofBits .f32 0x00000000#32) := by
  unfold k1_pay8
  rw [ValueIdx.maximumf_apply, matmul_pool_apply, ValueIdx.broadcast_apply]
  rfl

/-! ## A row of the adjacency matrix, read through its block of 200 rows -/

/-- Row r is row r % 200 of block r / 200: 200 · (r / 200) + r % 200 = r. -/
theorem rowsOf_row (a : FVec Ideal S10000x10000 .f32) (r k : Fin 10000) :
    rowsOf (F := Ideal) a (rowBlock r) (ix2 (rowIn r) k) = a (ix2 r k) := by
  unfold rowsOf
  refine congrArg a (funext fun d => Fin.ext ?_)
  match d with
  | ⟨0, _⟩ => exact Nat.div_add_mod r.val 200
  | ⟨1, _⟩ => rfl

/-- The bias vectors as one-row matrices, at their one row. -/
theorem biasRow64_apply (v : FVec Ideal S64 .f32) (l : Fin 64) : biasRow64 (F := Ideal) v (ix2 (0 : Fin 1) l) = v (ix1 l) := by
  unfold biasRow64
  exact ValueIdx.shapeCast_a_1a_apply v _ 0 l
theorem biasRow32_apply (v : FVec Ideal S32 .f32) (l : Fin 32) : biasRow32 (F := Ideal) v (ix2 (0 : Fin 1) l) = v (ix1 l) := by
  unfold biasRow32
  exact ValueIdx.shapeCast_a_1a_apply v _ 0 l

/-! ## The four stages as plain sums over rows and columns -/

/-- S = X · W1. -/
def proj (x : FVec Ideal S10000x128 .f32) (w : FVec Ideal S128x64 .f32) (n : Fin 10000) (l : Fin 64) : EReal :=
  ∑ f : Fin 128, x (ix2 n f) * w (ix2 f l)

/-- T = relu(A · S + b1) · W2. -/
def hidden (a : FVec Ideal S10000x10000 .f32) (s : Fin 10000 → Fin 64 → EReal) (b1 : FVec Ideal S64 .f32) (w2 : FVec Ideal S64x32 .f32)
    (k : Fin 10000) (j : Fin 32) : EReal :=
  ∑ l : Fin 64, max ((∑ n : Fin 10000, a (ix2 k n) * s n l) + b1 (ix1 l)) (Ideal.ofBits .f32 0x00000000#32) * w2 (ix2 l j)

/-- x = A · T + b2. -/
def layerOut (a : FVec Ideal S10000x10000 .f32) (t : Fin 10000 → Fin 32 → EReal) (b2 : FVec Ideal S32 .f32) (r : Fin 10000) (j : Fin 32) : EReal :=
  (∑ k : Fin 10000, a (ix2 r k) * t k j) + b2 (ix1 j)

/-- p = relu(relu(x) · Wp). -/
def pooled (x : Fin 10000 → Fin 32 → EReal) (wp : FVec Ideal S32x16 .f32) (r : Fin 10000) (c : Fin 16) : EReal :=
  max (∑ l : Fin 32, max (x r l) (Ideal.ofBits .f32 0x00000000#32) * wp (ix2 l c)) (Ideal.ofBits .f32 0x00000000#32)

/-! ## The kernel's results are these stages -/

section KernelSide
variable (x0 : FVec Ideal S10000x128 .f32) (x2 : FVec Ideal S10000x10000 .f32) (x7 : FVec Ideal S128x64 .f32) (x8 : FVec Ideal S64 .f32)
  (x9 : FVec Ideal S64x32 .f32) (x10 : FVec Ideal S32 .f32) (x11 : FVec Ideal S32x16 .f32)

theorem ker_proj (n : Fin 10000) (l : Fin 64) : k0_pay2 (F := Ideal) x0 x7 (ix2 n l) = proj x0 x7 n l :=
  k0_pay2_apply x0 x7 n l

theorem ker_hidden (k : Fin 10000) (j : Fin 32) :
    TbOf (F := Ideal) x2 (k0_pay2 (F := Ideal) x0 x7) (biasRow64 x8) x9 (ix2 k j) = hidden x2 (proj x0 x7) x8 x9 k j := by
  unfold TbOf hidden
  show k1_pay4 (F := Ideal) (rowsOf x2 (rowBlock k)) (k0_pay2 (F := Ideal) x0 x7) (biasRow64 x8) x9 (ix2 (rowIn k) j) = _
  rw [k1_pay4_apply]
  refine Finset.sum_congr rfl fun l _ => ?_
  have hs : ∑ n : Fin 10000, rowsOf (F := Ideal) x2 (rowBlock k) (ix2 (rowIn k) n) * k0_pay2 (F := Ideal) x0 x7 (ix2 n l)
      = ∑ n : Fin 10000, x2 (ix2 k n) * proj x0 x7 n l :=
    Finset.sum_congr rfl fun n _ => by rw [rowsOf_row, ker_proj]
  rw [hs, biasRow64_apply]

theorem ker_layerOut (r : Fin 10000) (j : Fin 32) :
    KX2 (F := Ideal) x0 x2 x7 x8 x9 x10 (ix2 r j) = layerOut x2 (hidden x2 (proj x0 x7) x8 x9) x10 r j := by
  unfold KX2 X2Of layerOut
  show k1_pay7 (F := Ideal) (k1_pay2 (F := Ideal) (rowsOf x2 (rowBlock r))) (TbOf (F := Ideal) x2 (k0_pay2 (F := Ideal) x0 x7) (biasRow64 x8) x9) (biasRow32 x10) (ix2 (rowIn r) j) = _
  rw [k1_pay7_apply, k1_pay2_eq]
  have hs : ∑ k : Fin 10000, rowsOf (F := Ideal) x2 (rowBlock r) (ix2 (rowIn r) k) * TbOf (F := Ideal) x2 (k0_pay2 (F := Ideal) x0 x7) (biasRow64 x8) x9 (ix2 k j)
      = ∑ k : Fin 10000, x2 (ix2 r k) * hidden x2 (proj x0 x7) x8 x9 k j :=
    Finset.sum_congr rfl fun k _ => by rw [rowsOf_row, ker_hidden]
  rw [hs, biasRow32_apply]

theorem ker_pooled (r : Fin 10000) (c : Fin 16) :
    KP2 (F := Ideal) x0 x2 x7 x8 x9 x10 x11 (ix2 r c) = pooled (layerOut x2 (hidden x2 (proj x0 x7) x8 x9) x10) x11 r c := by
  unfold KP2 P2Of pooled
  show k1_pay8 (F := Ideal) (k1_pay2 (F := Ideal) (rowsOf x2 (rowBlock r))) (TbOf (F := Ideal) x2 (k0_pay2 (F := Ideal) x0 x7) (biasRow64 x8) x9) (biasRow32 x10) x11 (ix2 (rowIn r) c) = _
  rw [k1_pay8_apply]
  have hs : ∑ l : Fin 32, max (k1_pay7 (F := Ideal) (k1_pay2 (F := Ideal) (rowsOf x2 (rowBlock r))) (TbOf (F := Ideal) x2 (k0_pay2 (F := Ideal) x0 x7) (biasRow64 x8) x9) (biasRow32 x10) (ix2 (rowIn r) l)) (Ideal.ofBits .f32 0x00000000#32) * x11 (ix2 l c)
      = ∑ l : Fin 32, max (layerOut x2 (hidden x2 (proj x0 x7) x8 x9) x10 r l) (Ideal.ofBits .f32 0x00000000#32) * x11 (ix2 l c) :=
    Finset.sum_congr rfl fun l _ => by rw [← ker_layerOut]; rfl
  rw [hs]

end KernelSide

/-! ## The reference's results are the same stages -/

section ReferenceSide
open Cert.ReferenceIdeal.Read

/-! The reference's operand indices of each product, and of each bias broadcast, at a row and a column. -/

theorem lidx_v11 (n : Fin 10000) (l : Fin 64) (f : Fin 128) : lidx_main_v11 (ix2 n l) f = ix2 n f :=
  funext fun a => Fin.ext (by match a with | ⟨0, _⟩ => rfl | ⟨1, _⟩ => rfl)
theorem ridx_v11 (n : Fin 10000) (l : Fin 64) (f : Fin 128) : ridx_main_v11 (ix2 n l) f = ix2 f l :=
  funext fun a => Fin.ext (by match a with | ⟨0, _⟩ => rfl | ⟨1, _⟩ => rfl)
theorem lidx_v12 (k : Fin 10000) (l : Fin 64) (n : Fin 10000) : lidx_main_v12 (ix2 k l) n = ix2 k n :=
  funext fun a => Fin.ext (by match a with | ⟨0, _⟩ => rfl | ⟨1, _⟩ => rfl)
theorem ridx_v12 (k : Fin 10000) (l : Fin 64) (n : Fin 10000) : ridx_main_v12 (ix2 k l) n = ix2 n l :=
  funext fun a => Fin.ext (by match a with | ⟨0, _⟩ => rfl | ⟨1, _⟩ => rfl)
theorem lidx_v17 (k : Fin 10000) (j : Fin 32) (l : Fin 64) : lidx_main_v17 (ix2 k j) l = ix2 k l :=
  funext fun a => Fin.ext (by match a with | ⟨0, _⟩ => rfl | ⟨1, _⟩ => rfl)
theorem ridx_v17 (k : Fin 10000) (j : Fin 32) (l : Fin 64) : ridx_main_v17 (ix2 k j) l = ix2 l j :=
  funext fun a => Fin.ext (by match a with | ⟨0, _⟩ => rfl | ⟨1, _⟩ => rfl)
theorem lidx_v18 (r : Fin 10000) (j : Fin 32) (k : Fin 10000) : lidx_main_v18 (ix2 r j) k = ix2 r k :=
  funext fun a => Fin.ext (by match a with | ⟨0, _⟩ => rfl | ⟨1, _⟩ => rfl)
theorem ridx_v18 (r : Fin 10000) (j : Fin 32) (k : Fin 10000) : ridx_main_v18 (ix2 r j) k = ix2 k j :=
  funext fun a => Fin.ext (by match a with | ⟨0, _⟩ => rfl | ⟨1, _⟩ => rfl)
theorem lidx_v26 (r : Fin 10000) (c : Fin 16) (l : Fin 32) : lidx_main_v26 (ix2 r c) l = ix2 r l :=
  funext fun a => Fin.ext (by match a with | ⟨0, _⟩ => rfl | ⟨1, _⟩ => rfl)
theorem ridx_v26 (r : Fin 10000) (c : Fin 16) (l : Fin 32) : ridx_main_v26 (ix2 r c) l = ix2 l c :=
  funext fun a => Fin.ext (by match a with | ⟨0, _⟩ => rfl | ⟨1, _⟩ => rfl)
theorem idx_bias64 (k : Fin 10000) (l : Fin 64) : idx_main_v13 (idx_main_v14 (ix2 k l)) = ix1 l :=
  funext fun a => Fin.ext (by match a with | ⟨0, _⟩ => rfl)
theorem idx_bias32 (r : Fin 10000) (j : Fin 32) : idx_main_v19 (idx_main_v20 (ix2 r j)) = ix1 j :=
  funext fun a => Fin.ext (by match a with | ⟨0, _⟩ => rfl)

variable (x0 : (⟨Cert.ReferenceIdeal.S10000x128, .f32⟩ : BufTy).Contents (Elt Ideal)) (x2 : (⟨Cert.ReferenceIdeal.S10000x10000, .f32⟩ : BufTy).Contents (Elt Ideal))
  (x7 : (⟨Cert.ReferenceIdeal.S128x64, .f32⟩ : BufTy).Contents (Elt Ideal)) (x8 : (⟨Cert.ReferenceIdeal.S64, .f32⟩ : BufTy).Contents (Elt Ideal))
  (x9 : (⟨Cert.ReferenceIdeal.S64x32, .f32⟩ : BufTy).Contents (Elt Ideal)) (x10 : (⟨Cert.ReferenceIdeal.S32, .f32⟩ : BufTy).Contents (Elt Ideal))
  (x11 : (⟨Cert.ReferenceIdeal.S32x16, .f32⟩ : BufTy).Contents (Elt Ideal))

theorem ref_proj (n : Fin 10000) (l : Fin 64) : val_main_v11 (F := Ideal) x0 x7 (ix2 n l) = proj x0 x7 n l := by
  rw [val_main_v11_apply]
  exact Finset.sum_congr rfl fun f _ => by rw [lidx_v11, ridx_v11]

theorem ref_hidden (k : Fin 10000) (j : Fin 32) :
    val_main_v17 (F := Ideal) x0 x2 x7 x8 x9 (ix2 k j) = hidden x2 (proj x0 x7) x8 x9 k j := by
  rw [val_main_v17_apply]
  unfold hidden
  refine Finset.sum_congr rfl fun l _ => ?_
  rw [lidx_v17, ridx_v17, val_main_v16_apply, val_main_v15_apply, val_main_v12_apply, val_main_v14_apply, val_main_v13_apply,
    val_main_call1_v0_apply, val_main_call1_cst_apply, idx_bias64]
  have hs : ∑ n : Fin 10000, x2 (lidx_main_v12 (ix2 k l) n) * val_main_v11 (F := Ideal) x0 x7 (ridx_main_v12 (ix2 k l) n)
      = ∑ n : Fin 10000, x2 (ix2 k n) * proj x0 x7 n l :=
    Finset.sum_congr rfl fun n _ => by rw [lidx_v12, ridx_v12, ref_proj]
  rw [hs]
  rfl

theorem ref_layerOut (r : Fin 10000) (j : Fin 32) :
    val_main_v21 (F := Ideal) x0 x2 x7 x8 x9 x10 (ix2 r j) = layerOut x2 (hidden x2 (proj x0 x7) x8 x9) x10 r j := by
  rw [val_main_v21_apply, val_main_v18_apply, val_main_v20_apply, val_main_v19_apply, idx_bias32]
  have hs : ∑ k : Fin 10000, x2 (lidx_main_v18 (ix2 r j) k) * val_main_v17 (F := Ideal) x0 x2 x7 x8 x9 (ridx_main_v18 (ix2 r j) k)
      = ∑ k : Fin 10000, x2 (ix2 r k) * hidden x2 (proj x0 x7) x8 x9 k j :=
    Finset.sum_congr rfl fun k _ => by rw [lidx_v18, ridx_v18, ref_hidden]
  rw [hs]
  rfl

theorem ref_pooled (r : Fin 10000) (c : Fin 16) :
    val_main_v27 (F := Ideal) x0 x2 x7 x8 x9 x10 x11 (ix2 r c) = pooled (layerOut x2 (hidden x2 (proj x0 x7) x8 x9) x10) x11 r c := by
  rw [val_main_v27_apply, val_main_v26_apply, val_main_call5_v0_apply, val_main_call5_cst_apply]
  have hs : ∑ l : Fin 32, val_main_v25 (F := Ideal) x0 x2 x7 x8 x9 x10 (lidx_main_v26 (ix2 r c) l) * x11 (ridx_main_v26 (ix2 r c) l)
      = ∑ l : Fin 32, max (layerOut x2 (hidden x2 (proj x0 x7) x8 x9) x10 r l) (Ideal.ofBits .f32 0x00000000#32) * x11 (ix2 l c) :=
    Finset.sum_congr rfl fun l _ => by
      rw [lidx_v26, ridx_v26, val_main_v25_apply, ref_layerOut, val_main_call4_v0_apply, val_main_call4_cst_apply]
      rfl
  rw [hs]
  rfl

end ReferenceSide

end Cert.Bridge.Second

namespace Cert.Bridge

open Idealize.ShloMosaic

theorem x2_eq (x0 : (⟨Cert.ReferenceIdeal.S10000x128, .f32⟩ : BufTy).Contents (Elt Ideal)) (x2 : (⟨Cert.ReferenceIdeal.S10000x10000, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal)) :
    Cert.KernelIdeal.Spec.KX2 (F := Ideal) x0 x2 x7 x8 x9 x10 = Cert.ReferenceIdeal.Read.val_main_v21 (F := Ideal) x0 x2 x7 x8 x9 x10 := by
  funext i
  rw [ValueIdx.eq_ix2 i]
  exact (Second.ker_layerOut x0 x2 x7 x8 x9 x10 (i 0) (i 1)).trans (Second.ref_layerOut x0 x2 x7 x8 x9 x10 (i 0) (i 1)).symm
theorem p2_eq (x0 : (⟨Cert.ReferenceIdeal.S10000x128, .f32⟩ : BufTy).Contents (Elt Ideal)) (x2 : (⟨Cert.ReferenceIdeal.S10000x10000, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal)) (x11 : (⟨Cert.ReferenceIdeal.S32x16, .f32⟩ : BufTy).Contents (Elt Ideal)) :
    Cert.KernelIdeal.Spec.KP2 (F := Ideal) x0 x2 x7 x8 x9 x10 x11 = Cert.ReferenceIdeal.Read.val_main_v27 (F := Ideal) x0 x2 x7 x8 x9 x10 x11 := by
  funext i
  rw [ValueIdx.eq_ix2 i]
  exact (Second.ker_pooled x0 x2 x7 x8 x9 x10 x11 (i 0) (i 1)).trans (Second.ref_pooled x0 x2 x7 x8 x9 x10 x11 (i 0) (i 1)).symm

end Cert.Bridge

end
-- ==== Proof.lean ====
/-
  Two graph-convolution branches and a shared prototype head, x = A · (relu(A · (X · W1) + b1) · W2) + b2 and
  p = relu(relu(x) · Wp), once with (A_s, W1a, b1a, W2a, b2a) and once with (A_f, W1b, b1b, W2b, b2b).

  The kernel computes them in two pallas_calls. The first stores S_a = X · W1a and S_b = X · W1b. The second walks a grid of
  2 × 50 points: the first fifty points each store 200 rows of T = relu(A · S + b1) · W2 into a resident scratch matrix (one
  per branch) and leave the outputs alone; the last fifty each read the complete T and store 200 rows of x = A · T + b2
  and of p. An output block is written back to its array only at those last fifty points, and their blocks tile the array.

  What is proved: both printed programs and the reference run to the end without a fault and leave the twelve arguments
  unchanged; the ideal pass rewrote nothing, so there is nothing to preserve; and over the extended reals, where a change
  of float format is the identity and a matrix product is a plain sum of products, the kernel's four result arrays are the
  reference's, element by element: the two sides are the same composition of sums, maxima with zero and bias additions,
  the kernel merely taking the rows of the two outer products 200 at a time. No algebraic law is used beyond that, and
  the finiteness of the inputs is never opened.
-/
import proofs.«150603_g79422535238402_cont_9to1c4b_784_13_alg».proof.Defs
import proofs.«150603_g79422535238402_cont_9to1c4b_784_13_alg».proof.Proof.Gen.Kernel
import proofs.«150603_g79422535238402_cont_9to1c4b_784_13_alg».proof.Proof.Gen.KernelIdeal
import proofs.«150603_g79422535238402_cont_9to1c4b_784_13_alg».proof.Proof.Gen.ReferenceIdeal
import proofs.«150603_g79422535238402_cont_9to1c4b_784_13_alg».proof.Proof.Gen.Pre_finite_inputs
import proofs.«150603_g79422535238402_cont_9to1c4b_784_13_alg».proof.Proof.Gen.ReferenceIdeal.Run
import proofs.«150603_g79422535238402_cont_9to1c4b_784_13_alg».proof.Proof.Gen.ReferenceIdeal.Read
import proofs.«150603_g79422535238402_cont_9to1c4b_784_13_alg».proof.Proof.KB.Run
import proofs.«150603_g79422535238402_cont_9to1c4b_784_13_alg».proof.Proof.KI.Final
import proofs.«150603_g79422535238402_cont_9to1c4b_784_13_alg».proof.Proof.BridgeA
import proofs.«150603_g79422535238402_cont_9to1c4b_784_13_alg».proof.Proof.BridgeB
import Idealize.ShloMosaic.Adequacy
import Idealize.ShloMosaic.Init

set_option maxRecDepth 16384

noncomputable section

namespace Cert.Proof

open Idealize.ShloMosaic Idealize.ShloMosaic.TcCoe Idealize.SL.Sem

/-- An HBM buffer of @main is one of the TensorCore's unscoped references. -/
local macro "uc_mem" : tactic => `(tactic| exact Finset.mem_filter.mpr ⟨StableHlo.devRef_mem_tcRefs _, by decide⟩)

/-- The word-level program runs and leaves its arguments as launched: the run ends with every unscoped buffer at the last
    valuation, which at an argument is the launch memory. -/
theorem frame_k : Cert.frame_Kernel := fun m ρ _ =>
  (θ_run Cert.Kernel.defs _ _).mono (fun r h c =>
    ⟨(h c Cert.Kernel.main_arg0 (by uc_mem)).trans (Cert.Kernel.Hand.W3_arg0 m c),
      (h c Cert.Kernel.main_arg1 (by uc_mem)).trans (Cert.Kernel.Hand.W3_arg1 m c),
      (h c Cert.Kernel.main_arg2 (by uc_mem)).trans (Cert.Kernel.Hand.W3_arg2 m c),
      (h c Cert.Kernel.main_arg3 (by uc_mem)).trans (Cert.Kernel.Hand.W3_arg3 m c),
      (h c Cert.Kernel.main_arg4 (by uc_mem)).trans (Cert.Kernel.Hand.W3_arg4 m c),
      (h c Cert.Kernel.main_arg5 (by uc_mem)).trans (Cert.Kernel.Hand.W3_arg5 m c),
      (h c Cert.Kernel.main_arg6 (by uc_mem)).trans (Cert.Kernel.Hand.W3_arg6 m c),
      (h c Cert.Kernel.main_arg7 (by uc_mem)).trans (Cert.Kernel.Hand.W3_arg7 m c),
      (h c Cert.Kernel.main_arg8 (by uc_mem)).trans (Cert.Kernel.Hand.W3_arg8 m c),
      (h c Cert.Kernel.main_arg9 (by uc_mem)).trans (Cert.Kernel.Hand.W3_arg9 m c),
      (h c Cert.Kernel.main_arg10 (by uc_mem)).trans (Cert.Kernel.Hand.W3_arg10 m c),
      (h c Cert.Kernel.main_arg11 (by uc_mem)).trans (Cert.Kernel.Hand.W3_arg11 m c)⟩)
    (Cert.Kernel.Hand.run_main (F := Bits) m ρ)

/-- The same for the idealized program. -/
theorem frame_ki : Cert.frame_KernelIdeal := fun m ρ _ =>
  (θ_run Cert.KernelIdeal.defs _ _).mono (fun r h c =>
    ⟨(h c Cert.KernelIdeal.main_arg0 (by uc_mem)).trans (Cert.KernelIdeal.Hand.W3_arg0 m c),
      (h c Cert.KernelIdeal.main_arg1 (by uc_mem)).trans (Cert.KernelIdeal.Hand.W3_arg1 m c),
      (h c Cert.KernelIdeal.main_arg2 (by uc_mem)).trans (Cert.KernelIdeal.Hand.W3_arg2 m c),
      (h c Cert.KernelIdeal.main_arg3 (by uc_mem)).trans (Cert.KernelIdeal.Hand.W3_arg3 m c),
      (h c Cert.KernelIdeal.main_arg4 (by uc_mem)).trans (Cert.KernelIdeal.Hand.W3_arg4 m c),
      (h c Cert.KernelIdeal.main_arg5 (by uc_mem)).trans (Cert.KernelIdeal.Hand.W3_arg5 m c),
      (h c Cert.KernelIdeal.main_arg6 (by uc_mem)).trans (Cert.KernelIdeal.Hand.W3_arg6 m c),
      (h c Cert.KernelIdeal.main_arg7 (by uc_mem)).trans (Cert.KernelIdeal.Hand.W3_arg7 m c),
      (h c Cert.KernelIdeal.main_arg8 (by uc_mem)).trans (Cert.KernelIdeal.Hand.W3_arg8 m c),
      (h c Cert.KernelIdeal.main_arg9 (by uc_mem)).trans (Cert.KernelIdeal.Hand.W3_arg9 m c),
      (h c Cert.KernelIdeal.main_arg10 (by uc_mem)).trans (Cert.KernelIdeal.Hand.W3_arg10 m c),
      (h c Cert.KernelIdeal.main_arg11 (by uc_mem)).trans (Cert.KernelIdeal.Hand.W3_arg11 m c)⟩)
    (Cert.KernelIdeal.Hand.run_main (F := Ideal) m ρ)

/-- The reference is a straight line of host operations: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The four results agree. The kernel's run ends with p1, p2, x1, x2 at the pure functions KP1, KP2, KX1, KX2 of its
    argument arrays; the reference's ends with each result at its composed term of ITS argument arrays, which agree with
    the kernel's; and the two are one function over the extended reals. -/
theorem algebraic : Cert.algebraic_KernelIdeal_ReferenceIdeal := by
  intro m ρ m' ρ' _ hagree
  refine ⟨fun c => Cert.KernelIdeal.Spec.KP1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)),
    fun c => Cert.KernelIdeal.Spec.KP2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Spec.KX1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Spec.KX2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c Cert.KernelIdeal.main_v5_2 (by uc_mem)).trans (Cert.KernelIdeal.Hand.final_p1 m c),
       (h c Cert.KernelIdeal.main_v5_3 (by uc_mem)).trans (Cert.KernelIdeal.Hand.final_p2 m c),
       (h c Cert.KernelIdeal.main_v5_0 (by uc_mem)).trans (Cert.KernelIdeal.Hand.final_x1 m c),
       (h c Cert.KernelIdeal.main_v5_1 (by uc_mem)).trans (Cert.KernelIdeal.Hand.final_x2 m c),
      (h c Cert.KernelIdeal.main_arg0 (by uc_mem)).trans (Cert.KernelIdeal.Hand.W3_arg0 m c),
      (h c Cert.KernelIdeal.main_arg1 (by uc_mem)).trans (Cert.KernelIdeal.Hand.W3_arg1 m c),
      (h c Cert.KernelIdeal.main_arg2 (by uc_mem)).trans (Cert.KernelIdeal.Hand.W3_arg2 m c),
      (h c Cert.KernelIdeal.main_arg3 (by uc_mem)).trans (Cert.KernelIdeal.Hand.W3_arg3 m c),
      (h c Cert.KernelIdeal.main_arg4 (by uc_mem)).trans (Cert.KernelIdeal.Hand.W3_arg4 m c),
      (h c Cert.KernelIdeal.main_arg5 (by uc_mem)).trans (Cert.KernelIdeal.Hand.W3_arg5 m c),
      (h c Cert.KernelIdeal.main_arg6 (by uc_mem)).trans (Cert.KernelIdeal.Hand.W3_arg6 m c),
      (h c Cert.KernelIdeal.main_arg7 (by uc_mem)).trans (Cert.KernelIdeal.Hand.W3_arg7 m c),
      (h c Cert.KernelIdeal.main_arg8 (by uc_mem)).trans (Cert.KernelIdeal.Hand.W3_arg8 m c),
      (h c Cert.KernelIdeal.main_arg9 (by uc_mem)).trans (Cert.KernelIdeal.Hand.W3_arg9 m c),
      (h c Cert.KernelIdeal.main_arg10 (by uc_mem)).trans (Cert.KernelIdeal.Hand.W3_arg10 m c),
      (h c Cert.KernelIdeal.main_arg11 (by uc_mem)).trans (Cert.KernelIdeal.Hand.W3_arg11 m c)⟩)
      (Cert.KernelIdeal.Hand.run_main (F := Ideal) m ρ)
  · refine (θ_run Cert.ReferenceIdeal.defs _ _).mono (fun r h c => ?_) (Cert.ReferenceIdeal.Value.run (F := Ideal) m' ρ')
    obtain ⟨h24, h27, h10, h21, hargs⟩ := h c
    obtain ⟨e0, e1, e2, e3, e4, e5, e6, e7, e8, e9, e10, e11⟩ := hagree c
    refine ⟨?_, ?_, ?_, ?_, hargs⟩
    · rw [h24, e0, e1, e3, e4, e5, e6, e11]
      exact (Cert.Bridge.p1_eq _ _ _ _ _ _ _).symm
    · rw [h27, e0, e2, e7, e8, e9, e10, e11]
      exact (Cert.Bridge.p2_eq _ _ _ _ _ _ _).symm
    · rw [h10, e0, e1, e3, e4, e5, e6]
      exact (Cert.Bridge.x1_eq _ _ _ _ _ _).symm
    · rw [h21, e0, e2, e7, e8, e9, e10]
      exact (Cert.Bridge.x2_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
